-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v120) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S2x1600000 : Shape := ⟨2, ![2, 1600000]⟩
abbrev S100000 : Shape := ⟨1, ![100000]⟩
abbrev S4x128 : Shape := ⟨2, ![4, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x128 : S_.BroadcastsInDim S4x128 (![] : Fin 0 → Fin S4x128.rank)
  reducesTo_S4x128_S_d0_1 : S4x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S128 .f32) (main_arg7 : FVec F S128x40 .f32) (main_arg8 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg7
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg8
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x4 .f32) (main_arg1 : IVec S2x1600000 32) (main_arg2 : IVec S100000 32) (main_arg3 : FVec F S4x128 .f32) (main_arg4 : FVec F S128 .f32) (main_arg5 : FVec F S128x128 .f32) (main_arg6 : FVec F S128 .f32) (main_arg7 : FVec F S128x40 .f32) (main_arg8 : FVec F S40 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x128 .f32 := Host.absf main_arg3
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x4 : Shape := ⟨2, ![100000, 4]⟩
abbrev S2x1600000 : Shape := ⟨2, ![2, 1600000]⟩
abbrev S100000 : Shape := ⟨1, ![100000]⟩
abbrev S4x128 : Shape := ⟨2, ![4, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x1 : Shape := ⟨2, ![100000, 1]⟩
abbrev S100000x5 : Shape := ⟨2, ![100000, 5]⟩
abbrev S100000x128 : Shape := ⟨2, ![100000, 128]⟩
abbrev S4000x5 : Shape := ⟨2, ![4000, 5]⟩
abbrev S4000x128 : Shape := ⟨2, ![4000, 128]⟩
abbrev S4000x4 : Shape := ⟨2, ![4000, 4]⟩
abbrev S4000x1 : Shape := ⟨2, ![4000, 1]⟩
abbrev S1700000x128 : Shape := ⟨2, ![1700000, 128]⟩
abbrev S1x128 : Shape := ⟨2, ![1, 128]⟩
abbrev S1x40 : Shape := ⟨2, ![1, 40]⟩
abbrev S1x1 : Shape := ⟨2, ![1, 1]⟩
abbrev S1 : Shape := ⟨1, ![1]⟩
abbrev S1x20x2 : Shape := ⟨3, ![1, 20, 2]⟩
abbrev S20 : Shape := ⟨1, ![20]⟩
abbrev S1x20x1 : Shape := ⟨3, ![1, 20, 1]⟩

abbrev nBuf : Space → Nat
  | .hbm => 90
  | .vmem => 25
  | .smem => 0
  | _ => 0

abbrev bufTy : (tb : Table) → Fin (tcTables nBuf tb) → BufTy
  | .hbm, ⟨0, _⟩ => ⟨S100000x4, .f32⟩
  | .hbm, ⟨1, _⟩ => ⟨S2x1600000, .i32⟩
  | .hbm, ⟨2, _⟩ => ⟨S100000, .i32⟩
  | .hbm, ⟨3, _⟩ => ⟨S4x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x40, .f32⟩
  | .hbm, ⟨8, _⟩ => ⟨S40, .f32⟩
  | .hbm, ⟨9, _⟩ => ⟨S100000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S1x1600000, .i32⟩
  | .hbm, ⟨14, _⟩ => ⟨S1600000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S100000x1, .f32⟩
  | .hbm, ⟨31, _⟩ => ⟨S100000x5, .f32⟩
  | .hbm, ⟨32, _⟩ => ⟨S100000x128, .bf16⟩
  | .hbm, ⟨33, _⟩ => ⟨S_, .i32⟩
  | .hbm, ⟨34, _⟩ => ⟨S1700000, .i32⟩
  | .hbm, ⟨35, _⟩ => ⟨S1700000, .i1⟩
  | .hbm, ⟨36, _⟩ => ⟨S_, .i32⟩
  | .hbm, ⟨37, _⟩ => ⟨S1700000, .i32⟩
  | .hbm, ⟨38, _⟩ => ⟨S1700000, .i32⟩
  | .hbm, ⟨39, _⟩ => ⟨S1700000, .i32⟩
  | .hbm, ⟨40, _⟩ => ⟨S1700000x1, .i32⟩
  | .hbm, ⟨41, _⟩ => ⟨S1700000x128, .bf16⟩
  | .hbm, ⟨42, _⟩ => ⟨S1700000x128, .f32⟩
  | .hbm, ⟨43, _⟩ => ⟨S_, .f32⟩
  | .hbm, ⟨44, _⟩ => ⟨S100000x128, .f32⟩
  | .hbm, ⟨45, _⟩ => ⟨S1700000x1, .i32⟩
  | .hbm, ⟨46, _⟩ => ⟨S100000x128, .f32⟩
  | .hbm, ⟨47, _⟩ => ⟨S100000x1, .f32⟩
  | .hbm, ⟨48, _⟩ => ⟨S100000x128, .bf16⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .bf16⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S100000x1, .i32⟩
  | .hbm, ⟨64, _⟩ => ⟨S100000x1, .f32⟩
  | .hbm, ⟨65, _⟩ => ⟨S1x40, .f32⟩
  | .hbm, ⟨66, _⟩ => ⟨S1x20x2, .f32⟩
  | .hbm, ⟨67, _⟩ => ⟨S100000x1, .f32⟩
  | .hbm, ⟨68, _⟩ => ⟨S100000, .f32⟩
  | .hbm, ⟨69, _⟩ => ⟨S_, .f32⟩
  | .hbm, ⟨70, _⟩ => ⟨S100000, .f32⟩
  | .hbm, ⟨71, _⟩ => ⟨S100000, .i1⟩
  | .hbm, ⟨72, _⟩ => ⟨S100000x1, .f32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .i1⟩
  | .hbm, ⟨77, _⟩ => ⟨S100000, .i1⟩
  | .hbm, ⟨78, _⟩ => ⟨S100000, .i32⟩
  | .hbm, ⟨79, _⟩ => ⟨S_, .i32⟩
  | .hbm, ⟨80, _⟩ => ⟨S_, .i32⟩
  | .hbm, ⟨81, _⟩ => ⟨S20, .i32⟩
  | .hbm, ⟨82, _⟩ => ⟨S20, .i32⟩
  | .hbm, ⟨83, _⟩ => ⟨S20, .i1⟩
  | .hbm, ⟨84, _⟩ => ⟨S1x20x1, .i1⟩
  | .hbm, ⟨85, _⟩ => ⟨S_, .f32⟩
  | .hbm, ⟨86, _⟩ => ⟨S_, .f32⟩
  | .hbm, ⟨87, _⟩ => ⟨S1x20x2, .i1⟩
  | .hbm, ⟨88, _⟩ => ⟨S1x20x2, .f32⟩
  | .hbm, ⟨89, _⟩ => ⟨S1x20x2, .f32⟩
  | .local _ .vmem, ⟨0, _⟩ => ⟨S4000x5, .f32⟩
  | .local _ .vmem, ⟨1, _⟩ => ⟨S4000x5, .f32⟩
  | .local _ .vmem, ⟨2, _⟩ => ⟨S4x128, .f32⟩
  | .local _ .vmem, ⟨3, _⟩ => ⟨S4000x128, .bf16⟩
  | .local _ .vmem, ⟨4, _⟩ => ⟨S4000x128, .bf16⟩
  | .local _ .vmem, ⟨5, _⟩ => ⟨S4000x128, .f32⟩
  | .local _ .vmem, ⟨6, _⟩ => ⟨S4000x128, .f32⟩
  | .local _ .vmem, ⟨7, _⟩ => ⟨S4000x1, .f32⟩
  | .local _ .vmem, ⟨8, _⟩ => ⟨S4000x1, .f32⟩
  | .local _ .vmem, ⟨9, _⟩ => ⟨S128, .f32⟩
  | .local _ .vmem, ⟨10, _⟩ => ⟨S128x128, .f32⟩
  | .local _ .vmem, ⟨11, _⟩ => ⟨S4000x128, .bf16⟩
  | .local _ .vmem, ⟨12, _⟩ => ⟨S4000x128, .bf16⟩
  | .local _ .vmem, ⟨13, _⟩ => ⟨S4000x128, .f32⟩
  | .local _ .vmem, ⟨14, _⟩ => ⟨S4000x128, .f32⟩
  | .local _ .vmem, ⟨15, _⟩ => ⟨S4000x1, .f32⟩
  | .local _ .vmem, ⟨16, _⟩ => ⟨S4000x1, .f32⟩
  | .local _ .vmem, ⟨17, _⟩ => ⟨S128, .f32⟩
  | .local _ .vmem, ⟨18, _⟩ => ⟨S4000x1, .i32⟩
  | .local _ .vmem, ⟨19, _⟩ => ⟨S4000x1, .i32⟩
  | .local _ .vmem, ⟨20, _⟩ => ⟨S128x40, .f32⟩
  | .local _ .vmem, ⟨21, _⟩ => ⟨S40, .f32⟩
  | .local _ .vmem, ⟨22, _⟩ => ⟨S1x40, .f32⟩
  | .local _ .vmem, ⟨23, _⟩ => ⟨S1x128, .f32⟩
  | .local _ .vmem, ⟨24, _⟩ => ⟨S1x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c : Ref sig .tc := ⟨.hbm, 33, rfl⟩
abbrev main_v18 : Ref sig .tc := ⟨.hbm, 34, rfl⟩
abbrev main_v19 : Ref sig .tc := ⟨.hbm, 35, rfl⟩
abbrev main_c_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_5 : Ref sig .tc := ⟨.hbm, 49, rfl⟩
abbrev main_v31 : Ref sig .tc := ⟨.hbm, 50, rfl⟩
abbrev main_v32 : Ref sig .tc := ⟨.hbm, 51, rfl⟩
abbrev main_c_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_11 : Ref sig .tc := ⟨.hbm, 85, rfl⟩
abbrev main_call1_v0 : Ref sig .tc := ⟨.hbm, 86, rfl⟩
abbrev main_call1_v1 : Ref sig .tc := ⟨.hbm, 87, rfl⟩
abbrev main_call1_v2 : Ref sig .tc := ⟨.hbm, 88, rfl⟩
abbrev main_v61 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_scratch0 : Ref sig .tc := ⟨.vmem, 23, rfl⟩
abbrev cc2_scratch1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc2_sem4_0 : DmaSem sig := 20
abbrev cc2_sem5_0 : DmaSem sig := 21
abbrev cc2_sem6_0 : DmaSem sig := 22

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x5 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def k2_cond2 (i : grid2.Coords) : BitVec 1 :=
  let arg0 : BitVec 32 := BitVec.ofNat 32 (i 0).val
  let c24_i32 : BitVec 32 := 24#32
  let v36 : BitVec 1 := Scalar.cmpi .eq arg0 c24_i32
  let v37 : BitVec 32 := Scalar.extui v36
  let c0_i32_17 : BitVec 32 := 0#32
  let v38 : BitVec 1 := Scalar.cmpi .ne v37 c0_i32_17
  v38

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S4000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S4000x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x40 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S40 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x40 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S100000_S100000x1_0 : S100000.BroadcastsInDim S100000x1 (![0] : Fin 1 → Fin S100000x1.rank)
  concatenates_S100000x4_S100000x1_S100000x5_d1 : Shape.Concatenates [S100000x4, S100000x1] S100000x5 1
  inb_S4000x5_S4000x5_0_0 : ∀ a, (![0, 0] : Fin 2 → Nat) a + S4000x5.size a ≤ S4000x5.size a
  h_S4000x5 : 0 < S4000x5.numel
  shapeCasts_S4000x5_S4000x5 : S4000x5.ShapeCasts S4000x5
  slices_S4000x5_o0_0_S4000x4 : S4000x5.Slices ![0, 0] S4000x4
  bitsLt_bf16_f32 : FTy.bits .bf16 < FTy.bits .f32
  slices_S4000x5_o0_4_S4000x1 : S4000x5.Slices ![0, 4] S4000x1
  inb_S4x128_S4x128_0_0 : ∀ a, (![0, 0] : Fin 2 → Nat) a + S4x128.size a ≤ S4x128.size a
  h_S4x128 : 0 < S4x128.numel
  broadcasts_S4000x1_S4000x128 : S4000x1.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1x1_S1x1_0_0 : ∀ a, (![0, 0] : Fin 2 → Nat) a + S1x1.size a ≤ S1x1.size a
  h_S1x1 : 0 < S1x1.numel
  shapeCasts_S1x1_S1x1 : S1x1.ShapeCasts S1x1
  natLt_1_32 : 1 < 32
  reduces_S4000x128_S128 : S4000x128.Reduces [0] S128
  reduces_S4000x1_S1 : S4000x1.Reduces [0] S1
  shapeCasts_S1_S1x1 : S1.ShapeCasts S1x1
  broadcasts_S1x1_S1x128 : S1x1.Broadcasts S1x128
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  shapeCasts_S40_S1x40 : S40.ShapeCasts S1x40
  inb_S1x40_S1x40_0_0 : ∀ a, (![0, 0] : Fin 2 → Nat) a + S1x40.size a ≤ S1x40.size a
  h_S1x40 : 0 < S1x40.numel
  shapeCasts_S1x40_S1x20x2 : S1x40.ShapeCasts S1x20x2
  slices_S100000x4_S100000x1_0_0 : S100000x4.Slices ![0, 0] S100000x1
  shapeCasts_S100000x1_S100000 : S100000x1.ShapeCasts S100000
  slices_S100000x4_S100000x1_0_1 : S100000x4.Slices ![0, 1] S100000x1
  reducesTo_S100000_S_d0 : S100000.ReducesTo [0] S_
  h_S_ : 0 < S_.numel
  bcast_S_S20 : S_.BroadcastsInDim S20 (![] : Fin 0 → Fin S20.rank)
  bcast_S20_S1x20x1_1 : S20.BroadcastsInDim S1x20x1 (![1] : Fin 1 → Fin S1x20x1.rank)
  bcast_S1x20x1_S1x20x2_0_1_2 : S1x20x1.BroadcastsInDim S1x20x2 (![0, 1, 2] : Fin 3 → Fin S1x20x2.rank)
  bcast_S_S1x20x2 : S_.BroadcastsInDim S1x20x2 (![] : Fin 0 → Fin S1x20x2.rank)
  scatter_S100000_S1700000x1_S1700000_n_0_0_1_wf : ScatterDims.WF S100000 S1700000x1 S1700000 [] [0] [0] 1
  dot_S4000x4_S4x128_S4000x128_1_0_0_1_n_n_wf : DotDims.WF S4000x4 S4x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x128_S4000x128_1_0_0_1_n_n_wf : DotDims.WF S4000x128 S128x128 S4000x128 [1] [0] [0] [1] [] []
  dot_S1x128_S128x40_S1x40_1_0_0_1_n_n_wf : DotDims.WF S1x128 S128x40 S1x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x5.size a ≤ S100000x5.size a
  hwx0_0 : ∀ i : grid0.Coords, EltTy.bits .f32 = 32 ∨ (Rect.block (s := S100000x5) S4000x5.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x128.size a ≤ S4x128.size a
  hwx0_1 : ∀ i : grid0.Coords, EltTy.bits .f32 = 32 ∨ (Rect.block (s := S4x128) S4x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x128.size a ≤ S100000x128.size a
  hwx1_4 : ∀ i : grid1.Coords, EltTy.bits .bf16 = 32 ∨ (Rect.block (s := S100000x128) S4000x128.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x128.size a ≤ S100000x128.size a
  hwx2_0 : ∀ i : grid2.Coords, EltTy.bits .f32 = 32 ∨ (Rect.block (s := S100000x128) S4000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x1.size a ≤ S100000x1.size a
  hwx2_1 : ∀ i : grid2.Coords, EltTy.bits .f32 = 32 ∨ (Rect.block (s := S100000x1) S4000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S4000x1.size a ≤ S100000x1.size a
  hwx2_3 : ∀ i : grid2.Coords, EltTy.bits .i32 = 32 ∨ (Rect.block (s := S100000x1) S4000x1.size (cc2_transform_3 i) (hinb2_3 i)).WholeWords (EltTy.packing .i32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x40.size a ≤ S128x40.size a
  hwx2_4 : ∀ i : grid2.Coords, EltTy.bits .f32 = 32 ∨ (Rect.block (s := S128x40) S128x40.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S40.size a ≤ S40.size a
  hwx2_5 : ∀ i : grid2.Coords, EltTy.bits .f32 = 32 ∨ (Rect.block (s := S40) S40.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x40.size a ≤ S1x40.size a
  hwx2_6 : ∀ i : grid2.Coords, EltTy.bits .f32 = 32 ∨ (Rect.block (s := S1x40) S1x40.size (cc2_transform_6 i) (hinb2_6 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def dot_S4000x4_S4x128_S4000x128_1_0_0_1_n_n : DotDims S4000x4 S4x128 S4000x128 where
  lhsContracting := [1]
  rhsContracting := [0]
  lhsNonContracting := [0]
  rhsNonContracting := [1]
  lhsBatch := []
  rhsBatch := []
  wf := dot_S4000x4_S4x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf
def dot_S1x128_S128x40_S1x40_1_0_0_1_n_n : DotDims S1x128 S128x40 S1x40 where
  lhsContracting := [1]
  rhsContracting := [0]
  lhsNonContracting := [0]
  rhsNonContracting := [1]
  lhsBatch := []
  rhsBatch := []
  wf := dot_S1x128_S128x40_S1x40_1_0_0_1_n_n_wf

abbrev win0_0 : Pipeline.Window sig grid0 :=
  Pipeline.Window.ofSpec (Memref.whole main_v16) S4000x5.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v17) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v28) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v30) S4000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S4000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v43) S4000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v42) S4000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg7) S128x40.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg8) S40.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v44) S1x40.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond2 i == 1#1) | ⟨_ + 7, h⟩ => absurd h (Nat.not_lt.2 (Nat.le_add_left _ _))

class Facts : Prop extends Facts₀ where

variable [Facts]
-- ==== ReferenceIdeal.lean ====
abbrev S100000x4 : Shape := ⟨2, ![100000, 4]⟩
abbrev S2x1600000 : Shape := ⟨2, ![2, 1600000]⟩
abbrev S100000 : Shape := ⟨1, ![100000]⟩
abbrev S4x128 : Shape := ⟨2, ![4, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S1x1600000 : Shape := ⟨2, ![1, 1600000]⟩
abbrev S1600000 : Shape := ⟨1, ![1600000]⟩
abbrev S1700000 : Shape := ⟨1, ![1700000]⟩
abbrev S100000x128 : Shape := ⟨2, ![100000, 128]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x1 : Shape := ⟨2, ![100000, 1]⟩
abbrev S1 : Shape := ⟨1, ![1]⟩
abbrev S1x1 : Shape := ⟨2, ![1, 1]⟩
abbrev S1x40 : Shape := ⟨2, ![1, 40]⟩
abbrev S1x20x2 : Shape := ⟨3, ![1, 20, 2]⟩
abbrev S20 : Shape := ⟨1, ![20]⟩
abbrev S1x20x1 : Shape := ⟨3, ![1, 20, 1]⟩

abbrev nBuf : Space → Nat
  | .hbm => 167
  | .vmem => 0
  | .smem => 0
  | _ => 0

abbrev hbmTy0_0 (i : Nat) : BufTy := match i % 128 with
  | 0 => ⟨S100000x4, .f32⟩
  | 1 => ⟨S2x1600000, .i32⟩
  | 2 => ⟨S100000, .i32⟩
  | 3 => ⟨S4x128, .f32⟩
  | 4 => ⟨S128, .f32⟩
  | 5 => ⟨S128x128, .f32⟩
  | 6 => ⟨S128, .f32⟩
  | 7 => ⟨S128x40, .f32⟩
  | 8 => ⟨S40, .f32⟩
  | 9 => ⟨S100000, .i32⟩
  | 10 => ⟨S1x1600000, .i32⟩
  | 11 => ⟨S1600000, .i32⟩
  | 12 => ⟨S1700000, .i32⟩
  | 13 => ⟨S1x1600000, .i32⟩
  | 14 => ⟨S1600000, .i32⟩
  | 15 => ⟨S1700000, .i32⟩
  | 16 => ⟨S100000x128, .f32⟩
  | 17 => ⟨S_, .f32⟩
  | 18 => ⟨S1700000, .f32⟩
  | 19 => ⟨S_, .f32⟩
  | 20 => ⟨S100000, .f32⟩
  | 21 => ⟨S1700000x1, .i32⟩
  | 22 => ⟨S100000, .f32⟩
  | 23 => ⟨S_, .f32⟩
  | 24 => ⟨S100000, .f32⟩
  | 25 => ⟨S100000, .i1⟩
  | 26 => ⟨S100000, .f32⟩
  | 27 => ⟨S_, .f32⟩
  | 28 => ⟨S_, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x128, .f32⟩
  | 59 => ⟨S1700000x1, .f32⟩
  | 60 => ⟨S1700000x128, .f32⟩
  | 61 => ⟨S1700000x128, .f32⟩
  | 62 => ⟨S_, .f32⟩
  | 63 => ⟨S100000x128, .f32⟩
  | 64 => ⟨S1700000x1, .i32⟩
  | 65 => ⟨S100000x128, .f32⟩
  | 66 => ⟨S1x128, .f32⟩
  | 67 => ⟨S100000x128, .f32⟩
  | 68 => ⟨S100000x128, .f32⟩
  | 69 => ⟨S100000x128, .f32⟩
  | 70 => ⟨S100000x128, .f32⟩
  | 71 => ⟨S_, .f32⟩
  | 72 => ⟨S1700000, .f32⟩
  | 73 => ⟨S_, .f32⟩
  | 74 => ⟨S100000, .f32⟩
  | 75 => ⟨S1700000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S_, .f32⟩
  | 83 => ⟨S100000, .f32⟩
  | 84 => ⟨S100000, .f32⟩
  | 85 => ⟨S_, .i32⟩
  | 86 => ⟨S1700000, .i32⟩
  | 87 => ⟨S1700000, .i1⟩
  | 88 => ⟨S_, .i32⟩
  | 89 => ⟨S1700000, .i32⟩
  | 90 => ⟨S1700000, .i32⟩
  | 91 => ⟨S1700000, .i32⟩
  | 92 => ⟨S1700000x1, .i32⟩
  | 93 => ⟨S1700000, .f32⟩
  | 94 => ⟨S_, .i32⟩
  | 95 => ⟨S1700000, .i32⟩
  | 96 => ⟨S1700000, .i1⟩
  | 97 => ⟨S_, .i32⟩
  | 98 => ⟨S1700000, .i32⟩
  | 99 => ⟨S1700000, .i32⟩
  | 100 => ⟨S1700000, .i32⟩
  | 101 => ⟨S1700000x1, .i32⟩
  | 102 => ⟨S1700000, .f32⟩
  | 103 => ⟨S1700000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x128, .f32⟩
  | 113 => ⟨S1700000x1, .f32⟩
  | 114 => ⟨S1700000x128, .f32⟩
  | 115 => ⟨S1700000x128, .f32⟩
  | 116 => ⟨S_, .f32⟩
  | 117 => ⟨S100000x128, .f32⟩
  | 118 => ⟨S1700000x1, .i32⟩
  | 119 => ⟨S100000x128, .f32⟩
  | 120 => ⟨S1x128, .f32⟩
  | 121 => ⟨S100000x128, .f32⟩
  | 122 => ⟨S100000x128, .f32⟩
  | 123 => ⟨S100000x128, .f32⟩
  | 124 => ⟨S_, .f32⟩
  | 125 => ⟨S1x128, .f32⟩
  | 126 => ⟨S100000x1, .i32⟩
  | 127 => ⟨S1x128, .f32⟩
  | _ => ⟨S100000x4, .f32⟩

abbrev hbmTy0_1 (i : Nat) : BufTy := match i % 128 with
  | 0 => ⟨S_, .f32⟩
  | 1 => ⟨S100000, .f32⟩
  | 2 => ⟨S_, .f32⟩
  | 3 => ⟨S1, .f32⟩
  | 4 => ⟨S100000x1, .i32⟩
  | 5 => ⟨S1, .f32⟩
  | 6 => ⟨S_, .f32⟩
  | 7 => ⟨S1, .f32⟩
  | 8 => ⟨S1, .f32⟩
  | 9 => ⟨S1x1, .f32⟩
  | 10 => ⟨S1x128, .f32⟩
  | 11 => ⟨S1x128, .f32⟩
  | 12 => ⟨S1x40, .f32⟩
  | 13 => ⟨S1x40, .f32⟩
  | 14 => ⟨S1x40, .f32⟩
  | 15 => ⟨S1x20x2, .f32⟩
  | 16 => ⟨S100000x1, .f32⟩
  | 17 => ⟨S100000, .f32⟩
  | 18 => ⟨S_, .f32⟩
  | 19 => ⟨S100000, .f32⟩
  | 20 => ⟨S100000, .i1⟩
  | 21 => ⟨S100000x1, .f32⟩
  | 22 => ⟨S100000, .f32⟩
  | 23 => ⟨S_, .f32⟩
  | 24 => ⟨S100000, .f32⟩
  | 25 => ⟨S100000, .i1⟩
  | 26 => ⟨S100000, .i1⟩
  | 27 => ⟨S100000, .i32⟩
  | 28 => ⟨S_, .i32⟩
  | 29 => ⟨S_, .i32⟩
  | 30 => ⟨S20, .i32⟩
  | 31 => ⟨S20, .i32⟩
  | 32 => ⟨S20, .i1⟩
  | 33 => ⟨S1x20x1, .i1⟩
  | 34 => ⟨S_, .f32⟩
  | 35 => ⟨S_, .f32⟩
  | 36 => ⟨S1x20x2, .i1⟩
  | 37 => ⟨S1x20x2, .f32⟩
  | 38 => ⟨S1x20x2, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_c_4 : Ref sig .tc := ⟨.hbm, 40, rfl⟩
abbrev main_v23 : Ref sig .tc := ⟨.hbm, 41, rfl⟩
abbrev main_v24 : Ref sig .tc := ⟨.hbm, 42, rfl⟩
abbrev main_c_5 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_6 : Ref sig .tc := ⟨.hbm, 50, rfl⟩
abbrev main_v31 : Ref sig .tc := ⟨.hbm, 51, rfl⟩
abbrev main_v32 : Ref sig .tc := ⟨.hbm, 52, rfl⟩
abbrev main_c_7 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_8 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_9 : Ref sig .tc := ⟨.hbm, 71, rfl⟩
abbrev main_v49 : Ref sig .tc := ⟨.hbm, 72, rfl⟩
abbrev main_cst_10 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_cst_12 : Ref sig .tc := ⟨.hbm, 81, rfl⟩
abbrev main_call1_v0 : Ref sig .tc := ⟨.hbm, 82, rfl⟩
abbrev main_call1_v1 : Ref sig .tc := ⟨.hbm, 83, rfl⟩
abbrev main_v56 : Ref sig .tc := ⟨.hbm, 84, rfl⟩
abbrev main_c_13 : Ref sig .tc := ⟨.hbm, 85, rfl⟩
abbrev main_v57 : Ref sig .tc := ⟨.hbm, 86, rfl⟩
abbrev main_v58 : Ref sig .tc := ⟨.hbm, 87, rfl⟩
abbrev main_c_14 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_c_15 : Ref sig .tc := ⟨.hbm, 94, rfl⟩
abbrev main_v64 : Ref sig .tc := ⟨.hbm, 95, rfl⟩
abbrev main_v65 : Ref sig .tc := ⟨.hbm, 96, rfl⟩
abbrev main_c_16 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_17 : Ref sig .tc := ⟨.hbm, 104, rfl⟩
abbrev main_v72 : Ref sig .tc := ⟨.hbm, 105, rfl⟩
abbrev main_v73 : Ref sig .tc := ⟨.hbm, 106, rfl⟩
abbrev main_c_18 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_19 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_20 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_21 : Ref sig .tc := ⟨.hbm, 128, rfl⟩
abbrev main_v92 : Ref sig .tc := ⟨.hbm, 129, rfl⟩
abbrev main_cst_22 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_23 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_cst_24 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_25 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_c_26 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_cst_27 : Ref sig .tc := ⟨.hbm, 162, rfl⟩
abbrev main_call2_v0 : Ref sig .tc := ⟨.hbm, 163, rfl⟩
abbrev main_call2_v1 : Ref sig .tc := ⟨.hbm, 164, rfl⟩
abbrev main_call2_v2 : Ref sig .tc := ⟨.hbm, 165, rfl⟩
abbrev main_v120 : Ref sig .tc := ⟨.hbm, 166, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1x128 : S_.BroadcastsInDim S1x128 (![] : Fin 0 → Fin S1x128.rank)
  bcast_S100000_S100000x1_0 : S100000.BroadcastsInDim S100000x1 (![0] : Fin 1 → Fin S100000x1.rank)
  bcast_S_S1 : S_.BroadcastsInDim S1 (![] : Fin 0 → Fin S1.rank)
  bcast_S1_S1x1_0 : S1.BroadcastsInDim S1x1 (![0] : Fin 1 → Fin S1x1.rank)
  bcast_S1x1_S1x128_0_1 : S1x1.BroadcastsInDim S1x128 (![0, 1] : Fin 2 → Fin S1x128.rank)
  bcast_S40_S1x40_1 : S40.BroadcastsInDim S1x40 (![1] : Fin 1 → Fin S1x40.rank)
  shapeCasts_S1x40_S1x20x2 : S1x40.ShapeCasts S1x20x2
  slices_S100000x4_S100000x1_0_0 : S100000x4.Slices ![0, 0] S100000x1
  shapeCasts_S100000x1_S100000 : S100000x1.ShapeCasts S100000
  slices_S100000x4_S100000x1_0_1 : S100000x4.Slices ![0, 1] S100000x1
  natLt_1_32 : 1 < 32
  reducesTo_S100000_S_d0 : S100000.ReducesTo [0] S_
  h_S_ : 0 < S_.numel
  bcast_S_S20 : S_.BroadcastsInDim S20 (![] : Fin 0 → Fin S20.rank)
  bcast_S20_S1x20x1_1 : S20.BroadcastsInDim S1x20x1 (![1] : Fin 1 → Fin S1x20x1.rank)
  bcast_S1x20x1_S1x20x2_0_1_2 : S1x20x1.BroadcastsInDim S1x20x2 (![0, 1, 2] : Fin 3 → Fin S1x20x2.rank)
  bcast_S_S1x20x2 : S_.BroadcastsInDim S1x20x2 (![] : Fin 0 → Fin S1x20x2.rank)
  dot_S100000x4_S4x128_S100000x128_1_0_0_1_n_n_wf : DotDims.WF S100000x4 S4x128 S100000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x128_S100000x128_1_0_0_1_n_n_wf : DotDims.WF S100000x128 S128x128 S100000x128 [1] [0] [0] [1] [] []
  scatter_S1x128_S100000x1_S100000x128_1_0_0_1_wf : ScatterDims.WF S1x128 S100000x1 S100000x128 [1] [0] [0] 1
  scatter_S1_S100000x1_S100000_n_0_0_1_wf : ScatterDims.WF S1 S100000x1 S100000 [] [0] [0] 1
  dot_S1x128_S128x40_S1x40_1_0_0_1_n_n_wf : DotDims.WF S1x128 S128x40 S1x40 [1] [0] [0] [1] [] []

variable [Facts₀]

def dot_S100000x4_S4x128_S100000x128_1_0_0_1_n_n : DotDims S100000x4 S4x128 S100000x128 where
  lhsContracting := [1]
  rhsContracting := [0]
  lhsNonContracting := [0]
  rhsNonContracting := [1]
  lhsBatch := []
  rhsBatch := []
  wf := dot_S100000x4_S4x128_S100000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S1x128_S100000x1_S100000x128_1_0_0_1 : ScatterDims S1x128 S100000x1 S100000x128 where
  updateWindowDims := [1]
  insertedWindowDims := [0]
  scatterDimsToOperandDims := [0]
  indexVectorDim := 1
  wf := scatter_S1x128_S100000x1_S100000x128_1_0_0_1_wf
def scatter_S1_S100000x1_S100000_n_0_0_1 : ScatterDims S1 S100000x1 S100000 where
  updateWindowDims := []
  insertedWindowDims := [0]
  scatterDimsToOperandDims := [0]
  indexVectorDim := 1
  wf := scatter_S1_S100000x1_S100000_n_0_0_1_wf
def dot_S1x128_S128x40_S1x40_1_0_0_1_n_n : DotDims S1x128 S128x40 S1x40 where
  lhsContracting := [1]
  rhsContracting := [0]
  lhsNonContracting := [0]
  rhsNonContracting := [1]
  lhsBatch := []
  rhsBatch := []
  wf := dot_S1x128_S128x40_S1x40_1_0_0_1_n_n_wf

class Facts : Prop extends Facts₀ where

variable [Facts]
-- ==== Proof.KB.Region0.lean ====
import proofs.«427309_j66967130079866_2_alg».proof.Proof.Gen.Kernel.Launch
import proofs.«427309_j66967130079866_2_alg».proof.Proof.Gen.Kernel.Skeleton
import proofs.«427309_j66967130079866_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The first pallas call: rows of node features times the first layer's weights, scaled row by row

Each grid point takes a block of 4000 rows of the 100000×5 operand (four feature columns and one scale
column) and the whole 4×128 weight matrix, and leaves the 4000×128 block of the result: the features and
the weights rounded to bf16, their product accumulated in f32, each row multiplied by its scale, the
result rounded to bf16. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point (it is fetched at every point; an
    input left in place holds its block, fetched there or not), for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight matrix at every point: fetched at the first
    point only, its block index never moves, so the buffer still holds it later. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S4000x5 := Rect.unit (s := S4000x5) ![0, 0] S4000x5.size inb_S4000x5_S4000x5_0_0
abbrev r0_w : Rect S4x128 := Rect.unit (s := S4x128) ![0, 0] S4x128.size inb_S4x128_S4x128_0_0
abbrev r0_o : Rect S4000x128 := Rect.unit (s := S4000x128) ![0, 0] S4000x128.size inb_S4000x128_S4000x128_0_0

/-! ## What the body leaves in the output window's buffer -/

/-- The output window's staging buffer after the body, from the input windows' blocks: its one whole-buffer
    store, the payload the body's arithmetic on the two loaded blocks. -/
def out0_2 (x0 : Vec F S4000x5 .f32) (x1 : Vec F S4x128 .f32) : Vec F S4000x128 .bf16 :=
  View.canon [⟨r0_o, k0_pay1 (View.ld x0 r0_x) (View.ld x1 r0_w)⟩]

/-- The one store tiles the buffer, so it covers it. -/
theorem cover0_2 (p0 : Vec F S4000x128 .bf16) (y : S4000x128.Idx) :
    ∃ pc ∈ ([⟨r0_o, p0⟩] : List (View.Piece (Elt F) S4000x128 .bf16)), y ∈ pc.1.set :=
  View.cover_of_tiled [⟨r0_o, p0⟩] S4000x128.size (by rfl) y

/-! ## The body's triple -/

set_option maxHeartbeats 1000000 in
/-- The kernel body on whole staging memrefs, the inputs' at read contents `x0`, `x1` and the output's at
    anything, runs to the continuation holding the inputs' as they were and the output's at `out0_2` of the
    inputs'. The load of the output buffer before the store reads a value nothing uses. -/
theorem sound_kernel0 (c : Dev nD) (E : Set ℕ) (i : grid0.Coords)
    (arg1 : Memref sig .tc .vmem S4000x5 .f32) (harg1 : arg1.IsWhole)
    (arg2 : Memref sig .tc .vmem S4x128 .f32) (harg2 : arg2.IsWhole)
    (arg3 : Memref sig .tc .vmem S4000x128 .bf16) (harg3 : arg3.IsWhole)
    (x0 : Vec F S4000x5 .f32) (x1 : Vec F S4x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__node_matmul_scaled_kernel i arg1 harg1 arg2 harg2 arg3 harg3) K := by
  simp only [cc0__node_matmul_scaled_kernel_eq_skeleton]; unfold cc0__node_matmul_scaled_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KB.Region1.lean ====
import proofs.«427309_j66967130079866_2_alg».proof.Proof.Gen.Kernel.Launch
import proofs.«427309_j66967130079866_2_alg».proof.Proof.Gen.Kernel.Skeleton
import proofs.«427309_j66967130079866_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second layer's first half: bias, tanh, weight product, row scaling (five windows) -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias (window 2) is fetched at the first point only; its block index is constant, so the same law applies. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The weight (window 3) likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole buffer -/

abbrev rect1_rows : Rect S4000x128 := Rect.unit (s := S4000x128) ![0, 0] S4000x128.size inb_S4000x128_S4000x128_0_0
abbrev rect1_scale : Rect S4000x1 := Rect.unit (s := S4000x1) ![0, 0] S4000x1.size inb_S4000x1_S4000x1_0_0
abbrev rect1_bias : Rect S128 := Rect.unit (s := S128) ![0] S128.size inb_S128_S128_0
abbrev rect1_weight : Rect S128x128 := Rect.unit (s := S128x128) ![0, 0] S128x128.size inb_S128x128_S128x128_0_0

/-! ## What the body leaves in the output window's buffer -/

/-- Window 4's staging buffer after the body, from the input windows' blocks: its one store as a piece; the payload
    is the body's arithmetic on the four loaded blocks (scale the rows, add the bias, tanh, round to bf16, multiply
    by the rounded weight, scale the rows again, round to bf16). -/
def out1_4 (x0 : Vec F S4000x128 .f32) (x1 : Vec F S4000x1 .f32) (x2 : Vec F S128 .f32) (x3 : Vec F S128x128 .f32) : Vec F S4000x128 .bf16 :=
  View.canon [⟨rect1_rows, k1_pay1 (View.ld x0 rect1_rows) (View.ld x1 rect1_scale) (View.ld x2 rect1_bias) (View.ld x3 rect1_weight)⟩]

/-- The one store's rectangle is the whole buffer, so it covers it. -/
theorem cover1_4 (p0 : Vec F S4000x128 .bf16) (y : S4000x128.Idx) :
    ∃ pc ∈ ([⟨rect1_rows, p0⟩] : List (View.Piece (Elt F) S4000x128 .bf16)), y ∈ pc.1.set :=
  View.cover_of_tiled [⟨rect1_rows, p0⟩] S4000x128.size (by rfl) y

/-! ## The body's triple -/

set_option maxHeartbeats 4000000 in
/-- The kernel body on whole staging memrefs, the inputs' at read contents `x0 … x3` and the output's at anything,
    runs to the continuation holding the inputs' as they were and the output's at `out1_4` of the inputs'. -/
theorem sound_kernel1 (c : Dev nD) (E : Set ℕ) (i : grid1.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S4000x128 .bf16) (harg5 : arg5.IsWhole)
    (x0 : Vec F S4000x128 .f32) (x1 : Vec F S4000x1 .f32) (x2 : Vec F S128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__bias_tanh_matmul_scaled_kernel i arg1 harg1 arg2 harg2 arg3 harg3 arg4 harg4 arg5 harg5) K := by
  simp only [cc1__bias_tanh_matmul_scaled_kernel_eq_skeleton]; unfold cc1__bias_tanh_matmul_scaled_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the pipeline on core `c`: the arrays as the region finds them (`V`); after the body at point
    `t` each input's buffer at its block and the output's at `out1_4` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KB.Region2.lean ====
import proofs.«427309_j66967130079866_2_alg».proof.Proof.Gen.Kernel.Launch
import proofs.«427309_j66967130079866_2_alg».proof.Proof.Gen.Kernel.Skeleton
import proofs.«427309_j66967130079866_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The third pallas_call: bias, tanh, masked row-pooling over 25 row tiles, then the final linear layer -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and store is of a whole buffer -/

abbrev r2_0 : Rect S4000x128 := Rect.unit (s := S4000x128) ![0, 0] S4000x128.size inb_S4000x128_S4000x128_0_0
abbrev r2_1 : Rect S4000x1 := Rect.unit (s := S4000x1) ![0, 0] S4000x1.size inb_S4000x1_S4000x1_0_0
abbrev r2_2 : Rect S128 := Rect.unit (s := S128) ![0] S128.size inb_S128_S128_0
abbrev r2_4 : Rect S128x40 := Rect.unit (s := S128x40) ![0, 0] S128x40.size inb_S128x40_S128x40_0_0
abbrev r2_5 : Rect S40 := Rect.unit (s := S40) ![0] S40.size inb_S40_S40_0
abbrev r2_6 : Rect S1x40 := Rect.unit (s := S1x40) ![0, 0] S1x40.size inb_S1x40_S1x40_0_0
abbrev r2_8 : Rect S1x128 := Rect.unit (s := S1x128) ![0, 0] S1x128.size inb_S1x128_S1x128_0_0
abbrev r2_9 : Rect S1x1 := Rect.unit (s := S1x1) ![0, 0] S1x1.size inb_S1x1_S1x1_0_0

/-! ## One point's update of the two carried buffers, and the last point's result -/

/-- The row-sum accumulator after a point: the sum over the tile's rows of tanh(x·s + b) masked by (batch = 0),
    added to what the accumulator held (`a`). -/
def accStep (x0 : Vec F S4000x128 .f32) (x1 : Vec F S4000x1 .f32) (x2 : Vec F S128 .f32) (x3 : Vec F S4000x1 .i32)
    (a : Vec F S1x128 .f32) : Vec F S1x128 .f32 :=
  View.canon [⟨r2_8, k2_pay5 (View.ld x0 r2_0) (View.ld x1 r2_1) (View.ld x2 r2_2) (View.ld x3 r2_1) (View.ld a r2_8)⟩]

/-- The row counter after a point: the number of the tile's rows with batch = 0, added to what the counter held (`n`). -/
def cntStep (x3 : Vec F S4000x1 .i32) (n : Vec F S1x1 .f32) : Vec F S1x1 .f32 :=
  View.canon [⟨r2_9, k2_pay6 (View.ld x3 r2_1) (View.ld n r2_9)⟩]

/-- The result the last point stores: the accumulator divided by max(counter, 1), through the final linear layer. -/
def finStep (n : Vec F S1x1 .f32) (a : Vec F S1x128 .f32) (x4 : Vec F S128x40 .f32) (x5 : Vec F S40 .f32) : Vec F S1x40 .f32 :=
  View.canon [⟨r2_6, k2_pay1 (View.ld n r2_9) (View.ld a r2_8) (View.ld x4 r2_4) (View.ld x5 r2_5)⟩]

/-- The two carried scratch buffers after point `n`: (row-sum accumulator, row counter), by recursion on the point:
    after point 0 the update applied to the zero fills; after point n+1 applied to what point n left. -/
def sc2 (c : Dev nD) : (n : ℕ) → n < cfg2.N → Vec F S1x128 .f32 × Vec F S1x1 .f32
  | 0, h => (accStep (iblk2 V c 0 ⟨0, h⟩) (iblk2 V c 1 ⟨0, h⟩) (iblk2 V c 2 ⟨0, h⟩) (iblk2 V c 3 ⟨0, h⟩) (k2_pay2 (F := F)),
             cntStep (iblk2 V c 3 ⟨0, h⟩) (k2_pay3 (F := F)))
  | n + 1, h => (accStep (iblk2 V c 0 ⟨n + 1, h⟩) (iblk2 V c 1 ⟨n + 1, h⟩) (iblk2 V c 2 ⟨n + 1, h⟩) (iblk2 V c 3 ⟨n + 1, h⟩) (sc2 c n (Nat.lt_of_succ_lt h)).1,
             cntStep (iblk2 V c 3 ⟨n + 1, h⟩) (sc2 c n (Nat.lt_of_succ_lt h)).2)

theorem sc2_zero (c : Dev nD) (h : 0 < cfg2.N) :
    sc2 V c 0 h = (accStep (iblk2 V c 0 ⟨0, h⟩) (iblk2 V c 1 ⟨0, h⟩) (iblk2 V c 2 ⟨0, h⟩) (iblk2 V c 3 ⟨0, h⟩) (k2_pay2 (F := F)),
             cntStep (iblk2 V c 3 ⟨0, h⟩) (k2_pay3 (F := F))) := rfl

theorem sc2_succ (c : Dev nD) (n : ℕ) (h : n + 1 < cfg2.N) :
    sc2 V c (n + 1) h = (accStep (iblk2 V c 0 ⟨n + 1, h⟩) (iblk2 V c 1 ⟨n + 1, h⟩) (iblk2 V c 2 ⟨n + 1, h⟩) (iblk2 V c 3 ⟨n + 1, h⟩) (sc2 V c n (Nat.lt_of_succ_lt h)).1,
             cntStep (iblk2 V c 3 ⟨n + 1, h⟩) (sc2 V c n (Nat.lt_of_succ_lt h)).2) := rfl

theorem lt24 : 24 < cfg2.N := by decide

/-- What the last point stores into the result's staging buffer. -/
def fin2 (c : Dev nD) : Vec F S1x40 .f32 :=
  finStep (sc2 V c 24 lt24).2 (sc2 V c 24 lt24).1 (iblk2 V c 4 ⟨24, lt24⟩) (iblk2 V c 5 ⟨24, lt24⟩)

theorem fin2_eq (c : Dev nD) : fin2 V c = View.canon [⟨r2_6, k2_pay1 (View.ld (sc2 V c 24 lt24).2 r2_9) (View.ld (sc2 V c 24 lt24).1 r2_8) (View.ld (iblk2 V c 4 ⟨24, lt24⟩) r2_4) (View.ld (iblk2 V c 5 ⟨24, lt24⟩) r2_5)⟩] := rfl

/-! ## The branch conditions, in closed form over the grid -/

/-- The first conditional's test (is this the first row tile), from the grid coordinates. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 25 = 0 :=
  (by decide +kernel : ∀ t : Fin grid2.N, cond2_0 (grid2.coords t) ↔ t.val % 25 = 0)
/-- The second conditional's test (is this the last row tile). -/
abbrev cond2_1 (i : grid2.Coords) : Prop := k2_cond2 i = 1#1
theorem hcond2_1 : ∀ t : Fin cfg2.N, cond2_1 (grid2.coords t) ↔ t.val % 25 = 24 :=
  (by decide +kernel : ∀ t : Fin grid2.N, cond2_1 (grid2.coords t) ↔ t.val % 25 = 24)

/-- The inputs are never idle; the result window is idle exactly where the second conditional is not taken, and it is
    not written back there. -/
theorem liveAt2_in : ∀ (w : Fin 7), w ≠ 6 → ∀ t : Fin cfg2.N, cfg2.idle w (grid2.coords t) = false := by decide +kernel
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The invariant: the two scratch buffers beside the rest of the core's scoped buffers -/

abbrev scM2_0 : Memref sig .tc .vmem S1x128 .f32 := Memref.whole cc2_scratch0
abbrev scM2_1 : Memref sig .tc .vmem S1x1 .f32 := Memref.whole cc2_scratch1

/-- The scoped buffers of the other two calls (each at some contents) and the generator register at some state:
    what this body never touches. -/
def oth2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ r, prngReg c r))

/-- The class's invariant with the two scratch buffers at the given assertions. -/
def Rest2 (c : Dev nD) (S0 S1 : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ S0 ∗ S1) ∗ (∃ r, prngReg c r))

theorem Rest2_open (c : Dev nD) (S0 S1 : sProp 𝕄) : Rest2 (F := F) c S0 S1 ⊢ iprop(oth2 (F := F) c ∗ S0 ∗ S1) := by
  unfold Rest2 oth2
  iintro ⟨⟨B0, B1, B2, B3, B4, B5, B6, B7, B8, B9, B10, B11, B12, HS0, HS1⟩, Hg⟩
  isplitr [HS0 HS1]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact Hg
  isplitl [HS0]; · iexact HS0
  iexact HS1

theorem Rest2_close (c : Dev nD) (S0 S1 : sProp 𝕄) : iprop(oth2 (F := F) c ∗ S0 ∗ S1) ⊢ Rest2 (F := F) c S0 S1 := by
  unfold Rest2 oth2
  iintro ⟨⟨B0, B1, B2, B3, B4, B5, B6, B7, B8, B9, B10, B11, B12, Hg⟩, HS0, HS1⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [HS0]; · iexact HS0
    iexact HS1
  iexact Hg

/-- The class's invariant is `Rest2` with each scratch buffer owned at some contents. -/
theorem PhiA2_eq (c : Dev nD) :
    (Pipeline.ΦA spec2 c : sProp 𝕄)
      = Rest2 (F := F) c iprop(∃ d, owns (c : Thread nD τ) scM2_0 fullShare d) iprop(∃ d, owns (c : Thread nD τ) scM2_1 fullShare d) := by
  unfold Pipeline.ΦA Rest2; rw [scopedRest2_eq]; simp only [scM2_0, scM2_1, owns_whole]; try rfl

/-- The invariant before position `n`: before the first point the class's; afterwards both scratch buffers at what
    the point before left. -/
def PhiS2 (c : Dev nD) : (n : ℕ) → n ≤ cfg2.N → sProp 𝕄
  | 0, _ => Pipeline.ΦA spec2 c
  | n + 1, hn => Rest2 (F := F) c (owns (c : Thread nD τ) scM2_0 fullShare (sc2 V c n hn).1) (owns (c : Thread nD τ) scM2_1 fullShare (sc2 V c n hn).2)

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = Rest2 (F := F) c (owns (c : Thread nD τ) scM2_0 fullShare (sc2 V c n hn).1) (owns (c : Thread nD τ) scM2_1 fullShare (sc2 V c n hn).2) := rfl
theorem PhiS2_pos (c : Dev nD) (n : ℕ) (h : n ≤ cfg2.N) (hz : n ≠ 0) :
    PhiS2 V c n h = Rest2 (F := F) c (owns (c : Thread nD τ) scM2_0 fullShare (sc2 V c (n - 1) (by omega)).1) (owns (c : Thread nD τ) scM2_1 fullShare (sc2 V c (n - 1) (by omega)).2) := by
  cases n with
  | zero => exact absurd rfl hz
  | succ n => rfl

/-! ## The proof data -/

/-- The arrays as the region finds them; after the body each input's buffer at its block, the result's at `fin2`
    (stored at the last point only: at the others the window is idle and nobody consults it); the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => fin2 V c
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_6_last (c : Dev nD) : (dat2 V c).after 6 ⟨24, lt24⟩ = fin2 V c := by dsimp only [dat2]

/-! ## The body's triples, one per control case -/

theorem off2_zero : (![0, 0] : Fin 2 → ℕ) = fun _ => 0 := by funext a; fin_cases a <;> rfl
theorem off1_zero : (![0] : Fin 1 → ℕ) = fun _ => 0 := by funext a; fin_cases a <;> rfl

/-- One whole-buffer store covers the buffer. -/
theorem cover2_8 (p : Vec F S1x128 .f32) (y : S1x128.Idx) :
    ∃ pc ∈ ([⟨r2_8, p⟩] : List (View.Piece (Elt F) S1x128 .f32)), y ∈ pc.1.set :=
  View.cover_of_tiled [⟨r2_8, p⟩] S1x128.size (by rfl) y
theorem cover2_9 (p : Vec F S1x1 .f32) (y : S1x1.Idx) :
    ∃ pc ∈ ([⟨r2_9, p⟩] : List (View.Piece (Elt F) S1x1 .f32)), y ∈ pc.1.set :=
  View.cover_of_tiled [⟨r2_9, p⟩] S1x1.size (by rfl) y
theorem cover2_6 (p : Vec F S1x40 .f32) (y : S1x40.Idx) :
    ∃ pc ∈ ([⟨r2_6, p⟩] : List (View.Piece (Elt F) S1x40 .f32)), y ∈ pc.1.set :=
  View.cover_of_tiled [⟨r2_6, p⟩] S1x40.size (by rfl) y

set_option maxHeartbeats 2000000 in
/-- The first row tile (first conditional taken): both carried buffers are zeroed, then read and updated; the
    result's buffer is untouched. -/
theorem kernel2_A (c : Dev nD) (i : grid2.Coords) (arg1 : Memref sig .tc .vmem S4000x128 .f32) (harg1 : arg1.IsWhole) (arg2 : Memref sig .tc .vmem S4000x1 .f32) (harg2 : arg2.IsWhole) (arg3 : Memref sig .tc .vmem S128 .f32) (harg3 : arg3.IsWhole) (arg4 : Memref sig .tc .vmem S4000x1 .i32) (harg4 : arg4.IsWhole) (arg5 : Memref sig .tc .vmem S128x40 .f32) (harg5 : arg5.IsWhole) (arg6 : Memref sig .tc .vmem S40 .f32) (harg6 : arg6.IsWhole) (arg7 : Memref sig .tc .vmem S1x40 .f32) (harg7 : arg7.IsWhole) (arg8 : Memref sig .tc .vmem S1x128 .f32) (harg8 : arg8.IsWhole) (arg9 : Memref sig .tc .vmem S1x1 .f32) (harg9 : arg9.IsWhole) (hc0 : cond2_0 i) (hc1 : ¬cond2_1 i)
    (x0 : Vec F S4000x128 .f32) (x1 : Vec F S4000x1 .f32) (x2 : Vec F S128 .f32) (x3 : Vec F S4000x1 .i32) (x4 : Vec F S128x40 .f32) (x5 : Vec F S40 .f32) (x6 : Vec F S1x40 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (accStep x0 x1 x2 x3 (k2_pay2 (F := F))) ∗ owns (c : Thread nD τ) arg9 fullShare (cntStep x3 (k2_pay3 (F := F)))) -∗ K ⟨⟩))
      ⊢ wp frame (wpE (defs₀ (F := F)) Variants.none c none) E (cc2__bias_tanh_pool_fc_scaled_kernel i arg1 harg1 arg2 harg2 arg3 harg3 arg4 harg4 arg5 harg5 arg6 harg6 arg7 harg7 arg8 harg8 arg9 harg9) K := by
  simp only [cc2__bias_tanh_pool_fc_scaled_kernel_eq_skeleton]; unfold cc2__bias_tanh_pool_fc_scaled_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec (disch := first | exact hc0 | exact hc1)
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists _; isplitr
    swap; · iexact H8
    ipureintro
    sl_unfold_run_names
    rw [View.read_writes_eq_canon _ _ _ (fun y => ⟨_, List.mem_cons.mpr (Or.inl rfl), View.mem_set_unit_zero (S := S1x128) off2_zero inb_S1x128_S1x128_0_0 y⟩)]
    rw [View.canon_cons_unit_zero (S := S1x128) off2_zero, View.readCov_unit_zero (S := S1x128) _ off2_zero]
    unfold accStep
    rw [View.canon_unit_zero (S := S1x128) off2_zero, View.ld_unit_zero (S := S1x128) off2_zero]
    rfl
  iexists _; isplitr
  swap; · iexact H9
  ipureintro
  sl_unfold_run_names
  rw [View.read_writes_eq_canon _ _ _ (fun y => ⟨_, List.mem_cons.mpr (Or.inl rfl), View.mem_set_unit_zero (S := S1x1) off2_zero inb_S1x1_S1x1_0_0 y⟩)]
  rw [View.canon_cons_unit_zero (S := S1x1) off2_zero, View.readCov_unit_zero (S := S1x1) _ off2_zero]
  unfold cntStep
  rw [View.canon_unit_zero (S := S1x1) off2_zero, View.ld_unit_zero (S := S1x1) off2_zero]
  rfl

set_option maxHeartbeats 2000000 in
/-- A middle row tile (neither conditional taken): both carried buffers are read and updated; the result's buffer
    is untouched. -/
theorem kernel2_B (c : Dev nD) (i : grid2.Coords) (arg1 : Memref sig .tc .vmem S4000x128 .f32) (harg1 : arg1.IsWhole) (arg2 : Memref sig .tc .vmem S4000x1 .f32) (harg2 : arg2.IsWhole) (arg3 : Memref sig .tc .vmem S128 .f32) (harg3 : arg3.IsWhole) (arg4 : Memref sig .tc .vmem S4000x1 .i32) (harg4 : arg4.IsWhole) (arg5 : Memref sig .tc .vmem S128x40 .f32) (harg5 : arg5.IsWhole) (arg6 : Memref sig .tc .vmem S40 .f32) (harg6 : arg6.IsWhole) (arg7 : Memref sig .tc .vmem S1x40 .f32) (harg7 : arg7.IsWhole) (arg8 : Memref sig .tc .vmem S1x128 .f32) (harg8 : arg8.IsWhole) (arg9 : Memref sig .tc .vmem S1x1 .f32) (harg9 : arg9.IsWhole) (hc0 : ¬cond2_0 i) (hc1 : ¬cond2_1 i)
    (x0 : Vec F S4000x128 .f32) (x1 : Vec F S4000x1 .f32) (x2 : Vec F S128 .f32) (x3 : Vec F S4000x1 .i32) (x4 : Vec F S128x40 .f32) (x5 : Vec F S40 .f32) (x6 : Vec F S1x40 .f32) (a : Vec F S1x128 .f32) (n : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare a ∗ owns (c : Thread nD τ) arg9 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (accStep x0 x1 x2 x3 a) ∗ owns (c : Thread nD τ) arg9 fullShare (cntStep x3 n)) -∗ K ⟨⟩))
      ⊢ wp frame (wpE (defs₀ (F := F)) Variants.none c none) E (cc2__bias_tanh_pool_fc_scaled_kernel i arg1 harg1 arg2 harg2 arg3 harg3 arg4 harg4 arg5 harg5 arg6 harg6 arg7 harg7 arg8 harg8 arg9 harg9) K := by
  simp only [cc2__bias_tanh_pool_fc_scaled_kernel_eq_skeleton]; unfold cc2__bias_tanh_pool_fc_scaled_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1 hf2 hf3 hf4 hf5 hf6 hf7 hf8 hf9
  sl_exec (disch := first | exact hc0 | exact hc1)
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists _; isplitr
    swap; · iexact H8
    ipureintro
    exact View.read_writes_eq_canon _ _ _ (cover2_8 _)
  iexists _; isplitr
  swap; · iexact H9
  ipureintro
  exact View.read_writes_eq_canon _ _ _ (cover2_9 _)

set_option maxHeartbeats 2000000 in
/-- The last row tile (second conditional taken): both carried buffers are read and updated, then the result is
    computed from them and stored. -/
theorem kernel2_C (c : Dev nD) (i : grid2.Coords) (arg1 : Memref sig .tc .vmem S4000x128 .f32) (harg1 : arg1.IsWhole) (arg2 : Memref sig .tc .vmem S4000x1 .f32) (harg2 : arg2.IsWhole) (arg3 : Memref sig .tc .vmem S128 .f32) (harg3 : arg3.IsWhole) (arg4 : Memref sig .tc .vmem S4000x1 .i32) (harg4 : arg4.IsWhole) (arg5 : Memref sig .tc .vmem S128x40 .f32) (harg5 : arg5.IsWhole) (arg6 : Memref sig .tc .vmem S40 .f32) (harg6 : arg6.IsWhole) (arg7 : Memref sig .tc .vmem S1x40 .f32) (harg7 : arg7.IsWhole) (arg8 : Memref sig .tc .vmem S1x128 .f32) (harg8 : arg8.IsWhole) (arg9 : Memref sig .tc .vmem S1x1 .f32) (harg9 : arg9.IsWhole) (hc0 : ¬cond2_0 i) (hc1 : cond2_1 i)
    (x0 : Vec F S4000x128 .f32) (x1 : Vec F S4000x1 .f32) (x2 : Vec F S128 .f32) (x3 : Vec F S4000x1 .i32) (x4 : Vec F S128x40 .f32) (x5 : Vec F S40 .f32) (a : Vec F S1x128 .f32) (n : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare a ∗ owns (c : Thread nD τ) arg9 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (finStep (cntStep x3 n) (accStep x0 x1 x2 x3 a) x4 x5) ∗ owns (c : Thread nD τ) arg8 fullShare (accStep x0 x1 x2 x3 a) ∗ owns (c : Thread nD τ) arg9 fullShare (cntStep x3 n)) -∗ K ⟨⟩))
      ⊢ wp frame (wpE (defs₀ (F := F)) Variants.none c none) E (cc2__bias_tanh_pool_fc_scaled_kernel i arg1 harg1 arg2 harg2 arg3 harg3 arg4 harg4 arg5 harg5 arg6 harg6 arg7 harg7 arg8 harg8 arg9 harg9) K := by
  simp only [cc2__bias_tanh_pool_fc_scaled_kernel_eq_skeleton]; unfold cc2__bias_tanh_pool_fc_scaled_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf1 hf2 hf3 hf4 hf5 hf6 hf8 hf9
  sl_exec (disch := first | exact hc0 | exact hc1)
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists _; isplitr
    swap; · iexact H7
    ipureintro
    sl_unfold_run_names
    rw [View.read_writes_eq_canon _ _ _ (cover2_6 _)]
    rw [View.readCov_eq_canon_ld _ _ _ (cover2_9 _), View.readCov_eq_canon_ld _ _ _ (cover2_8 _)]
    rfl
  isplitl [H8]
  · iexists _; isplitr
    swap; · iexact H8
    ipureintro
    exact View.read_writes_eq_canon _ _ _ (cover2_8 _)
  iexists _; isplitr
  swap; · iexact H9
  ipureintro
  exact View.read_writes_eq_canon _ _ _ (cover2_9 _)

/-! ## Each input's staging buffer holds its block at every point, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem after2_0 (c : Dev nD) (t : Fin cfg2.N) : (dat2 V c).after 0 t = iblk2 V c 0 t := by dsimp only [dat2]
theorem before2_0 (c : Dev nD) (t : Fin cfg2.N) (d) : (dat2 V c).before 0 t d = iblk2 V c 0 t :=
  before2_0_of V (dat2 V c) (A_eq2 V c 0) (after2_0 V c) t d
theorem leaves2_0 (c : Dev nD) (t : Fin cfg2.N) : (dat2 V c).leavesExact 0 t = owns (c : Thread nD τ) (st2_0 t) fullShare (iblk2 V c 0 t) := by
  unfold Dat.leavesExact; rw [liveAt2_in 0 (by decide) t, after2_0]

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem after2_1 (c : Dev nD) (t : Fin cfg2.N) : (dat2 V c).after 1 t = iblk2 V c 1 t := by dsimp only [dat2]
theorem before2_1 (c : Dev nD) (t : Fin cfg2.N) (d) : (dat2 V c).before 1 t d = iblk2 V c 1 t :=
  before2_1_of V (dat2 V c) (A_eq2 V c 1) (after2_1 V c) t d
theorem leaves2_1 (c : Dev nD) (t : Fin cfg2.N) : (dat2 V c).leavesExact 1 t = owns (c : Thread nD τ) (st2_1 t) fullShare (iblk2 V c 1 t) := by
  unfold Dat.leavesExact; rw [liveAt2_in 1 (by decide) t, after2_1]

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem after2_2 (c : Dev nD) (t : Fin cfg2.N) : (dat2 V c).after 2 t = iblk2 V c 2 t := by dsimp only [dat2]
theorem before2_2 (c : Dev nD) (t : Fin cfg2.N) (d) : (dat2 V c).before 2 t d = iblk2 V c 2 t :=
  before2_2_of V (dat2 V c) (A_eq2 V c 2) (after2_2 V c) t d
theorem leaves2_2 (c : Dev nD) (t : Fin cfg2.N) : (dat2 V c).leavesExact 2 t = owns (c : Thread nD τ) (st2_2 t) fullShare (iblk2 V c 2 t) := by
  unfold Dat.leavesExact; rw [liveAt2_in 2 (by decide) t, after2_2]

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem after2_3 (c : Dev nD) (t : Fin cfg2.N) : (dat2 V c).after 3 t = iblk2 V c 3 t := by dsimp only [dat2]
theorem before2_3 (c : Dev nD) (t : Fin cfg2.N) (d) : (dat2 V c).before 3 t d = iblk2 V c 3 t :=
  before2_3_of V (dat2 V c) (A_eq2 V c 3) (after2_3 V c) t d
theorem leaves2_3 (c : Dev nD) (t : Fin cfg2.N) : (dat2 V c).leavesExact 3 t = owns (c : Thread nD τ) (st2_3 t) fullShare (iblk2 V c 3 t) := by
  unfold Dat.leavesExact; rw [liveAt2_in 3 (by decide) t, after2_3]

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem after2_4 (c : Dev nD) (t : Fin cfg2.N) : (dat2 V c).after 4 t = iblk2 V c 4 t := by dsimp only [dat2]
theorem before2_4 (c : Dev nD) (t : Fin cfg2.N) (d) : (dat2 V c).before 4 t d = iblk2 V c 4 t :=
  before2_4_of V (dat2 V c) (A_eq2 V c 4) (after2_4 V c) t d
theorem leaves2_4 (c : Dev nD) (t : Fin cfg2.N) : (dat2 V c).leavesExact 4 t = owns (c : Thread nD τ) (st2_4 t) fullShare (iblk2 V c 4 t) := by
  unfold Dat.leavesExact; rw [liveAt2_in 4 (by decide) t, after2_4]

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem after2_5 (c : Dev nD) (t : Fin cfg2.N) : (dat2 V c).after 5 t = iblk2 V c 5 t := by dsimp only [dat2]
theorem before2_5 (c : Dev nD) (t : Fin cfg2.N) (d) : (dat2 V c).before 5 t d = iblk2 V c 5 t :=
  before2_5_of V (dat2 V c) (A_eq2 V c 5) (after2_5 V c) t d
theorem leaves2_5 (c : Dev nD) (t : Fin cfg2.N) : (dat2 V c).leavesExact 5 t = owns (c : Thread nD τ) (st2_5 t) fullShare (iblk2 V c 5 t) := by
  unfold Dat.leavesExact; rw [liveAt2_in 5 (by decide) t, after2_5]

theorem after2_6 (c : Dev nD) (t : Fin cfg2.N) : (dat2 V c).after 6 t = fin2 V c := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

/-- The carried buffers after the first point, and after a later one. -/
theorem sc2_at_zero (c : Dev nD) (t : Fin cfg2.N) (hz : t.val = 0) :
    sc2 V c t.val t.isLt = (accStep (iblk2 V c 0 t) (iblk2 V c 1 t) (iblk2 V c 2 t) (iblk2 V c 3 t) (k2_pay2 (F := F)),
      cntStep (iblk2 V c 3 t) (k2_pay3 (F := F))) := by
  obtain ⟨n, hn⟩ := t
  cases n with
  | zero => rfl
  | succ n => exact absurd hz (Nat.succ_ne_zero n)
theorem sc2_at_pos (c : Dev nD) (t : Fin cfg2.N) (hz : t.val ≠ 0) :
    sc2 V c t.val t.isLt = (accStep (iblk2 V c 0 t) (iblk2 V c 1 t) (iblk2 V c 2 t) (iblk2 V c 3 t) (sc2 V c (t.val - 1) (Nat.lt_of_le_of_lt (Nat.sub_le _ _) t.isLt)).1,
      cntStep (iblk2 V c 3 t) (sc2 V c (t.val - 1) (Nat.lt_of_le_of_lt (Nat.sub_le _ _) t.isLt)).2) := by
  obtain ⟨n, hn⟩ := t
  cases n with
  | zero => exact absurd rfl hz
  | succ n => rfl

/-- At the last point what the body stores is `fin2`. -/
theorem fin2_at_last (c : Dev nD) (t : Fin cfg2.N) (h : t.val = 24) :
    fin2 V c = finStep (sc2 V c t.val t.isLt).2 (sc2 V c t.val t.isLt).1 (iblk2 V c 4 t) (iblk2 V c 5 t) := by
  obtain ⟨n, hn⟩ := t
  obtain rfl : n = 24 := h
  rfl

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' buffers hold their blocks; the closed forms say which case the point is in; the
    invariant hands the body the two scratch buffers (at anything before the first point, afterwards at what the
    point before left) and takes them back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5]
  have hN : t.val < 25 := lt_of_lt_of_eq t.isLt (show cfg2.N = 25 from N_2)
  by_cases h1 : t.val % 25 = 24
  · -- the last point
    have h0 : ¬t.val % 25 = 0 := by omega
    have hz : t.val ≠ 0 := by omega
    rw [show (dat2 V c).leavesExact 6 t = owns (c : Thread nD τ) (st2_6 t) fullShare ((dat2 V c).after 6 t) from by
      unfold Dat.leavesExact; rw [liveAt2_6 t ((hcond2_1 t).mpr h1)], after2_6, fin2_at_last V c t (by omega)]
    rw [sc2_at_pos V c t hz]
    rw [PhiS2_castSucc V c t, PhiS2_pos V c _ _ hz]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HR := (Rest2_open (F := F) c _ _) $$ HΦ
    icases HR with ⟨Hoth, HS0, HS1⟩
    iapply (kernel2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [Hoth HS0 HS1]
    · iapply (Rest2_close (F := F) c _ _)
      isplitl [Hoth]; · iexact Hoth
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat2 V c) 6 t (idleAt2_6 t (fun h => h1 ((hcond2_1 t).mp h))) (noFlush2_6 t (fun h => h1 ((hcond2_1 t).mp h)))]
    by_cases h0 : t.val % 25 = 0
    · -- the first point
      have hz : t.val = 0 := by omega
      rw [sc2_at_zero V c t hz]
      rw [PhiS2_castSucc V c t, PhiS2_zero V c _ _ hz, PhiA2_eq]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HR := (Rest2_open (F := F) c _ _) $$ HΦ
      icases HR with ⟨Hoth, HS0, HS1⟩
      iapply (kernel2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Hoth HS0 HS1]
      · iapply (Rest2_close (F := F) c _ _)
        isplitl [Hoth]; · iexact Hoth
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- a middle point
      have hz : t.val ≠ 0 := by omega
      rw [sc2_at_pos V c t hz]
      rw [PhiS2_castSucc V c t, PhiS2_pos V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HR := (Rest2_open (F := F) c _ _) $$ HΦ
      icases HR with ⟨Hoth, HS0, HS1⟩
      iapply (kernel2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Hoth HS0 HS1]
      · iapply (Rest2_close (F := F) c _ _)
        isplitl [Hoth]; · iexact Hoth
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class's back: the scratch buffers' named contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro HΦ
  ihave HR := (Rest2_open (F := F) c _ _) $$ HΦ
  icases HR with ⟨Hoth, HS0, HS1⟩
  iapply (Rest2_close (F := F) c _ _)
  isplitl [Hoth]; · iexact Hoth
  isplitl [HS0]; · iexists _; iexact HS0
  iexists _; iexact HS1

theorem hout2 (c : Dev nD) : (dat2 V c).Φ (Fin.last cfg2.N) ⊢ (Pipeline.ΦA spec2 c : sProp 𝕄) :=
  Phi_out2 V c _ (by rw [Fin.val_last]; have : cfg2.N = 25 := N_2; omega)

end Cert.Kernel.Hand

end
-- ==== Proof.KB.Run.lean ====
/-
  The kernel program's run through its three regions.

  The buffer contents at each boundary of @main are a fold from the launch memory: a host stretch applies its
  operations; a region replaces its result array by what the pipeline's write-backs leave (the fold of the blocks the
  body stores, point by point) and leaves every other buffer as it found it. Each region enters the pipeline with
  its arrays split out of the unscoped buffers and leaves with them put back; nothing is owed between cores, and the
  generator register rides along untouched.
-/
import proofs.«427309_j66967130079866_2_alg».proof.Proof.KB.Region0
import proofs.«427309_j66967130079866_2_alg».proof.Proof.KB.Region1
import proofs.«427309_j66967130079866_2_alg».proof.Proof.KB.Region2
import proofs.«427309_j66967130079866_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- Region 0 is entered from the contents after the first three host stretches. -/
abbrev E0 : (c : Dev nD) → (b : Ref sig .tc) → Buf (Elt F) ((c : Thread nD τ).loc b) := fun c b => V3 m c b
/-- What region 0 leaves in its result array: the fold of its write-backs. -/
def res0 (c : Dev nD) : Buf (Elt F) ((c : Thread nD τ).loc main_v17) := (dat0 (E0 m) c).arrAt 2 cfg0.N
/-- After region 0: its result array replaced. -/
abbrev U4 (c : Dev nD) : Valuation τ sig (Elt F) := Function.update (V3 m c) main_v17 (res0 m c)
/-- After the stretch between regions 0 and 1. -/
abbrev U5 (c : Dev nD) : Valuation τ sig (Elt F) := StableHlo.after hostOps1 (U4 m c)
abbrev E1 : (c : Dev nD) → (b : Ref sig .tc) → Buf (Elt F) ((c : Thread nD τ).loc b) := fun c b => U5 m c b
def res1 (c : Dev nD) : Buf (Elt F) ((c : Thread nD τ).loc main_v30) := (dat1 (E1 m) c).arrAt 4 cfg1.N
abbrev U6 (c : Dev nD) : Valuation τ sig (Elt F) := Function.update (U5 m c) main_v30 (res1 m c)
abbrev U7 (c : Dev nD) : Valuation τ sig (Elt F) := StableHlo.after hostOps2 (U6 m c)
abbrev E2 : (c : Dev nD) → (b : Ref sig .tc) → Buf (Elt F) ((c : Thread nD τ).loc b) := fun c b => U7 m c b
def res2 (c : Dev nD) : Buf (Elt F) ((c : Thread nD τ).loc main_v44) := (dat2 (E2 m) c).arrAt 6 cfg2.N
abbrev U8 (c : Dev nD) : Valuation τ sig (Elt F) := Function.update (U7 m c) main_v44 (res2 m c)

/-- What the regions leave, as the unknowns the boundary valuations are written over. -/
def outsK : Outs (F := F) := fun J r c =>
  match J with
  | 4 => U4 m c r
  | 6 => U6 m c r
  | 8 => U8 m c r
  | _ => V3 m c r

theorem V4_eq (c : Dev nD) : V4 m (outsK m) c = U4 m c := by
  show Function.update (V3 m c) main_v17 (Function.update (V3 m c) main_v17 (res0 m c) main_v17) = _
  rw [Function.update_self]
theorem V5_eq (c : Dev nD) : V5 m (outsK m) c = U5 m c := by
  show StableHlo.after hostOps1 (V4 m (outsK m) c) = _
  rw [V4_eq]
theorem V6_eq (c : Dev nD) : V6 m (outsK m) c = U6 m c := by
  show Function.update (V5 m (outsK m) c) main_v30 (Function.update (U5 m c) main_v30 (res1 m c) main_v30) = _
  rw [Function.update_self, V5_eq]
theorem V7_eq (c : Dev nD) : V7 m (outsK m) c = U7 m c := by
  show StableHlo.after hostOps2 (V6 m (outsK m) c) = _
  rw [V6_eq]
theorem V8_eq (c : Dev nD) : V8 m (outsK m) c = U8 m c := by
  show Function.update (V7 m (outsK m) c) main_v44 (Function.update (U7 m c) main_v44 (res2 m c) main_v44) = _
  rw [Function.update_self, V7_eq]

/-! ## The proof data family and what rides beside the buffers -/

/-- Every pipeline's proof data, each at its region's entry contents (a literal match on the pipeline). -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and the core owing nothing. -/
abbrev Rr (c : Dev nD) : sProp 𝕄 := iprop((∃ r, prngReg c r) ∗ ∃ W, owes (c : Thread nD τ) (0 : CellTallies nD τ sig Unit) W)

/-! ## A region's arrays at its exit: the result at the write-backs' fold, the inputs and every other buffer as entered -/

theorem U4_of (c : Dev nD) (r : Ref sig .tc) (h : r ≠ main_v17) : U4 m c r = V3 m c r := by
  simp only [U4, Function.update_of_ne (StableHlo.devRef_ne_of_ne h : (Proc.devRef .tc r : DevRef τ sig) ≠ Proc.devRef .tc main_v17)]
theorem U4_self (c : Dev nD) : U4 m c main_v17 = res0 m c := by
  simp only [U4, Function.update_self]
theorem hF0 (c : Dev nD) (w : Fin cfg0.W) : (pdats m 0 c).arrAt w cfg0.N = U4 m c (Pipeline.arrRef spec0 w) := by
  match w with
  | ⟨0, _⟩ => exact ((dat0 (E0 m) c).arrAt_in 0 rfl _).trans ((A_eq0 (E0 m) c 0).trans (U4_of m c _ (by decide)).symm)
  | ⟨1, _⟩ => exact ((dat0 (E0 m) c).arrAt_in 1 rfl _).trans ((A_eq0 (E0 m) c 1).trans (U4_of m c _ (by decide)).symm)
  | ⟨2, _⟩ => exact (U4_self m c).symm
theorem hrest0 (c : Dev nD) : ∀ b, b ∉ Finset.univ.image (Pipeline.arrRef spec0) → U4 m c b = E0 m c b := fun b hb =>
  U4_of m c b fun e => hb (Finset.mem_image.mpr ⟨2, Finset.mem_univ _, e.symm⟩)

theorem U6_of (c : Dev nD) (r : Ref sig .tc) (h : r ≠ main_v30) : U6 m c r = U5 m c r := by
  simp only [U6, Function.update_of_ne (StableHlo.devRef_ne_of_ne h : (Proc.devRef .tc r : DevRef τ sig) ≠ Proc.devRef .tc main_v30)]
theorem U6_self (c : Dev nD) : U6 m c main_v30 = res1 m c := by
  simp only [U6, Function.update_self]
theorem hF1 (c : Dev nD) (w : Fin cfg1.W) : (pdats m 1 c).arrAt w cfg1.N = U6 m c (Pipeline.arrRef spec1 w) := by
  match w with
  | ⟨0, _⟩ => exact ((dat1 (E1 m) c).arrAt_in 0 rfl _).trans ((A_eq1 (E1 m) c 0).trans (U6_of m c _ (by decide)).symm)
  | ⟨1, _⟩ => exact ((dat1 (E1 m) c).arrAt_in 1 rfl _).trans ((A_eq1 (E1 m) c 1).trans (U6_of m c _ (by decide)).symm)
  | ⟨2, _⟩ => exact ((dat1 (E1 m) c).arrAt_in 2 rfl _).trans ((A_eq1 (E1 m) c 2).trans (U6_of m c _ (by decide)).symm)
  | ⟨3, _⟩ => exact ((dat1 (E1 m) c).arrAt_in 3 rfl _).trans ((A_eq1 (E1 m) c 3).trans (U6_of m c _ (by decide)).symm)
  | ⟨4, _⟩ => exact (U6_self m c).symm
theorem hrest1 (c : Dev nD) : ∀ b, b ∉ Finset.univ.image (Pipeline.arrRef spec1) → U6 m c b = E1 m c b := fun b hb =>
  U6_of m c b fun e => hb (Finset.mem_image.mpr ⟨4, Finset.mem_univ _, e.symm⟩)

theorem U8_of (c : Dev nD) (r : Ref sig .tc) (h : r ≠ main_v44) : U8 m c r = U7 m c r := by
  simp only [U8, Function.update_of_ne (StableHlo.devRef_ne_of_ne h : (Proc.devRef .tc r : DevRef τ sig) ≠ Proc.devRef .tc main_v44)]
theorem U8_self (c : Dev nD) : U8 m c main_v44 = res2 m c := by
  simp only [U8, Function.update_self]
theorem hF2 (c : Dev nD) (w : Fin cfg2.W) : (pdats m 2 c).arrAt w cfg2.N = U8 m c (Pipeline.arrRef spec2 w) := by
  match w with
  | ⟨0, _⟩ => exact ((dat2 (E2 m) c).arrAt_in 0 rfl _).trans ((A_eq2 (E2 m) c 0).trans (U8_of m c _ (by decide)).symm)
  | ⟨1, _⟩ => exact ((dat2 (E2 m) c).arrAt_in 1 rfl _).trans ((A_eq2 (E2 m) c 1).trans (U8_of m c _ (by decide)).symm)
  | ⟨2, _⟩ => exact ((dat2 (E2 m) c).arrAt_in 2 rfl _).trans ((A_eq2 (E2 m) c 2).trans (U8_of m c _ (by decide)).symm)
  | ⟨3, _⟩ => exact ((dat2 (E2 m) c).arrAt_in 3 rfl _).trans ((A_eq2 (E2 m) c 3).trans (U8_of m c _ (by decide)).symm)
  | ⟨4, _⟩ => exact ((dat2 (E2 m) c).arrAt_in 4 rfl _).trans ((A_eq2 (E2 m) c 4).trans (U8_of m c _ (by decide)).symm)
  | ⟨5, _⟩ => exact ((dat2 (E2 m) c).arrAt_in 5 rfl _).trans ((A_eq2 (E2 m) c 5).trans (U8_of m c _ (by decide)).symm)
  | ⟨6, _⟩ => exact (U8_self m c).symm
theorem hrest2 (c : Dev nD) : ∀ b, b ∉ Finset.univ.image (Pipeline.arrRef spec2) → U8 m c b = E2 m c b := fun b hb =>
  U8_of m c b fun e => hb (Finset.mem_image.mpr ⟨6, Finset.mem_univ _, e.symm⟩)

/-! ## The regions as segments -/

set_option backward.isDefEq.respectTransparency.types false in
/-- Region 0 over the thread state: entered with every unscoped buffer at its entry contents, left with the
    result array replaced; its arrays are split out of the unscoped buffers at entry and put back at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V3 m c) ∗ Rr c)
  post c := iprop(StableHlo.held (c : Thread nD τ) (Pipeline.ucRefs τ sig) (U4 m c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => U4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its entry contents, left with the
    result array replaced; its arrays are split out of the unscoped buffers at entry and put back at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (U5 m c) ∗ Rr c)
  post c := iprop(StableHlo.held (c : Thread nD τ) (Pipeline.ucRefs τ sig) (U6 m c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => U6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at its entry contents, left with the
    result array replaced; its arrays are split out of the unscoped buffers at entry and put back at exit. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (U7 m c) ∗ Rr c)
  post c := iprop(StableHlo.held (c : Thread nD τ) (Pipeline.ucRefs τ sig) (U8 m c) ∗ Rr c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (E2 m) c)
    unfold Pipeline.ΦA
    iintro ⟨Hp, -, Hr⟩
    isplitl [Hr]; · iexact Hr
    iexact Hp
  hout c := by
    rw [Pipeline.ownSems0_none]
    refine (hout2 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (fun b => U8 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run and the frame -/

set_option backward.isDefEq.respectTransparency.types false in
/-- The run through the regions with the program's RESULT read off the last boundary's contents as well as the arguments: for any rest states, any contents the regions leave and any proof data, given a segment record per region entered from the boundary state before it and left at the one after it, every weakly fair execution of @main terminates with the result buffer at the last valuation's contents and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      r.2.mem ((c.tc : Thread nD τ).loc main_v61) = V10 m outs c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, hpre0 c, hpost0 c, hpre1 c, hpost1 c, hpre2 c, hpost2 c, .rfl, sep_mono .rfl (hE3 c)⟩)
    (hinit := ?_) (QY := fun c s => s.mem ((c.tc : Thread nD τ).loc main_v61) = V10 m outs c main_v61 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨h (Proc.devRef .tc main_v61) (Finset.mem_filter.mpr ⟨StableHlo.devRef_mem_tcRefs main_v61, by decide⟩),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c),
        (h (Proc.devRef .tc main_arg2) (Finset.mem_filter.mpr ⟨StableHlo.devRef_mem_tcRefs main_arg2, by decide⟩)).trans (V10_main_arg2 m outs c),
        (h (Proc.devRef .tc main_arg3) (Finset.mem_filter.mpr ⟨StableHlo.devRef_mem_tcRefs main_arg3, by decide⟩)).trans (V10_main_arg3 m outs c),
        (h (Proc.devRef .tc main_arg4) (Finset.mem_filter.mpr ⟨StableHlo.devRef_mem_tcRefs main_arg4, by decide⟩)).trans (V10_main_arg4 m outs c),
        (h (Proc.devRef .tc main_arg5) (Finset.mem_filter.mpr ⟨StableHlo.devRef_mem_tcRefs main_arg5, by decide⟩)).trans (V10_main_arg5 m outs c),
        (h (Proc.devRef .tc main_arg6) (Finset.mem_filter.mpr ⟨StableHlo.devRef_mem_tcRefs main_arg6, by decide⟩)).trans (V10_main_arg6 m outs c),
        (h (Proc.devRef .tc main_arg7) (Finset.mem_filter.mpr ⟨StableHlo.devRef_mem_tcRefs main_arg7, by decide⟩)).trans (V10_main_arg7 m outs c),
        (h (Proc.devRef .tc main_arg8) (Finset.mem_filter.mpr ⟨StableHlo.devRef_mem_tcRefs main_arg8, by decide⟩)).trans (V10_main_arg8 m outs c)⟩
    · iexact HSI

/-- The rest states the launch makes: the generator register at its launch state, nothing owed. -/
theorem rest_init :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (fun c : Dev nD => Rr (F := F) c) : sProp 𝕄) := by
  have h : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c))
      ⊢ (bigSep Finset.univ (fun c : Dev nD => Rr (F := F) c) : sProp 𝕄) :=
    bigSep_mono fun c _ => by
      show (iprop(unscopedSems0 c ∗ owes (c : Thread nD τ) (0 : CellTallies nD τ sig Unit) ∅ ∗ Pipeline.launchCred (0 : Dev nD → CellTallies nD τ sig Unit) c ∗ prngReg c (ρ c) ∗ emp) : sProp 𝕄)
        ⊢ iprop((∃ r, prngReg c r) ∗ ∃ W, owes (c : Thread nD τ) (0 : CellTallies nD τ sig Unit) W)
      iintro ⟨-, HO, -, Hp, -⟩
      isplitl [Hp]; · iexists _; iexact Hp
      iexists ∅; iexact HO
  iintro ⟨H, -⟩
  imodintro
  iapply h
  iexact H

set_option backward.isDefEq.respectTransparency.types false in
/-- Every weakly fair execution of @main terminates; the result buffer ends at the last boundary's contents and every
    argument array as launched. -/
theorem run_main : θ_run defs (onTc (τ := τ) (main (F := F))) ⟨m, fun _ => 0, ρ⟩ (fun r => ∀ c : Dev nD,
      r.2.mem ((c.tc : Thread nD τ).loc main_v61) = V10 m (outsK m) c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_cond m (EP := emb₁) (ι := ()) (𝒱₀ := 𝒱₀) (L := L) (lv := lv) (hL := fun _ _ => rfl) (ρ := ρ) (outs := outsK m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := rest_init (F := F) ρ)
    (hE3 := fun c => by iintro ⟨-, HO⟩; iexact HO)
    (R0 := reg0 m) (hpre0 := fun c => .rfl) (hpost0 := fun c => by rw [V4_eq]; exact .rfl)
    (R1 := reg1 m) (hpre1 := fun c => by rw [V5_eq]; exact .rfl) (hpost1 := fun c => by rw [V6_eq]; exact .rfl)
    (R2 := reg2 m) (hpre2 := fun c => by rw [V7_eq]; exact .rfl) (hpost2 := fun c => by rw [V8_eq]; exact .rfl)

/-- The frame: every weakly fair execution of @main terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.Kernel.Hand

end
-- ==== Proof.KI.Region0.lean ====
import proofs.«427309_j66967130079866_2_alg».proof.Proof.Gen.KernelIdeal.Launch
import proofs.«427309_j66967130079866_2_alg».proof.Proof.Gen.KernelIdeal.Skeleton
import proofs.«427309_j66967130079866_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The first pallas call: rows of node features times the first layer's weights, scaled row by row

Each grid point takes a block of 4000 rows of the 100000×5 operand (four feature columns and one scale
column) and the whole 4×128 weight matrix, and leaves the 4000×128 block of the result: the features and
the weights rounded to bf16, their product accumulated in f32, each row multiplied by its scale, the
result rounded to bf16. -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's staging buffer holds its block at every point (it is fetched at every point; an
    input left in place holds its block, fetched there or not), for any proof data whose array is `V`'s and
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The weight window's staging buffer holds the whole weight matrix at every point: fetched at the first
    point only, its block index never moves, so the buffer still holds it later. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

abbrev r0_x : Rect S4000x5 := Rect.unit (s := S4000x5) ![0, 0] S4000x5.size inb_S4000x5_S4000x5_0_0
abbrev r0_w : Rect S4x128 := Rect.unit (s := S4x128) ![0, 0] S4x128.size inb_S4x128_S4x128_0_0
abbrev r0_o : Rect S4000x128 := Rect.unit (s := S4000x128) ![0, 0] S4000x128.size inb_S4000x128_S4000x128_0_0

/-! ## What the body leaves in the output window's buffer -/

/-- The output window's staging buffer after the body, from the input windows' blocks: its one whole-buffer
    store, the payload the body's arithmetic on the two loaded blocks. -/
def out0_2 (x0 : Vec F S4000x5 .f32) (x1 : Vec F S4x128 .f32) : Vec F S4000x128 .bf16 :=
  View.canon [⟨r0_o, k0_pay1 (View.ld x0 r0_x) (View.ld x1 r0_w)⟩]

/-- The one store tiles the buffer, so it covers it. -/
theorem cover0_2 (p0 : Vec F S4000x128 .bf16) (y : S4000x128.Idx) :
    ∃ pc ∈ ([⟨r0_o, p0⟩] : List (View.Piece (Elt F) S4000x128 .bf16)), y ∈ pc.1.set :=
  View.cover_of_tiled [⟨r0_o, p0⟩] S4000x128.size (by rfl) y

/-! ## The body's triple -/

set_option maxHeartbeats 1000000 in
/-- The kernel body on whole staging memrefs, the inputs' at read contents `x0`, `x1` and the output's at
    anything, runs to the continuation holding the inputs' as they were and the output's at `out0_2` of the
    inputs'. The load of the output buffer before the store reads a value nothing uses. -/
theorem sound_kernel0 (c : Dev nD) (E : Set ℕ) (i : grid0.Coords)
    (arg1 : Memref sig .tc .vmem S4000x5 .f32) (harg1 : arg1.IsWhole)
    (arg2 : Memref sig .tc .vmem S4x128 .f32) (harg2 : arg2.IsWhole)
    (arg3 : Memref sig .tc .vmem S4000x128 .bf16) (harg3 : arg3.IsWhole)
    (x0 : Vec F S4000x5 .f32) (x1 : Vec F S4x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (out0_2 x0 x1)) -∗ K ⟨⟩))
      ⊢ wp frame (wpE (defs₀ (F := F)) Variants.none c none) E (cc0__node_matmul_scaled_kernel i arg1 harg1 arg2 harg2 arg3 harg3) K := by
  simp only [cc0__node_matmul_scaled_kernel_eq_skeleton]; unfold cc0__node_matmul_scaled_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the pipeline on core `c`: the arrays as the region finds them (`V`); after the body at
    point `t` each input's buffer at its block and the output's at `out0_2` of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Region1.lean ====
import proofs.«427309_j66967130079866_2_alg».proof.Proof.Gen.KernelIdeal.Launch
import proofs.«427309_j66967130079866_2_alg».proof.Proof.Gen.KernelIdeal.Skeleton
import proofs.«427309_j66967130079866_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # The second layer's first half: bias, tanh, weight product, row scaling (five windows) -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias (window 2) is fetched at the first point only; its block index is constant, so the same law applies. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- The weight (window 3) likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole buffer -/

abbrev rect1_rows : Rect S4000x128 := Rect.unit (s := S4000x128) ![0, 0] S4000x128.size inb_S4000x128_S4000x128_0_0
abbrev rect1_scale : Rect S4000x1 := Rect.unit (s := S4000x1) ![0, 0] S4000x1.size inb_S4000x1_S4000x1_0_0
abbrev rect1_bias : Rect S128 := Rect.unit (s := S128) ![0] S128.size inb_S128_S128_0
abbrev rect1_weight : Rect S128x128 := Rect.unit (s := S128x128) ![0, 0] S128x128.size inb_S128x128_S128x128_0_0

/-! ## What the body leaves in the output window's buffer -/

/-- Window 4's staging buffer after the body, from the input windows' blocks: its one store as a piece; the payload
    is the body's arithmetic on the four loaded blocks (scale the rows, add the bias, tanh, round to bf16, multiply
    by the rounded weight, scale the rows again, round to bf16). -/
def out1_4 (x0 : Vec F S4000x128 .f32) (x1 : Vec F S4000x1 .f32) (x2 : Vec F S128 .f32) (x3 : Vec F S128x128 .f32) : Vec F S4000x128 .bf16 :=
  View.canon [⟨rect1_rows, k1_pay1 (View.ld x0 rect1_rows) (View.ld x1 rect1_scale) (View.ld x2 rect1_bias) (View.ld x3 rect1_weight)⟩]

/-- The one store's rectangle is the whole buffer, so it covers it. -/
theorem cover1_4 (p0 : Vec F S4000x128 .bf16) (y : S4000x128.Idx) :
    ∃ pc ∈ ([⟨rect1_rows, p0⟩] : List (View.Piece (Elt F) S4000x128 .bf16)), y ∈ pc.1.set :=
  View.cover_of_tiled [⟨rect1_rows, p0⟩] S4000x128.size (by rfl) y

/-! ## The body's triple -/

set_option maxHeartbeats 4000000 in
/-- The kernel body on whole staging memrefs, the inputs' at read contents `x0 … x3` and the output's at anything,
    runs to the continuation holding the inputs' as they were and the output's at `out1_4` of the inputs'. -/
theorem sound_kernel1 (c : Dev nD) (E : Set ℕ) (i : grid1.Coords)
    (arg1 : Memref sig .tc .vmem S4000x128 .f32) (harg1 : arg1.IsWhole) (arg2 : Memref sig .tc .vmem S4000x1 .f32) (harg2 : arg2.IsWhole)
    (arg3 : Memref sig .tc .vmem S128 .f32) (harg3 : arg3.IsWhole) (arg4 : Memref sig .tc .vmem S128x128 .f32) (harg4 : arg4.IsWhole)
    (arg5 : Memref sig .tc .vmem S4000x128 .bf16) (harg5 : arg5.IsWhole)
    (x0 : Vec F S4000x128 .f32) (x1 : Vec F S4000x1 .f32) (x2 : Vec F S128 .f32) (x3 : Vec F S128x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__bias_tanh_matmul_scaled_kernel i arg1 harg1 arg2 harg2 arg3 harg3 arg4 harg4 arg5 harg5) K := by
  simp only [cc1__bias_tanh_matmul_scaled_kernel_eq_skeleton]; unfold cc1__bias_tanh_matmul_scaled_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- The proof data of the pipeline on core `c`: the arrays as the region finds them (`V`); after the body at point
    `t` each input's buffer at its block and the output's at `out1_4` of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    the core's debt pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Region2.lean ====
import proofs.«427309_j66967130079866_2_alg».proof.Proof.Gen.KernelIdeal.Launch
import proofs.«427309_j66967130079866_2_alg».proof.Proof.Gen.KernelIdeal.Skeleton
import proofs.«427309_j66967130079866_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # The third pallas_call: bias, tanh, masked row-pooling over 25 row tiles, then the final linear layer -/

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-! ## The body's accesses: every load and store is of a whole buffer -/

abbrev r2_0 : Rect S4000x128 := Rect.unit (s := S4000x128) ![0, 0] S4000x128.size inb_S4000x128_S4000x128_0_0
abbrev r2_1 : Rect S4000x1 := Rect.unit (s := S4000x1) ![0, 0] S4000x1.size inb_S4000x1_S4000x1_0_0
abbrev r2_2 : Rect S128 := Rect.unit (s := S128) ![0] S128.size inb_S128_S128_0
abbrev r2_4 : Rect S128x40 := Rect.unit (s := S128x40) ![0, 0] S128x40.size inb_S128x40_S128x40_0_0
abbrev r2_5 : Rect S40 := Rect.unit (s := S40) ![0] S40.size inb_S40_S40_0
abbrev r2_6 : Rect S1x40 := Rect.unit (s := S1x40) ![0, 0] S1x40.size inb_S1x40_S1x40_0_0
abbrev r2_8 : Rect S1x128 := Rect.unit (s := S1x128) ![0, 0] S1x128.size inb_S1x128_S1x128_0_0
abbrev r2_9 : Rect S1x1 := Rect.unit (s := S1x1) ![0, 0] S1x1.size inb_S1x1_S1x1_0_0

/-! ## One point's update of the two carried buffers, and the last point's result -/

/-- The row-sum accumulator after a point: the sum over the tile's rows of tanh(x·s + b) masked by (batch = 0),
    added to what the accumulator held (`a`). -/
def accStep (x0 : Vec F S4000x128 .f32) (x1 : Vec F S4000x1 .f32) (x2 : Vec F S128 .f32) (x3 : Vec F S4000x1 .i32)
    (a : Vec F S1x128 .f32) : Vec F S1x128 .f32 :=
  View.canon [⟨r2_8, k2_pay5 (View.ld x0 r2_0) (View.ld x1 r2_1) (View.ld x2 r2_2) (View.ld x3 r2_1) (View.ld a r2_8)⟩]

/-- The row counter after a point: the number of the tile's rows with batch = 0, added to what the counter held (`n`). -/
def cntStep (x3 : Vec F S4000x1 .i32) (n : Vec F S1x1 .f32) : Vec F S1x1 .f32 :=
  View.canon [⟨r2_9, k2_pay6 (View.ld x3 r2_1) (View.ld n r2_9)⟩]

/-- The result the last point stores: the accumulator divided by max(counter, 1), through the final linear layer. -/
def finStep (n : Vec F S1x1 .f32) (a : Vec F S1x128 .f32) (x4 : Vec F S128x40 .f32) (x5 : Vec F S40 .f32) : Vec F S1x40 .f32 :=
  View.canon [⟨r2_6, k2_pay1 (View.ld n r2_9) (View.ld a r2_8) (View.ld x4 r2_4) (View.ld x5 r2_5)⟩]

/-- The two carried scratch buffers after point `n`: (row-sum accumulator, row counter), by recursion on the point:
    after point 0 the update applied to the zero fills; after point n+1 applied to what point n left. -/
def sc2 (c : Dev nD) : (n : ℕ) → n < cfg2.N → Vec F S1x128 .f32 × Vec F S1x1 .f32
  | 0, h => (accStep (iblk2 V c 0 ⟨0, h⟩) (iblk2 V c 1 ⟨0, h⟩) (iblk2 V c 2 ⟨0, h⟩) (iblk2 V c 3 ⟨0, h⟩) (k2_pay2 (F := F)),
             cntStep (iblk2 V c 3 ⟨0, h⟩) (k2_pay3 (F := F)))
  | n + 1, h => (accStep (iblk2 V c 0 ⟨n + 1, h⟩) (iblk2 V c 1 ⟨n + 1, h⟩) (iblk2 V c 2 ⟨n + 1, h⟩) (iblk2 V c 3 ⟨n + 1, h⟩) (sc2 c n (Nat.lt_of_succ_lt h)).1,
             cntStep (iblk2 V c 3 ⟨n + 1, h⟩) (sc2 c n (Nat.lt_of_succ_lt h)).2)

theorem sc2_zero (c : Dev nD) (h : 0 < cfg2.N) :
    sc2 V c 0 h = (accStep (iblk2 V c 0 ⟨0, h⟩) (iblk2 V c 1 ⟨0, h⟩) (iblk2 V c 2 ⟨0, h⟩) (iblk2 V c 3 ⟨0, h⟩) (k2_pay2 (F := F)),
             cntStep (iblk2 V c 3 ⟨0, h⟩) (k2_pay3 (F := F))) := rfl

theorem sc2_succ (c : Dev nD) (n : ℕ) (h : n + 1 < cfg2.N) :
    sc2 V c (n + 1) h = (accStep (iblk2 V c 0 ⟨n + 1, h⟩) (iblk2 V c 1 ⟨n + 1, h⟩) (iblk2 V c 2 ⟨n + 1, h⟩) (iblk2 V c 3 ⟨n + 1, h⟩) (sc2 V c n (Nat.lt_of_succ_lt h)).1,
             cntStep (iblk2 V c 3 ⟨n + 1, h⟩) (sc2 V c n (Nat.lt_of_succ_lt h)).2) := rfl

theorem lt24 : 24 < cfg2.N := by decide

/-- What the last point stores into the result's staging buffer. -/
def fin2 (c : Dev nD) : Vec F S1x40 .f32 :=
  finStep (sc2 V c 24 lt24).2 (sc2 V c 24 lt24).1 (iblk2 V c 4 ⟨24, lt24⟩) (iblk2 V c 5 ⟨24, lt24⟩)

theorem fin2_eq (c : Dev nD) : fin2 V c = View.canon [⟨r2_6, k2_pay1 (View.ld (sc2 V c 24 lt24).2 r2_9) (View.ld (sc2 V c 24 lt24).1 r2_8) (View.ld (iblk2 V c 4 ⟨24, lt24⟩) r2_4) (View.ld (iblk2 V c 5 ⟨24, lt24⟩) r2_5)⟩] := rfl

/-! ## The branch conditions, in closed form over the grid -/

/-- The first conditional's test (is this the first row tile), from the grid coordinates. -/
abbrev cond2_0 (i : grid2.Coords) : Prop := (Scalar.cmpi .ne (Scalar.extui (Scalar.cmpi .eq (BitVec.ofNat 32 (i 0).val) 0#32)) 0#32) = 1#1
theorem hcond2_0 : ∀ t : Fin cfg2.N, cond2_0 (grid2.coords t) ↔ t.val % 25 = 0 :=
  (by decide +kernel : ∀ t : Fin grid2.N, cond2_0 (grid2.coords t) ↔ t.val % 25 = 0)
/-- The second conditional's test (is this the last row tile). -/
abbrev cond2_1 (i : grid2.Coords) : Prop := k2_cond2 i = 1#1
theorem hcond2_1 : ∀ t : Fin cfg2.N, cond2_1 (grid2.coords t) ↔ t.val % 25 = 24 :=
  (by decide +kernel : ∀ t : Fin grid2.N, cond2_1 (grid2.coords t) ↔ t.val % 25 = 24)

/-- The inputs are never idle; the result window is idle exactly where the second conditional is not taken, and it is
    not written back there. -/
theorem liveAt2_in : ∀ (w : Fin 7), w ≠ 6 → ∀ t : Fin cfg2.N, cfg2.idle w (grid2.coords t) = false := by decide +kernel
theorem idleAt2_6 : ∀ t : Fin cfg2.N, ¬cond2_1 (grid2.coords t) → cfg2.idle 6 (grid2.coords t) = true := by decide +kernel
theorem noFlush2_6 : ∀ t : Fin cfg2.N, ¬cond2_1 (grid2.coords t) → (cfg2.win 6).flush t = false := by decide +kernel
theorem liveAt2_6 : ∀ t : Fin cfg2.N, cond2_1 (grid2.coords t) → cfg2.idle 6 (grid2.coords t) = false := by decide +kernel

/-! ## The invariant: the two scratch buffers beside the rest of the core's scoped buffers -/

abbrev scM2_0 : Memref sig .tc .vmem S1x128 .f32 := Memref.whole cc2_scratch0
abbrev scM2_1 : Memref sig .tc .vmem S1x1 .f32 := Memref.whole cc2_scratch1

/-- The scoped buffers of the other two calls (each at some contents) and the generator register at some state:
    what this body never touches. -/
def oth2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ r, prngReg c r))

/-- The class's invariant with the two scratch buffers at the given assertions. -/
def Rest2 (c : Dev nD) (S0 S1 : sProp 𝕄) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ S0 ∗ S1) ∗ (∃ r, prngReg c r))

theorem Rest2_open (c : Dev nD) (S0 S1 : sProp 𝕄) : Rest2 (F := F) c S0 S1 ⊢ iprop(oth2 (F := F) c ∗ S0 ∗ S1) := by
  unfold Rest2 oth2
  iintro ⟨⟨B0, B1, B2, B3, B4, B5, B6, B7, B8, B9, B10, B11, B12, HS0, HS1⟩, Hg⟩
  isplitr [HS0 HS1]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    iexact Hg
  isplitl [HS0]; · iexact HS0
  iexact HS1

theorem Rest2_close (c : Dev nD) (S0 S1 : sProp 𝕄) : iprop(oth2 (F := F) c ∗ S0 ∗ S1) ⊢ Rest2 (F := F) c S0 S1 := by
  unfold Rest2 oth2
  iintro ⟨⟨B0, B1, B2, B3, B4, B5, B6, B7, B8, B9, B10, B11, B12, Hg⟩, HS0, HS1⟩
  isplitr [Hg]
  · isplitl [B0]; · iexact B0
    isplitl [B1]; · iexact B1
    isplitl [B2]; · iexact B2
    isplitl [B3]; · iexact B3
    isplitl [B4]; · iexact B4
    isplitl [B5]; · iexact B5
    isplitl [B6]; · iexact B6
    isplitl [B7]; · iexact B7
    isplitl [B8]; · iexact B8
    isplitl [B9]; · iexact B9
    isplitl [B10]; · iexact B10
    isplitl [B11]; · iexact B11
    isplitl [B12]; · iexact B12
    isplitl [HS0]; · iexact HS0
    iexact HS1
  iexact Hg

/-- The class's invariant is `Rest2` with each scratch buffer owned at some contents. -/
theorem PhiA2_eq (c : Dev nD) :
    (Pipeline.ΦA spec2 c : sProp 𝕄)
      = Rest2 (F := F) c iprop(∃ d, owns (c : Thread nD τ) scM2_0 fullShare d) iprop(∃ d, owns (c : Thread nD τ) scM2_1 fullShare d) := by
  unfold Pipeline.ΦA Rest2; rw [scopedRest2_eq]; simp only [scM2_0, scM2_1, owns_whole]; try rfl

/-- The invariant before position `n`: before the first point the class's; afterwards both scratch buffers at what
    the point before left. -/
def PhiS2 (c : Dev nD) : (n : ℕ) → n ≤ cfg2.N → sProp 𝕄
  | 0, _ => Pipeline.ΦA spec2 c
  | n + 1, hn => Rest2 (F := F) c (owns (c : Thread nD τ) scM2_0 fullShare (sc2 V c n hn).1) (owns (c : Thread nD τ) scM2_1 fullShare (sc2 V c n hn).2)

theorem PhiS2_zero (c : Dev nD) (n : ℕ) (h : n ≤ cfg2.N) (hz : n = 0) : PhiS2 V c n h = Pipeline.ΦA spec2 c := by
  subst hz; rfl
theorem PhiS2_succ (c : Dev nD) (n : ℕ) (hn : n < cfg2.N) :
    PhiS2 V c (n + 1) hn = Rest2 (F := F) c (owns (c : Thread nD τ) scM2_0 fullShare (sc2 V c n hn).1) (owns (c : Thread nD τ) scM2_1 fullShare (sc2 V c n hn).2) := rfl
theorem PhiS2_pos (c : Dev nD) (n : ℕ) (h : n ≤ cfg2.N) (hz : n ≠ 0) :
    PhiS2 V c n h = Rest2 (F := F) c (owns (c : Thread nD τ) scM2_0 fullShare (sc2 V c (n - 1) (by omega)).1) (owns (c : Thread nD τ) scM2_1 fullShare (sc2 V c (n - 1) (by omega)).2) := by
  cases n with
  | zero => exact absurd rfl hz
  | succ n => rfl

/-! ## The proof data -/

/-- The arrays as the region finds them; after the body each input's buffer at its block, the result's at `fin2`
    (stored at the last point only: at the others the window is idle and nobody consults it); the invariant `PhiS2`;
    nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => fin2 V c
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_6_last (c : Dev nD) : (dat2 V c).after 6 ⟨24, lt24⟩ = fin2 V c := by dsimp only [dat2]

/-! ## The body's triples, one per control case -/

theorem off2_zero : (![0, 0] : Fin 2 → ℕ) = fun _ => 0 := by funext a; fin_cases a <;> rfl
theorem off1_zero : (![0] : Fin 1 → ℕ) = fun _ => 0 := by funext a; fin_cases a <;> rfl

/-- One whole-buffer store covers the buffer. -/
theorem cover2_8 (p : Vec F S1x128 .f32) (y : S1x128.Idx) :
    ∃ pc ∈ ([⟨r2_8, p⟩] : List (View.Piece (Elt F) S1x128 .f32)), y ∈ pc.1.set :=
  View.cover_of_tiled [⟨r2_8, p⟩] S1x128.size (by rfl) y
theorem cover2_9 (p : Vec F S1x1 .f32) (y : S1x1.Idx) :
    ∃ pc ∈ ([⟨r2_9, p⟩] : List (View.Piece (Elt F) S1x1 .f32)), y ∈ pc.1.set :=
  View.cover_of_tiled [⟨r2_9, p⟩] S1x1.size (by rfl) y
theorem cover2_6 (p : Vec F S1x40 .f32) (y : S1x40.Idx) :
    ∃ pc ∈ ([⟨r2_6, p⟩] : List (View.Piece (Elt F) S1x40 .f32)), y ∈ pc.1.set :=
  View.cover_of_tiled [⟨r2_6, p⟩] S1x40.size (by rfl) y

set_option maxHeartbeats 2000000 in
/-- The first row tile (first conditional taken): both carried buffers are zeroed, then read and updated; the
    result's buffer is untouched. -/
theorem kernel2_A (c : Dev nD) (i : grid2.Coords) (arg1 : Memref sig .tc .vmem S4000x128 .f32) (harg1 : arg1.IsWhole) (arg2 : Memref sig .tc .vmem S4000x1 .f32) (harg2 : arg2.IsWhole) (arg3 : Memref sig .tc .vmem S128 .f32) (harg3 : arg3.IsWhole) (arg4 : Memref sig .tc .vmem S4000x1 .i32) (harg4 : arg4.IsWhole) (arg5 : Memref sig .tc .vmem S128x40 .f32) (harg5 : arg5.IsWhole) (arg6 : Memref sig .tc .vmem S40 .f32) (harg6 : arg6.IsWhole) (arg7 : Memref sig .tc .vmem S1x40 .f32) (harg7 : arg7.IsWhole) (arg8 : Memref sig .tc .vmem S1x128 .f32) (harg8 : arg8.IsWhole) (arg9 : Memref sig .tc .vmem S1x1 .f32) (harg9 : arg9.IsWhole) (hc0 : cond2_0 i) (hc1 : ¬cond2_1 i)
    (x0 : Vec F S4000x128 .f32) (x1 : Vec F S4000x1 .f32) (x2 : Vec F S128 .f32) (x3 : Vec F S4000x1 .i32) (x4 : Vec F S128x40 .f32) (x5 : Vec F S40 .f32) (x6 : Vec F S1x40 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (accStep x0 x1 x2 x3 (k2_pay2 (F := F))) ∗ owns (c : Thread nD τ) arg9 fullShare (cntStep x3 (k2_pay3 (F := F)))) -∗ K ⟨⟩))
      ⊢ wp frame (wpE (defs₀ (F := F)) Variants.none c none) E (cc2__bias_tanh_pool_fc_scaled_kernel i arg1 harg1 arg2 harg2 arg3 harg3 arg4 harg4 arg5 harg5 arg6 harg6 arg7 harg7 arg8 harg8 arg9 harg9) K := by
  simp only [cc2__bias_tanh_pool_fc_scaled_kernel_eq_skeleton]; unfold cc2__bias_tanh_pool_fc_scaled_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, Hk⟩
  subst hf1 hf2 hf3 hf4 hf5 hf6 hf7
  sl_exec (disch := first | exact hc0 | exact hc1)
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists _; isplitr
    swap; · iexact H8
    ipureintro
    sl_unfold_run_names
    rw [View.read_writes_eq_canon _ _ _ (fun y => ⟨_, List.mem_cons.mpr (Or.inl rfl), View.mem_set_unit_zero (S := S1x128) off2_zero inb_S1x128_S1x128_0_0 y⟩)]
    rw [View.canon_cons_unit_zero (S := S1x128) off2_zero, View.readCov_unit_zero (S := S1x128) _ off2_zero]
    unfold accStep
    rw [View.canon_unit_zero (S := S1x128) off2_zero, View.ld_unit_zero (S := S1x128) off2_zero]
    rfl
  iexists _; isplitr
  swap; · iexact H9
  ipureintro
  sl_unfold_run_names
  rw [View.read_writes_eq_canon _ _ _ (fun y => ⟨_, List.mem_cons.mpr (Or.inl rfl), View.mem_set_unit_zero (S := S1x1) off2_zero inb_S1x1_S1x1_0_0 y⟩)]
  rw [View.canon_cons_unit_zero (S := S1x1) off2_zero, View.readCov_unit_zero (S := S1x1) _ off2_zero]
  unfold cntStep
  rw [View.canon_unit_zero (S := S1x1) off2_zero, View.ld_unit_zero (S := S1x1) off2_zero]
  rfl

set_option maxHeartbeats 2000000 in
/-- A middle row tile (neither conditional taken): both carried buffers are read and updated; the result's buffer
    is untouched. -/
theorem kernel2_B (c : Dev nD) (i : grid2.Coords) (arg1 : Memref sig .tc .vmem S4000x128 .f32) (harg1 : arg1.IsWhole) (arg2 : Memref sig .tc .vmem S4000x1 .f32) (harg2 : arg2.IsWhole) (arg3 : Memref sig .tc .vmem S128 .f32) (harg3 : arg3.IsWhole) (arg4 : Memref sig .tc .vmem S4000x1 .i32) (harg4 : arg4.IsWhole) (arg5 : Memref sig .tc .vmem S128x40 .f32) (harg5 : arg5.IsWhole) (arg6 : Memref sig .tc .vmem S40 .f32) (harg6 : arg6.IsWhole) (arg7 : Memref sig .tc .vmem S1x40 .f32) (harg7 : arg7.IsWhole) (arg8 : Memref sig .tc .vmem S1x128 .f32) (harg8 : arg8.IsWhole) (arg9 : Memref sig .tc .vmem S1x1 .f32) (harg9 : arg9.IsWhole) (hc0 : ¬cond2_0 i) (hc1 : ¬cond2_1 i)
    (x0 : Vec F S4000x128 .f32) (x1 : Vec F S4000x1 .f32) (x2 : Vec F S128 .f32) (x3 : Vec F S4000x1 .i32) (x4 : Vec F S128x40 .f32) (x5 : Vec F S40 .f32) (x6 : Vec F S1x40 .f32) (a : Vec F S1x128 .f32) (n : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare a ∗ owns (c : Thread nD τ) arg9 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (accStep x0 x1 x2 x3 a) ∗ owns (c : Thread nD τ) arg9 fullShare (cntStep x3 n)) -∗ K ⟨⟩))
      ⊢ wp frame (wpE (defs₀ (F := F)) Variants.none c none) E (cc2__bias_tanh_pool_fc_scaled_kernel i arg1 harg1 arg2 harg2 arg3 harg3 arg4 harg4 arg5 harg5 arg6 harg6 arg7 harg7 arg8 harg8 arg9 harg9) K := by
  simp only [cc2__bias_tanh_pool_fc_scaled_kernel_eq_skeleton]; unfold cc2__bias_tanh_pool_fc_scaled_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  subst hf1 hf2 hf3 hf4 hf5 hf6 hf7 hf8 hf9
  sl_exec (disch := first | exact hc0 | exact hc1)
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists f7; isplitr
    · ipureintro; rfl
    · iexact H7
  isplitl [H8]
  · iexists _; isplitr
    swap; · iexact H8
    ipureintro
    exact View.read_writes_eq_canon _ _ _ (cover2_8 _)
  iexists _; isplitr
  swap; · iexact H9
  ipureintro
  exact View.read_writes_eq_canon _ _ _ (cover2_9 _)

set_option maxHeartbeats 2000000 in
/-- The last row tile (second conditional taken): both carried buffers are read and updated, then the result is
    computed from them and stored. -/
theorem kernel2_C (c : Dev nD) (i : grid2.Coords) (arg1 : Memref sig .tc .vmem S4000x128 .f32) (harg1 : arg1.IsWhole) (arg2 : Memref sig .tc .vmem S4000x1 .f32) (harg2 : arg2.IsWhole) (arg3 : Memref sig .tc .vmem S128 .f32) (harg3 : arg3.IsWhole) (arg4 : Memref sig .tc .vmem S4000x1 .i32) (harg4 : arg4.IsWhole) (arg5 : Memref sig .tc .vmem S128x40 .f32) (harg5 : arg5.IsWhole) (arg6 : Memref sig .tc .vmem S40 .f32) (harg6 : arg6.IsWhole) (arg7 : Memref sig .tc .vmem S1x40 .f32) (harg7 : arg7.IsWhole) (arg8 : Memref sig .tc .vmem S1x128 .f32) (harg8 : arg8.IsWhole) (arg9 : Memref sig .tc .vmem S1x1 .f32) (harg9 : arg9.IsWhole) (hc0 : ¬cond2_0 i) (hc1 : cond2_1 i)
    (x0 : Vec F S4000x128 .f32) (x1 : Vec F S4000x1 .f32) (x2 : Vec F S128 .f32) (x3 : Vec F S4000x1 .i32) (x4 : Vec F S128x40 .f32) (x5 : Vec F S40 .f32) (a : Vec F S1x128 .f32) (n : Vec F S1x1 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ owns (c : Thread nD τ) arg8 fullShare a ∗ owns (c : Thread nD τ) arg9 fullShare n
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (finStep (cntStep x3 n) (accStep x0 x1 x2 x3 a) x4 x5) ∗ owns (c : Thread nD τ) arg8 fullShare (accStep x0 x1 x2 x3 a) ∗ owns (c : Thread nD τ) arg9 fullShare (cntStep x3 n)) -∗ K ⟨⟩))
      ⊢ wp frame (wpE (defs₀ (F := F)) Variants.none c none) E (cc2__bias_tanh_pool_fc_scaled_kernel i arg1 harg1 arg2 harg2 arg3 harg3 arg4 harg4 arg5 harg5 arg6 harg6 arg7 harg7 arg8 harg8 arg9 harg9) K := by
  simp only [cc2__bias_tanh_pool_fc_scaled_kernel_eq_skeleton]; unfold cc2__bias_tanh_pool_fc_scaled_kernel_skel
  simp only [k2_part1_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%f8, %hf8, H8⟩, ⟨%f9, %hf9, H9⟩, Hk⟩
  subst hf1 hf2 hf3 hf4 hf5 hf6 hf8 hf9
  sl_exec (disch := first | exact hc0 | exact hc1)
  sl_step
  iapply Hk
  isplitl [H1]
  · iexists f1; isplitr
    · ipureintro; rfl
    · iexact H1
  isplitl [H2]
  · iexists f2; isplitr
    · ipureintro; rfl
    · iexact H2
  isplitl [H3]
  · iexists f3; isplitr
    · ipureintro; rfl
    · iexact H3
  isplitl [H4]
  · iexists f4; isplitr
    · ipureintro; rfl
    · iexact H4
  isplitl [H5]
  · iexists f5; isplitr
    · ipureintro; rfl
    · iexact H5
  isplitl [H6]
  · iexists f6; isplitr
    · ipureintro; rfl
    · iexact H6
  isplitl [H7]
  · iexists _; isplitr
    swap; · iexact H7
    ipureintro
    sl_unfold_run_names
    rw [View.read_writes_eq_canon _ _ _ (cover2_6 _)]
    rw [View.readCov_eq_canon_ld _ _ _ (cover2_9 _), View.readCov_eq_canon_ld _ _ _ (cover2_8 _)]
    rfl
  isplitl [H8]
  · iexists _; isplitr
    swap; · iexact H8
    ipureintro
    exact View.read_writes_eq_canon _ _ _ (cover2_8 _)
  iexists _; isplitr
  swap; · iexact H9
  ipureintro
  exact View.read_writes_eq_canon _ _ _ (cover2_9 _)

/-! ## Each input's staging buffer holds its block at every point, fetched there or not -/

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem after2_0 (c : Dev nD) (t : Fin cfg2.N) : (dat2 V c).after 0 t = iblk2 V c 0 t := by dsimp only [dat2]
theorem before2_0 (c : Dev nD) (t : Fin cfg2.N) (d) : (dat2 V c).before 0 t d = iblk2 V c 0 t :=
  before2_0_of V (dat2 V c) (A_eq2 V c 0) (after2_0 V c) t d
theorem leaves2_0 (c : Dev nD) (t : Fin cfg2.N) : (dat2 V c).leavesExact 0 t = owns (c : Thread nD τ) (st2_0 t) fullShare (iblk2 V c 0 t) := by
  unfold Dat.leavesExact; rw [liveAt2_in 0 (by decide) t, after2_0]

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem after2_1 (c : Dev nD) (t : Fin cfg2.N) : (dat2 V c).after 1 t = iblk2 V c 1 t := by dsimp only [dat2]
theorem before2_1 (c : Dev nD) (t : Fin cfg2.N) (d) : (dat2 V c).before 1 t d = iblk2 V c 1 t :=
  before2_1_of V (dat2 V c) (A_eq2 V c 1) (after2_1 V c) t d
theorem leaves2_1 (c : Dev nD) (t : Fin cfg2.N) : (dat2 V c).leavesExact 1 t = owns (c : Thread nD τ) (st2_1 t) fullShare (iblk2 V c 1 t) := by
  unfold Dat.leavesExact; rw [liveAt2_in 1 (by decide) t, after2_1]

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)
theorem after2_2 (c : Dev nD) (t : Fin cfg2.N) : (dat2 V c).after 2 t = iblk2 V c 2 t := by dsimp only [dat2]
theorem before2_2 (c : Dev nD) (t : Fin cfg2.N) (d) : (dat2 V c).before 2 t d = iblk2 V c 2 t :=
  before2_2_of V (dat2 V c) (A_eq2 V c 2) (after2_2 V c) t d
theorem leaves2_2 (c : Dev nD) (t : Fin cfg2.N) : (dat2 V c).leavesExact 2 t = owns (c : Thread nD τ) (st2_2 t) fullShare (iblk2 V c 2 t) := by
  unfold Dat.leavesExact; rw [liveAt2_in 2 (by decide) t, after2_2]

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)
theorem after2_3 (c : Dev nD) (t : Fin cfg2.N) : (dat2 V c).after 3 t = iblk2 V c 3 t := by dsimp only [dat2]
theorem before2_3 (c : Dev nD) (t : Fin cfg2.N) (d) : (dat2 V c).before 3 t d = iblk2 V c 3 t :=
  before2_3_of V (dat2 V c) (A_eq2 V c 3) (after2_3 V c) t d
theorem leaves2_3 (c : Dev nD) (t : Fin cfg2.N) : (dat2 V c).leavesExact 3 t = owns (c : Thread nD τ) (st2_3 t) fullShare (iblk2 V c 3 t) := by
  unfold Dat.leavesExact; rw [liveAt2_in 3 (by decide) t, after2_3]

theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)
theorem after2_4 (c : Dev nD) (t : Fin cfg2.N) : (dat2 V c).after 4 t = iblk2 V c 4 t := by dsimp only [dat2]
theorem before2_4 (c : Dev nD) (t : Fin cfg2.N) (d) : (dat2 V c).before 4 t d = iblk2 V c 4 t :=
  before2_4_of V (dat2 V c) (A_eq2 V c 4) (after2_4 V c) t d
theorem leaves2_4 (c : Dev nD) (t : Fin cfg2.N) : (dat2 V c).leavesExact 4 t = owns (c : Thread nD τ) (st2_4 t) fullShare (iblk2 V c 4 t) := by
  unfold Dat.leavesExact; rw [liveAt2_in 4 (by decide) t, after2_4]

theorem before2_5_of {c : Dev nD} (dat : Dat τ (Elt F) Unit ℕ (UR sig nD τ) ℕ cfg2 c) (hA : dat.A 5 = V c (Pipeline.arrRef spec2 5))
    (hafter : ∀ t, dat.after 5 t = iblk2 V c 5 t) (t : Fin cfg2.N) (d) : dat.before 5 t d = iblk2 V c 5 t :=
  (dat.before_in_eq_fetched 5 rfl (fun _ => rfl) (fun _ _ _ => rfl) (fun t => by rw [hafter]; unfold Dat.blockOf iblk2; rw [hA]; try rfl) t d).trans
    (by unfold Dat.fetched Dat.blockOf iblk2; rw [hA]; try rfl)
theorem after2_5 (c : Dev nD) (t : Fin cfg2.N) : (dat2 V c).after 5 t = iblk2 V c 5 t := by dsimp only [dat2]
theorem before2_5 (c : Dev nD) (t : Fin cfg2.N) (d) : (dat2 V c).before 5 t d = iblk2 V c 5 t :=
  before2_5_of V (dat2 V c) (A_eq2 V c 5) (after2_5 V c) t d
theorem leaves2_5 (c : Dev nD) (t : Fin cfg2.N) : (dat2 V c).leavesExact 5 t = owns (c : Thread nD τ) (st2_5 t) fullShare (iblk2 V c 5 t) := by
  unfold Dat.leavesExact; rw [liveAt2_in 5 (by decide) t, after2_5]

theorem after2_6 (c : Dev nD) (t : Fin cfg2.N) : (dat2 V c).after 6 t = fin2 V c := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

/-- The carried buffers after the first point, and after a later one. -/
theorem sc2_at_zero (c : Dev nD) (t : Fin cfg2.N) (hz : t.val = 0) :
    sc2 V c t.val t.isLt = (accStep (iblk2 V c 0 t) (iblk2 V c 1 t) (iblk2 V c 2 t) (iblk2 V c 3 t) (k2_pay2 (F := F)),
      cntStep (iblk2 V c 3 t) (k2_pay3 (F := F))) := by
  obtain ⟨n, hn⟩ := t
  cases n with
  | zero => rfl
  | succ n => exact absurd hz (Nat.succ_ne_zero n)
theorem sc2_at_pos (c : Dev nD) (t : Fin cfg2.N) (hz : t.val ≠ 0) :
    sc2 V c t.val t.isLt = (accStep (iblk2 V c 0 t) (iblk2 V c 1 t) (iblk2 V c 2 t) (iblk2 V c 3 t) (sc2 V c (t.val - 1) (Nat.lt_of_le_of_lt (Nat.sub_le _ _) t.isLt)).1,
      cntStep (iblk2 V c 3 t) (sc2 V c (t.val - 1) (Nat.lt_of_le_of_lt (Nat.sub_le _ _) t.isLt)).2) := by
  obtain ⟨n, hn⟩ := t
  cases n with
  | zero => exact absurd rfl hz
  | succ n => rfl

/-- At the last point what the body stores is `fin2`. -/
theorem fin2_at_last (c : Dev nD) (t : Fin cfg2.N) (h : t.val = 24) :
    fin2 V c = finStep (sc2 V c t.val t.isLt).2 (sc2 V c t.val t.isLt).1 (iblk2 V c 4 t) (iblk2 V c 5 t) := by
  obtain ⟨n, hn⟩ := t
  obtain rfl : n = 24 := h
  rfl

/-! ## The body obligation -/

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t)

set_option maxHeartbeats 4800000 in
/-- The body at any point: the inputs' buffers hold their blocks; the closed forms say which case the point is in; the
    invariant hands the body the two scratch buffers (at anything before the first point, afterwards at what the
    point before left) and takes them back at this point's contents. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5]
  rw [show (dat2 V c).owesAt () t.succ = (dat2 V c).owesAt () t.castSucc from rfl]
  rw [show (dat2 V c).Φ t.succ = PhiS2 V c (t.val + 1) t.isLt from rfl, PhiS2_succ]
  rw [leaves2_0, leaves2_1, leaves2_2, leaves2_3, leaves2_4, leaves2_5]
  have hN : t.val < 25 := lt_of_lt_of_eq t.isLt (show cfg2.N = 25 from N_2)
  by_cases h1 : t.val % 25 = 24
  · -- the last point
    have h0 : ¬t.val % 25 = 0 := by omega
    have hz : t.val ≠ 0 := by omega
    rw [show (dat2 V c).leavesExact 6 t = owns (c : Thread nD τ) (st2_6 t) fullShare ((dat2 V c).after 6 t) from by
      unfold Dat.leavesExact; rw [liveAt2_6 t ((hcond2_1 t).mpr h1)], after2_6, fin2_at_last V c t (by omega)]
    rw [sc2_at_pos V c t hz]
    rw [PhiS2_castSucc V c t, PhiS2_pos V c _ _ hz]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HR := (Rest2_open (F := F) c _ _) $$ HΦ
    icases HR with ⟨Hoth, HS0, HS1⟩
    iapply (kernel2_C c (grid2.coords t) _ _ _ _ _ _ _ _ _ _ _ _ _ _ _ _ _ _ (fun h => h0 ((hcond2_0 t).mp h)) ((hcond2_1 t).mpr h1) (iblk2 V c 0 t) (iblk2 V c 1 t) (iblk2 V c 2 t) (iblk2 V c 3 t) (iblk2 V c 4 t) (iblk2 V c 5 t) _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    iintro ⟨H0, H1, H2, H3, H4, H5, H6, HS0, HS1⟩
    isplitl [Hoth HS0 HS1]
    · iapply (Rest2_close (F := F) c _ _)
      isplitl [Hoth]; · iexact Hoth
      isplitl [HS0]; · iexact HS0
      iexact HS1
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [Dat.leavesExact_idle (dat2 V c) 6 t (idleAt2_6 t (fun h => h1 ((hcond2_1 t).mp h))) (noFlush2_6 t (fun h => h1 ((hcond2_1 t).mp h)))]
    by_cases h0 : t.val % 25 = 0
    · -- the first point
      have hz : t.val = 0 := by omega
      rw [sc2_at_zero V c t hz]
      rw [PhiS2_castSucc V c t, PhiS2_zero V c _ _ hz, PhiA2_eq]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HR := (Rest2_open (F := F) c _ _) $$ HΦ
      icases HR with ⟨Hoth, HS0, HS1⟩
      iapply (kernel2_A c (grid2.coords t) _ _ _ _ _ _ _ _ _ _ _ _ _ _ _ _ _ _ ((hcond2_0 t).mpr h0) (fun h => h1 ((hcond2_1 t).mp h)) (iblk2 V c 0 t) (iblk2 V c 1 t) (iblk2 V c 2 t) (iblk2 V c 3 t) (iblk2 V c 4 t) (iblk2 V c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Hoth HS0 HS1]
      · iapply (Rest2_close (F := F) c _ _)
        isplitl [Hoth]; · iexact Hoth
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · -- a middle point
      have hz : t.val ≠ 0 := by omega
      rw [sc2_at_pos V c t hz]
      rw [PhiS2_castSucc V c t, PhiS2_pos V c _ _ hz]
      iintro ⟨HΦ, Ho, ⟨%d0, H0⟩, ⟨%d1, H1⟩, ⟨%d2, H2⟩, ⟨%d3, H3⟩, ⟨%d4, H4⟩, ⟨%d5, H5⟩, ⟨%d6, H6⟩⟩
      ihave HR := (Rest2_open (F := F) c _ _) $$ HΦ
      icases HR with ⟨Hoth, HS0, HS1⟩
      iapply (kernel2_B c (grid2.coords t) _ _ _ _ _ _ _ _ _ _ _ _ _ _ _ _ _ _ (fun h => h0 ((hcond2_0 t).mp h)) (fun h => h1 ((hcond2_1 t).mp h)) (iblk2 V c 0 t) (iblk2 V c 1 t) (iblk2 V c 2 t) (iblk2 V c 3 t) (iblk2 V c 4 t) (iblk2 V c 5 t) _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [Hoth HS0 HS1]
      · iapply (Rest2_close (F := F) c _ _)
        isplitl [Hoth]; · iexact Hoth
        isplitl [HS0]; · iexact HS0
        iexact HS1
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any point the invariant gives the class's back: the scratch buffers' named contents are forgotten. -/
theorem Phi_out2 (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro HΦ
  ihave HR := (Rest2_open (F := F) c _ _) $$ HΦ
  icases HR with ⟨Hoth, HS0, HS1⟩
  iapply (Rest2_close (F := F) c _ _)
  isplitl [Hoth]; · iexact Hoth
  isplitl [HS0]; · iexists _; iexact HS0
  iexists _; iexact HS1

theorem hout2 (c : Dev nD) : (dat2 V c).Φ (Fin.last cfg2.N) ⊢ (Pipeline.ΦA spec2 c : sProp 𝕄) :=
  Phi_out2 V c _ (by rw [Fin.val_last]; have : cfg2.N = 25 := N_2; omega)

end Cert.KernelIdeal.Hand

end
-- ==== Proof.KI.Run.lean ====
/-
  The kernel program's run through its three regions.

  The buffer contents at each boundary of @main are a fold from the launch memory: a host stretch applies its
  operations; a region replaces its result array by what the pipeline's write-backs leave (the fold of the blocks the
  body stores, point by point) and leaves every other buffer as it found it. Each region enters the pipeline with
  its arrays split out of the unscoped buffers and leaves with them put back; nothing is owed between cores, and the
  generator register rides along untouched.
-/
import proofs.«427309_j66967130079866_2_alg».proof.Proof.KI.Region0
import proofs.«427309_j66967130079866_2_alg».proof.Proof.KI.Region1
import proofs.«427309_j66967130079866_2_alg».proof.Proof.KI.Region2
import proofs.«427309_j66967130079866_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the regions' boundaries -/

/-- Region 0 is entered from the contents after the first three host stretches. -/
abbrev E0 : (c : Dev nD) → (b : Ref sig .tc) → Buf (Elt F) ((c : Thread nD τ).loc b) := fun c b => V3 m c b
/-- What region 0 leaves in its result array: the fold of its write-backs. -/
def res0 (c : Dev nD) : Buf (Elt F) ((c : Thread nD τ).loc main_v17) := (dat0 (E0 m) c).arrAt 2 cfg0.N
/-- After region 0: its result array replaced. -/
abbrev U4 (c : Dev nD) : Valuation τ sig (Elt F) := Function.update (V3 m c) main_v17 (res0 m c)
/-- After the stretch between regions 0 and 1. -/
abbrev U5 (c : Dev nD) : Valuation τ sig (Elt F) := StableHlo.after hostOps1 (U4 m c)
abbrev E1 : (c : Dev nD) → (b : Ref sig .tc) → Buf (Elt F) ((c : Thread nD τ).loc b) := fun c b => U5 m c b
def res1 (c : Dev nD) : Buf (Elt F) ((c : Thread nD τ).loc main_v30) := (dat1 (E1 m) c).arrAt 4 cfg1.N
abbrev U6 (c : Dev nD) : Valuation τ sig (Elt F) := Function.update (U5 m c) main_v30 (res1 m c)
abbrev U7 (c : Dev nD) : Valuation τ sig (Elt F) := StableHlo.after hostOps2 (U6 m c)
abbrev E2 : (c : Dev nD) → (b : Ref sig .tc) → Buf (Elt F) ((c : Thread nD τ).loc b) := fun c b => U7 m c b
def res2 (c : Dev nD) : Buf (Elt F) ((c : Thread nD τ).loc main_v44) := (dat2 (E2 m) c).arrAt 6 cfg2.N
abbrev U8 (c : Dev nD) : Valuation τ sig (Elt F) := Function.update (U7 m c) main_v44 (res2 m c)

/-- What the regions leave, as the unknowns the boundary valuations are written over. -/
def outsK : Outs (F := F) := fun J r c =>
  match J with
  | 4 => U4 m c r
  | 6 => U6 m c r
  | 8 => U8 m c r
  | _ => V3 m c r

theorem V4_eq (c : Dev nD) : V4 m (outsK m) c = U4 m c := by
  show Function.update (V3 m c) main_v17 (Function.update (V3 m c) main_v17 (res0 m c) main_v17) = _
  rw [Function.update_self]
theorem V5_eq (c : Dev nD) : V5 m (outsK m) c = U5 m c := by
  show StableHlo.after hostOps1 (V4 m (outsK m) c) = _
  rw [V4_eq]
theorem V6_eq (c : Dev nD) : V6 m (outsK m) c = U6 m c := by
  show Function.update (V5 m (outsK m) c) main_v30 (Function.update (U5 m c) main_v30 (res1 m c) main_v30) = _
  rw [Function.update_self, V5_eq]
theorem V7_eq (c : Dev nD) : V7 m (outsK m) c = U7 m c := by
  show StableHlo.after hostOps2 (V6 m (outsK m) c) = _
  rw [V6_eq]
theorem V8_eq (c : Dev nD) : V8 m (outsK m) c = U8 m c := by
  show Function.update (V7 m (outsK m) c) main_v44 (Function.update (U7 m c) main_v44 (res2 m c) main_v44) = _
  rw [Function.update_self, V7_eq]

/-! ## The proof data family and what rides beside the buffers -/

/-- Every pipeline's proof data, each at its region's entry contents (a literal match on the pipeline). -/
def pdats : (p : Fin 3) → (c : Dev nD) → Dat τ (Elt F) Unit ℕ (UR sig nD τ) ℕ (cfgs p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- Beside the buffers: the core's generator register at some state, and the core owing nothing. -/
abbrev Rr (c : Dev nD) : sProp 𝕄 := iprop((∃ r, prngReg c r) ∗ ∃ W, owes (c : Thread nD τ) (0 : CellTallies nD τ sig Unit) W)

/-! ## A region's arrays at its exit: the result at the write-backs' fold, the inputs and every other buffer as entered -/

theorem U4_of (c : Dev nD) (r : Ref sig .tc) (h : r ≠ main_v17) : U4 m c r = V3 m c r := by
  simp only [U4, Function.update_of_ne (StableHlo.devRef_ne_of_ne h : (Proc.devRef .tc r : DevRef τ sig) ≠ Proc.devRef .tc main_v17)]
theorem U4_self (c : Dev nD) : U4 m c main_v17 = res0 m c := by
  simp only [U4, Function.update_self]
theorem hF0 (c : Dev nD) (w : Fin cfg0.W) : (pdats m 0 c).arrAt w cfg0.N = U4 m c (Pipeline.arrRef spec0 w) := by
  match w with
  | ⟨0, _⟩ => exact ((dat0 (E0 m) c).arrAt_in 0 rfl _).trans ((A_eq0 (E0 m) c 0).trans (U4_of m c _ (by decide)).symm)
  | ⟨1, _⟩ => exact ((dat0 (E0 m) c).arrAt_in 1 rfl _).trans ((A_eq0 (E0 m) c 1).trans (U4_of m c _ (by decide)).symm)
  | ⟨2, _⟩ => exact (U4_self m c).symm
theorem hrest0 (c : Dev nD) : ∀ b, b ∉ Finset.univ.image (Pipeline.arrRef spec0) → U4 m c b = E0 m c b := fun b hb =>
  U4_of m c b fun e => hb (Finset.mem_image.mpr ⟨2, Finset.mem_univ _, e.symm⟩)

theorem U6_of (c : Dev nD) (r : Ref sig .tc) (h : r ≠ main_v30) : U6 m c r = U5 m c r := by
  simp only [U6, Function.update_of_ne (StableHlo.devRef_ne_of_ne h : (Proc.devRef .tc r : DevRef τ sig) ≠ Proc.devRef .tc main_v30)]
theorem U6_self (c : Dev nD) : U6 m c main_v30 = res1 m c := by
  simp only [U6, Function.update_self]
theorem hF1 (c : Dev nD) (w : Fin cfg1.W) : (pdats m 1 c).arrAt w cfg1.N = U6 m c (Pipeline.arrRef spec1 w) := by
  match w with
  | ⟨0, _⟩ => exact ((dat1 (E1 m) c).arrAt_in 0 rfl _).trans ((A_eq1 (E1 m) c 0).trans (U6_of m c _ (by decide)).symm)
  | ⟨1, _⟩ => exact ((dat1 (E1 m) c).arrAt_in 1 rfl _).trans ((A_eq1 (E1 m) c 1).trans (U6_of m c _ (by decide)).symm)
  | ⟨2, _⟩ => exact ((dat1 (E1 m) c).arrAt_in 2 rfl _).trans ((A_eq1 (E1 m) c 2).trans (U6_of m c _ (by decide)).symm)
  | ⟨3, _⟩ => exact ((dat1 (E1 m) c).arrAt_in 3 rfl _).trans ((A_eq1 (E1 m) c 3).trans (U6_of m c _ (by decide)).symm)
  | ⟨4, _⟩ => exact (U6_self m c).symm
theorem hrest1 (c : Dev nD) : ∀ b, b ∉ Finset.univ.image (Pipeline.arrRef spec1) → U6 m c b = E1 m c b := fun b hb =>
  U6_of m c b fun e => hb (Finset.mem_image.mpr ⟨4, Finset.mem_univ _, e.symm⟩)

theorem U8_of (c : Dev nD) (r : Ref sig .tc) (h : r ≠ main_v44) : U8 m c r = U7 m c r := by
  simp only [U8, Function.update_of_ne (StableHlo.devRef_ne_of_ne h : (Proc.devRef .tc r : DevRef τ sig) ≠ Proc.devRef .tc main_v44)]
theorem U8_self (c : Dev nD) : U8 m c main_v44 = res2 m c := by
  simp only [U8, Function.update_self]
theorem hF2 (c : Dev nD) (w : Fin cfg2.W) : (pdats m 2 c).arrAt w cfg2.N = U8 m c (Pipeline.arrRef spec2 w) := by
  match w with
  | ⟨0, _⟩ => exact ((dat2 (E2 m) c).arrAt_in 0 rfl _).trans ((A_eq2 (E2 m) c 0).trans (U8_of m c _ (by decide)).symm)
  | ⟨1, _⟩ => exact ((dat2 (E2 m) c).arrAt_in 1 rfl _).trans ((A_eq2 (E2 m) c 1).trans (U8_of m c _ (by decide)).symm)
  | ⟨2, _⟩ => exact ((dat2 (E2 m) c).arrAt_in 2 rfl _).trans ((A_eq2 (E2 m) c 2).trans (U8_of m c _ (by decide)).symm)
  | ⟨3, _⟩ => exact ((dat2 (E2 m) c).arrAt_in 3 rfl _).trans ((A_eq2 (E2 m) c 3).trans (U8_of m c _ (by decide)).symm)
  | ⟨4, _⟩ => exact ((dat2 (E2 m) c).arrAt_in 4 rfl _).trans ((A_eq2 (E2 m) c 4).trans (U8_of m c _ (by decide)).symm)
  | ⟨5, _⟩ => exact ((dat2 (E2 m) c).arrAt_in 5 rfl _).trans ((A_eq2 (E2 m) c 5).trans (U8_of m c _ (by decide)).symm)
  | ⟨6, _⟩ => exact (U8_self m c).symm
theorem hrest2 (c : Dev nD) : ∀ b, b ∉ Finset.univ.image (Pipeline.arrRef spec2) → U8 m c b = E2 m c b := fun b hb =>
  U8_of m c b fun e => hb (Finset.mem_image.mpr ⟨6, Finset.mem_univ _, e.symm⟩)

/-! ## The regions as segments -/

set_option backward.isDefEq.respectTransparency.types false in
/-- Region 0 over the thread state: entered with every unscoped buffer at its entry contents, left with the
    result array replaced; its arrays are split out of the unscoped buffers at entry and put back at exit. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (V3 m c) ∗ Rr c)
  post c := iprop(StableHlo.held (c : Thread nD τ) (Pipeline.ucRefs τ sig) (U4 m c) ∗ Rr c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (fun b => U4 m c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at its entry contents, left with the
    result array replaced; its arrays are split out of the unscoped buffers at entry and put back at exit. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (U5 m c) ∗ Rr c)
  post c := iprop(StableHlo.held (c : Thread nD τ) (Pipeline.ucRefs τ sig) (U6 m c) ∗ Rr c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (fun b => U6 m c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at its entry contents, left with the
    result array replaced; its arrays are split out of the unscoped buffers at entry and put back at exit. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (U7 m c) ∗ Rr c)
  post c := iprop(StableHlo.held (c : Thread nD τ) (Pipeline.ucRefs τ sig) (U8 m c) ∗ Rr c)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin2 (E2 m) c)
    unfold Pipeline.ΦA
    iintro ⟨Hp, -, Hr⟩
    isplitl [Hr]; · iexact Hr
    iexact Hp
  hout c := by
    rw [Pipeline.ownSems0_none]
    refine (hout2 (E2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (fun b => U8 m c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The run and the frame -/

set_option backward.isDefEq.respectTransparency.types false in
/-- The run through the regions with the program's RESULT read off the last boundary's contents as well as the arguments: for any rest states, any contents the regions leave and any proof data, given a segment record per region entered from the boundary state before it and left at the one after it, every weakly fair execution of @main terminates with the result buffer at the last valuation's contents and each argument as launched. -/
theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 3) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 4 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE3 : ∀ c : Dev nD, E 3 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V5 m outs c) ∗ E 1 c) ⊢ R1.pre c)
    (hpost1 : ∀ c : Dev nD, R1.post c ⊢ iprop(StableHlo.held (c : Thread nD τ) (Pipeline.ucRefs τ sig) (V6 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V7 m outs c) ∗ E 2 c) ⊢ R2.pre c)
    (hpost2 : ∀ c : Dev nD, R2.post c ⊢ iprop(StableHlo.held (c : Thread nD τ) (Pipeline.ucRefs τ sig) (V8 m outs c) ∗ E 3 c)) :
    θ_run defs (onTc (τ := τ) (main (F := F))) ⟨m, fun _ => 0, ρ⟩ (fun r => ∀ c : Dev nD,
      r.2.mem ((c.tc : Thread nD τ).loc main_v61) = V10 m outs c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine Pipeline.θ_run_regions_kit_dev (pcfgs (F := F)) adm pdats ι cellOf_inj EP defs₀ 𝒱₀ L lv m ρ main
    (segs m outs 𝒱₀ L lv E ι pdats R0 R1 R2)
    (fun c Q => by
      rewrite [main_chain c, Seg.run_eq_chain,
        show (segs m outs 𝒱₀ L lv E ι pdats R0 R1 R2 c).map Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          StableHlo.seq hostOps3_1 ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V10 m outs c))
    (hch := fun c => ⟨.rfl, .rfl, .rfl, hpre0 c, hpost0 c, hpre1 c, hpost1 c, hpre2 c, hpost2 c, .rfl, sep_mono .rfl (hE3 c)⟩)
    (hinit := ?_) (QY := fun c s => s.mem ((c.tc : Thread nD τ).loc main_v61) = V10 m outs c main_v61 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8))
    (hfin := fun c s' => ?_) (hQ := fun _ h => h)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V10 m outs c) s') $$ [Hh HSI]
    · isplitl [Hh] <;> iassumption
    icases Hr with ⟨%h, HSI⟩
    imodintro
    isplitr
    · ipureintro
      exact ⟨h (Proc.devRef .tc main_v61) (Finset.mem_filter.mpr ⟨StableHlo.devRef_mem_tcRefs main_v61, by decide⟩),
        (h (Proc.devRef .tc main_arg0) (Finset.mem_filter.mpr ⟨StableHlo.devRef_mem_tcRefs main_arg0, by decide⟩)).trans (V10_main_arg0 m outs c),
        (h (Proc.devRef .tc main_arg1) (Finset.mem_filter.mpr ⟨StableHlo.devRef_mem_tcRefs main_arg1, by decide⟩)).trans (V10_main_arg1 m outs c),
        (h (Proc.devRef .tc main_arg2) (Finset.mem_filter.mpr ⟨StableHlo.devRef_mem_tcRefs main_arg2, by decide⟩)).trans (V10_main_arg2 m outs c),
        (h (Proc.devRef .tc main_arg3) (Finset.mem_filter.mpr ⟨StableHlo.devRef_mem_tcRefs main_arg3, by decide⟩)).trans (V10_main_arg3 m outs c),
        (h (Proc.devRef .tc main_arg4) (Finset.mem_filter.mpr ⟨StableHlo.devRef_mem_tcRefs main_arg4, by decide⟩)).trans (V10_main_arg4 m outs c),
        (h (Proc.devRef .tc main_arg5) (Finset.mem_filter.mpr ⟨StableHlo.devRef_mem_tcRefs main_arg5, by decide⟩)).trans (V10_main_arg5 m outs c),
        (h (Proc.devRef .tc main_arg6) (Finset.mem_filter.mpr ⟨StableHlo.devRef_mem_tcRefs main_arg6, by decide⟩)).trans (V10_main_arg6 m outs c),
        (h (Proc.devRef .tc main_arg7) (Finset.mem_filter.mpr ⟨StableHlo.devRef_mem_tcRefs main_arg7, by decide⟩)).trans (V10_main_arg7 m outs c),
        (h (Proc.devRef .tc main_arg8) (Finset.mem_filter.mpr ⟨StableHlo.devRef_mem_tcRefs main_arg8, by decide⟩)).trans (V10_main_arg8 m outs c)⟩
    · iexact HSI

/-- The rest states the launch makes: the generator register at its launch state, nothing owed. -/
theorem rest_init :
    iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c)) ∗ levAts L lv)
      ⊢ (|={Set.univ}=> bigSep Finset.univ (fun c : Dev nD => Rr (F := F) c) : sProp 𝕄) := by
  have h : (bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (fun _ : Dev nD => (iprop(emp) : sProp 𝕄)) c))
      ⊢ (bigSep Finset.univ (fun c : Dev nD => Rr (F := F) c) : sProp 𝕄) :=
    bigSep_mono fun c _ => by
      show (iprop(unscopedSems0 c ∗ owes (c : Thread nD τ) (0 : CellTallies nD τ sig Unit) ∅ ∗ Pipeline.launchCred (0 : Dev nD → CellTallies nD τ sig Unit) c ∗ prngReg c (ρ c) ∗ emp) : sProp 𝕄)
        ⊢ iprop((∃ r, prngReg c r) ∗ ∃ W, owes (c : Thread nD τ) (0 : CellTallies nD τ sig Unit) W)
      iintro ⟨-, HO, -, Hp, -⟩
      isplitl [Hp]; · iexists _; iexact Hp
      iexists ∅; iexact HO
  iintro ⟨H, -⟩
  imodintro
  iapply h
  iexact H

set_option backward.isDefEq.respectTransparency.types false in
/-- Every weakly fair execution of @main terminates; the result buffer ends at the last boundary's contents and every
    argument array as launched. -/
theorem run_main : θ_run defs (onTc (τ := τ) (main (F := F))) ⟨m, fun _ => 0, ρ⟩ (fun r => ∀ c : Dev nD,
      r.2.mem ((c.tc : Thread nD τ).loc main_v61) = V10 m (outsK m) c main_v61
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  run_cond m (EP := emb₁) (ι := ()) (𝒱₀ := 𝒱₀) (L := L) (lv := lv) (hL := fun _ _ => rfl) (ρ := ρ) (outs := outsK m) (pdats := pdats m)
    (O₀ := 0) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rr c)
    (hE0 := rest_init (F := F) ρ)
    (hE3 := fun c => by iintro ⟨-, HO⟩; iexact HO)
    (R0 := reg0 m) (hpre0 := fun c => .rfl) (hpost0 := fun c => by rw [V4_eq]; exact .rfl)
    (R1 := reg1 m) (hpre1 := fun c => by rw [V5_eq]; exact .rfl) (hpost1 := fun c => by rw [V6_eq]; exact .rfl)
    (R2 := reg2 m) (hpre2 := fun c => by rw [V7_eq]; exact .rfl) (hpost2 := fun c => by rw [V8_eq]; exact .rfl)

/-- The frame: every weakly fair execution of @main terminates and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => (h c).2) (run_main m ρ)

end Cert.KernelIdeal.Hand

end
-- ==== Proof.LibPlainDot.lean ====
/-
  A plain matrix product read at an element, at the extended reals: for dimension numbers that contract the left
  operand's axis 1 with the right operand's axis 0 and have no batch axis ([M, K] by [K, N]), the contraction at (p, q)
  is the sum over k of lhs[p, k] * rhs[k, q] — for a kernel's matmul into a zero accumulator and for the host's
  dot_general alike. General lemmas over any sizes; they import no program.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

/-- The plain dimension numbers over any well-formedness proof. -/
abbrev plainDims (M K N : Nat)
    (wf : DotDims.WF ⟨2, ![M, K]⟩ ⟨2, ![K, N]⟩ ⟨2, ![M, N]⟩ [1] [0] [0] [1] [] []) :
    DotDims ⟨2, ![M, K]⟩ ⟨2, ![K, N]⟩ ⟨2, ![M, N]⟩ where
  lhsContracting := [1]
  rhsContracting := [0]
  lhsNonContracting := [0]
  rhsNonContracting := [1]
  lhsBatch := []
  rhsBatch := []
  wf := wf

variable {M K N : Nat} (wf : DotDims.WF ⟨2, ![M, K]⟩ ⟨2, ![K, N]⟩ ⟨2, ![M, N]⟩ [1] [0] [0] [1] [] [])

/-- The left operand's row is the output's row … -/
theorem lhs_0 (i : (⟨2, ![M, N]⟩ : Shape).Idx) (q : (plainDims M K N wf).contr.Idx) :
    ((plainDims M K N wf).lhsIdx i q 0).val = (i 0).val := by
  unfold DotDims.lhsIdx
  rw [dif_neg (show ¬(0 : Fin (⟨2, ![M, K]⟩ : Shape).rank) ∈ (plainDims M K N wf).lhsBatch from List.not_mem_nil),
    dif_pos (show (0 : Fin (⟨2, ![M, K]⟩ : Shape).rank) ∈ (plainDims M K N wf).lhsNonContracting from List.mem_singleton.mpr rfl)]
  rfl
/-- … its column the contracted coordinate … -/
theorem lhs_1 (i : (⟨2, ![M, N]⟩ : Shape).Idx) (q : (plainDims M K N wf).contr.Idx) :
    ((plainDims M K N wf).lhsIdx i q 1).val = (q ⟨0, (Nat.one_pos : 0 < (plainDims M K N wf).contr.rank)⟩).val :=
  (plainDims M K N wf).lhsIdx_val_of_single rfl i q
/-- … the right operand's row the contracted coordinate … -/
theorem rhs_0 (i : (⟨2, ![M, N]⟩ : Shape).Idx) (q : (plainDims M K N wf).contr.Idx) :
    ((plainDims M K N wf).rhsIdx i q 0).val = (q ⟨0, (Nat.one_pos : 0 < (plainDims M K N wf).contr.rank)⟩).val :=
  (plainDims M K N wf).rhsIdx_val_of_single rfl i q
/-- … and its column the output's column. -/
theorem rhs_1 (i : (⟨2, ![M, N]⟩ : Shape).Idx) (q : (plainDims M K N wf).contr.Idx) :
    ((plainDims M K N wf).rhsIdx i q 1).val = (i 1).val := by
  unfold DotDims.rhsIdx
  rw [dif_neg (show ¬(1 : Fin (⟨2, ![K, N]⟩ : Shape).rank) ∈ (plainDims M K N wf).rhsBatch from List.not_mem_nil),
    dif_pos (show (1 : Fin (⟨2, ![K, N]⟩ : Shape).rank) ∈ (plainDims M K N wf).rhsNonContracting from List.mem_singleton.mpr rfl)]
  rfl

/-- The contraction sum of the plain dimension numbers at (p, q), re-indexed by the contracted coordinate. -/
theorem plain_sum (l : (⟨2, ![M, K]⟩ : Shape).Idx → EReal) (r : (⟨2, ![K, N]⟩ : Shape).Idx → EReal) (p : Fin M) (q : Fin N) :
    ∑ k : (plainDims M K N wf).contr.Idx, l ((plainDims M K N wf).lhsIdx (ix2 p q) k) * r ((plainDims M K N wf).rhsIdx (ix2 p q) k)
      = ∑ k : Fin K, l (ix2 p k) * r (ix2 k q) := by
  rw [← Equiv.sum_comp (contrEquiv1 (plainDims M K N wf) K rfl rfl).symm]
  refine Finset.sum_congr rfl fun k _ => ?_
  have hk := contrEquiv1_symm_val (plainDims M K N wf) K rfl rfl k
  have el : (plainDims M K N wf).lhsIdx (ix2 p q) ((contrEquiv1 (plainDims M K N wf) K rfl rfl).symm k) = ix2 p k :=
    funext fun a => Fin.ext (by
      match a with
      | ⟨0, _⟩ => exact lhs_0 wf _ _
      | ⟨1, _⟩ => exact (lhs_1 wf _ _).trans hk)
  have er : (plainDims M K N wf).rhsIdx (ix2 p q) ((contrEquiv1 (plainDims M K N wf) K rfl rfl).symm k) = ix2 k q :=
    funext fun a => Fin.ext (by
      match a with
      | ⟨0, _⟩ => exact (rhs_0 wf _ _).trans hk
      | ⟨1, _⟩ => exact rhs_1 wf _ _)
  rw [el, er]

/-- The same for any record of dimension numbers whose six lists are the plain ones. -/
theorem contr_sum_apply (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (p : Fin M) (q : Fin N) :
    ∑ k : d.contr.Idx, l (d.lhsIdx (ix2 p q) k) * r (d.rhsIdx (ix2 p q) k) = ∑ k : Fin K, l (ix2 p k) * r (ix2 k q) := by
  obtain ⟨lc, rc, ln, rn, lb, rb, wf'⟩ := d
  dsimp only at hlc hrc hln hrn hlb hrb
  subst hlc hrc hln hrn hlb hrb
  exact plain_sum wf' l r p q

/-- A kernel's matmul into the zero accumulator, at (p, q): the sum over k of lhs[p, k] * rhs[k, q]. -/
theorem matmul_zero_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  rw [Ideal.matmul_constant_zero_apply]
  exact contr_sum_apply d hlc hrc hln hrn hlb hrb l r p q

/-- The host's dot_general, at (p, q): the same sum. -/
theorem dotGeneral_apply {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (sched : HostSchedule) (l : FVec Ideal ⟨2, ![M, K]⟩ φ₁) (r : FVec Ideal ⟨2, ![K, N]⟩ φ₂)
    (p : Fin M) (q : Fin N) :
    FloatOps.dotGeneral d prec sched l r (ix2 p q) = ∑ k : Fin K, l (ix2 p k) * r (ix2 k q) := by
  rw [Ideal.dotGeneral_apply]
  exact contr_sum_apply d hlc hrc hln hrn hlb hrb l r p q

end Idealize.ShloMosaic.PlainDot

end
-- ==== Proof.KI.Value0.lean ====
import proofs.«427309_j66967130079866_2_alg».proof.Proof.KI.Region0
import proofs.«427309_j66967130079866_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, at the extended reals
variable (V : (c : Dev nD) → (b : Ref sig .tc) → Buf (Elt Ideal) ((c : Thread nD τ).loc b))

/-! # The first pallas call's result array, entry by entry

Row `n` of the result is row `n` of the operand's first four columns times the weight matrix, scaled by the
operand's fifth column at row `n`. First the body's arithmetic at an entry of a block; then the blocks laid
over the array: point `t` writes rows `4000 t … 4000 t + 3999`, and the 25 points cover the 100000 rows. -/

/-- The operand array (100000 rows: four feature columns and the scale column) as the region finds it. -/
abbrev xarr0 (c : Dev nD) : S100000x5.Idx → EReal := V c main_v16
/-- The weight matrix as the region finds it. -/
abbrev warr0 (c : Dev nD) : S4x128.Idx → EReal := V c main_arg3

/-! ## The body's arithmetic at an entry -/

/-- A slice of the first four columns at an entry. -/
theorem feat_apply (x0 : Vec Ideal S4000x5 .f32) (p : Fin 4000) (k : Fin 4) :
    extractStridedSlice S4000x4 ![0, 0] x0 slices_S4000x5_o0_0_S4000x4 (ix2 p k) = x0 (ix2 p (Fin.castLE (by decide) k)) :=
  slice2_axis1_apply 0 x0 slices_S4000x5_o0_0_S4000x4 p k _ (by simp)

/-- The fifth column, broadcast along the lanes, at an entry. -/
theorem scale_apply (x0 : Vec Ideal S4000x5 .f32) (p : Fin 4000) (q : Fin 128) :
    broadcastTo S4000x128 (extractStridedSlice S4000x1 ![0, 4] x0 slices_S4000x5_o0_4_S4000x1) broadcasts_S4000x1_S4000x128 (ix2 p q)
      = x0 (ix2 p (4 : Fin 5)) := by
  rw [broadcastTo_apply _ _ _ (ix2 p (0 : Fin 1)) (fun a => by
    match a with
    | ⟨0, _⟩ => rfl
    | ⟨1, _⟩ => rfl)]
  exact slice2_axis1_apply 4 x0 slices_S4000x5_o0_4_S4000x1 p 0 4 rfl

/-- The body's arithmetic at an entry of the block. -/
theorem pay0_apply (x0 : Vec Ideal S4000x5 .f32) (x1 : Vec Ideal S4x128 .f32) (p : Fin 4000) (q : Fin 128) :
    k0_pay1 x0 x1 (ix2 p q)
      = (∑ k : Fin 4, x0 (ix2 p (Fin.castLE (by decide) k)) * x1 (ix2 k q)) * x0 (ix2 p (4 : Fin 5)) := by
  unfold k0_pay1
  rw [truncf_apply, mulf_apply, shapeCast_self]
  unfold matmul
  rw [PlainDot.matmul_zero_apply dot_S4000x4_S4x128_S4000x128_1_0_0_1_n_n rfl rfl rfl rfl rfl rfl, scale_apply]
  congr 1
  refine Finset.sum_congr rfl fun k _ => ?_
  rw [truncf_apply, truncf_apply, feat_apply]

/-! ## From the blocks to the array -/

theorem hz0 : (![0, 0] : Fin 2 → Nat) = fun _ => 0 := funext fun a => by fin_cases a <;> rfl

/-- What the result array ends holding: at row `n`, column `j`, the product of the row's four features with the
    weight's column, times the row's scale. -/
abbrev G0 (a0 : S100000x5.Idx → EReal) (a1 : S4x128.Idx → EReal) : S100000x128.Idx → EReal :=
  fun i => (∑ k : Fin 4, a0 (ix2 (i 0) (Fin.castLE (by decide) k)) * a1 (ix2 k (i 1))) * a0 (ix2 (i 0) (4 : Fin 5))

/-- The index maps, decided over the grid: the operand's and the result's row blocks move with the point, the
    column blocks and the weight's block stay at zero. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of `G0` of the arrays as the region finds them. -/
theorem flushed0_eq (c : Dev nD) (t : Fin cfg0.N) :
    (dat0 (F := Ideal) V c).flushed 2 t = ((cfg0.win 2).blk t).view.read (Elt Ideal) (G0 (xarr0 V c) (warr0 V c)) := by
  show (cfg0.win 2).cut (grid0.coords t) ((dat0 (F := Ideal) V c).after 2 t) = _
  rw [after0_2]
  unfold out0_2
  rw [View.canon_unit_zero hz0]
  simp only [View.ld_unit_zero (S := S4000x5) hz0, View.ld_unit_zero (S := S4x128) hz0]
  obtain ⟨e0, e1, e2, e3, e4, e5⟩ := idx_facts0 t
  funext y
  obtain ⟨p, q, rfl⟩ : ∃ (p : Fin 4000) (q : Fin 128), y = ix2 p q := ⟨y 0, y 1, eq_ix2 y⟩
  show k0_pay1 (iblk0 V c 0 t) (iblk0 V c 1 t) (ix2 p q) = G0 (xarr0 V c) (warr0 V c) (((cfg0.win 2).blk t).view.emb (ix2 p q))
  rw [pay0_apply]
  have h0 : ∀ k : Fin 5, iblk0 V c 0 t (ix2 p k) = xarr0 V c (ix2 ((((cfg0.win 2).blk t).view.emb (ix2 p q)) 0) k) := by
    intro k
    show V c main_v16 (((cfg0.win 0).blk t).view.emb (ix2 p k)) = V c main_v16 (ix2 ((((cfg0.win 2).blk t).view.emb (ix2 p q)) 0) k)
    refine congrArg (V c main_v16) (funext fun a => Fin.ext ?_)
    match a with
    | ⟨0, _⟩ => show win0_0.index t (0 : Fin 2) * 4000 + 1 * p.val = win0_2.index t (0 : Fin 2) * 4000 + 1 * p.val; omega
    | ⟨1, _⟩ => show win0_0.index t (1 : Fin 2) * 5 + 1 * k.val = k.val; omega
  have h1 : ∀ k : Fin 4, iblk0 V c 1 t (ix2 k q) = warr0 V c (ix2 k ((((cfg0.win 2).blk t).view.emb (ix2 p q)) 1)) := by
    intro k
    show V c main_arg3 (((cfg0.win 1).blk t).view.emb (ix2 k q)) = V c main_arg3 (ix2 k ((((cfg0.win 2).blk t).view.emb (ix2 p q)) 1))
    refine congrArg (V c main_arg3) (funext fun a => Fin.ext ?_)
    match a with
    | ⟨0, _⟩ => show win0_1.index t (0 : Fin 2) * 4 + 1 * k.val = k.val; omega
    | ⟨1, _⟩ => show win0_1.index t (1 : Fin 2) * 128 + 1 * q.val = win0_2.index t (1 : Fin 2) * 128 + 1 * q.val; omega
  rw [h0]
  refine congrArg (· * _) (Finset.sum_congr rfl fun k _ => ?_)
  rw [h0, h1]

/-- An index of the array is in point `t`'s block iff each coordinate is in the block's range on its axis. -/
theorem mem_blk0 (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v17).slice (win0_2.rect t)).set ↔ _
  rw [View.set_slice_whole, Rect.mem_set_unit]
  exact Iff.rfl

/-- Every row is covered: row `r` by point `r / 4000`. -/
theorem cover0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  let t : Fin cfg0.N := ⟨(i 0).val / 4000, by show (i 0).val / 4000 < 25; omega⟩
  obtain ⟨e0, e1, e2, e3, e4, e5⟩ := idx_facts0 t
  have ht : t.val = (i 0).val / 4000 := rfl
  refine ⟨t, flush0_2 t, ?_⟩
  rw [mem_blk0]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- The result array after the region is `G0` of the operand and the weights as the region finds them. -/
theorem final0 (c : Dev nD) : (dat0 (F := Ideal) V c).arrAt 2 cfg0.N = G0 (xarr0 V c) (warr0 V c) :=
  (dat0 (F := Ideal) V c).arrAt_eq_of_cover 2 (G0 (xarr0 V c) (warr0 V c)) (fun t _ => flushed0_eq V c t) cover0

theorem arr0_apply (c : Dev nD) (n : Fin 100000) (j : Fin 128) :
    ((dat0 (F := Ideal) V c).arrAt 2 cfg0.N : S100000x128.Idx → EReal) (ix2 n j)
      = (∑ q : Fin 4, xarr0 V c (ix2 n (Fin.castLE (by decide) q)) * warr0 V c (ix2 q j))
          * xarr0 V c (ix2 n (4 : Fin 5)) := by
  rw [final0]

end Cert.KernelIdeal.Hand

end
-- ==== Proof.KI.Value1.lean ====
import proofs.«427309_j66967130079866_2_alg».proof.Proof.KI.Region1
import Idealize.ShloMosaic.Lib.ValueIdx
import Idealize.ShloMosaic.Lib.Pipeline.Value
import Idealize.ShloMosaic.Lib.ValueLayout
import Idealize.ShloMosaic.PureOps.Ideal.Laws
import proofs.«427309_j66967130079866_2_alg».proof.Proof.LibPlainDot

set_option maxRecDepth 16384

noncomputable section

open scoped BigOperators

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

-- the TensorCore's buffer contents when the region is entered, at the extended reals
variable (V : (c : Dev nD) → (b : Ref sig .tc) → Buf (Elt Ideal) ((c : Thread nD τ).loc b))

/-! ## The arrays the region reads, each at its literal type -/

/-- The aggregated features (one row per node), as the region finds them. -/
abbrev aggr1 (c : Dev nD) : S100000x128.Idx → EReal := V c main_v28
/-- Each node's scaling factor (one column). -/
abbrev nodeFac1 (c : Dev nD) : S100000x1.Idx → EReal := V c main_v29
/-- The layer's bias. -/
abbrev bias1 (c : Dev nD) : S128.Idx → EReal := V c main_arg4
/-- The layer's weight. -/
abbrev weight1 (c : Dev nD) : S128x128.Idx → EReal := V c main_arg5

/-! ## The body's arithmetic at an element -/

/-- tanh of a vector, at an element. -/
theorem tanh_vec_apply {s : Shape} {φ : FTy} (a : FVec Ideal s φ) (i : s.Idx) : tanh a i = Ideal.tanh (a i) := rfl

/-- A column broadcast along the lanes, at (p, q): the column's entry of row p. -/
theorem bcast_col_apply (x1 : Vec Ideal S4000x1 .f32) (p : Fin 4000) (q : Fin 128) :
    broadcastTo S4000x128 x1 broadcasts_S4000x1_S4000x128 (ix2 p q) = x1 (ix2 p (0 : Fin 1)) := by
  refine broadcastTo_apply x1 _ (ix2 p q) (ix2 p (0 : Fin 1)) fun a => ?_
  match a with
  | ⟨0, _⟩ => rfl
  | ⟨1, _⟩ => rfl

/-- A vector laid as one row and broadcast along the rows, at (p, q): the vector's entry q. -/
theorem bcast_row_apply (x2 : Vec Ideal S128 .f32) (p : Fin 4000) (q : Fin 128) :
    broadcastTo S4000x128 (shapeCast S1x128 x2 shapeCasts_S128_S1x128) broadcasts_S1x128_S4000x128 (ix2 p q) = x2 (ix1 q) := by
  rw [broadcastTo_apply _ _ (ix2 p q) (ix2 (0 : Fin 1) q) (fun a => by match a with | ⟨0, _⟩ => rfl | ⟨1, _⟩ => rfl)]
  refine shapeCast_apply x2 _ (ix2 (0 : Fin 1) q) (ix1 q) ?_
  rw [Shape.rowMajor_val_one, Shape.rowMajor_val_two]
  show q.val = 0 * 128 + q.val
  omega

/-- The payload at (p, j): the row p of the scaled, biased aggregate through tanh, times column j of the weight,
    scaled by row p's factor. Rounding to bf16 is the identity at the extended reals. -/
theorem pay1_apply (x0 : Vec Ideal S4000x128 .f32) (x1 : Vec Ideal S4000x1 .f32) (x2 : Vec Ideal S128 .f32) (x3 : Vec Ideal S128x128 .f32)
    (p : Fin 4000) (j : Fin 128) :
    (k1_pay1 x0 x1 x2 x3 : S4000x128.Idx → EReal) (ix2 p j)
      = (∑ k : Fin 128, Ideal.tanh (x0 (ix2 p k) * x1 (ix2 p (0 : Fin 1)) + x2 (ix1 k)) * x3 (ix2 k j)) * x1 (ix2 p (0 : Fin 1)) := by
  unfold k1_pay1
  simp only [matmul, shapeCast_self]
  rw [truncf_apply, mulf_apply, bcast_col_apply, PlainDot.matmul_zero_apply _ rfl rfl rfl rfl rfl rfl]
  congr 1
  refine Finset.sum_congr rfl fun k _ => ?_
  rw [truncf_apply, truncf_apply]
  rw [tanh_vec_apply, addf_apply, mulf_apply, bcast_col_apply, bcast_row_apply]

/-! ## From blocks to the array -/

theorem zero_offsets2 : (![0, 0] : Fin 2 → Nat) = fun _ => 0 := funext fun a => by fin_cases a <;> rfl
theorem zero_offsets1 : (![0] : Fin 1 → Nat) = fun _ => 0 := funext fun a => by fin_cases a <;> rfl

/-- The layer as one function of the four arrays, index by index: row i₀ of the scaled, biased aggregate through tanh,
    times column i₁ of the weight, scaled by row i₀'s factor. -/
abbrev layer1 (a0 : S100000x128.Idx → EReal) (a1 : S100000x1.Idx → EReal) (a2 : S128.Idx → EReal) (a3 : S128x128.Idx → EReal) :
    S100000x128.Idx → EReal := fun i =>
  (∑ q : Fin 128, Ideal.tanh (a0 (ix2 (i 0) q) * a1 (ix2 (i 0) (0 : Fin 1)) + a2 (ix1 q)) * a3 (ix2 q (i 1))) * a1 (ix2 (i 0) (0 : Fin 1))

/-- The block index maps, decided over the 25 points: the row-tiled windows sit at row block t, the whole-array
    windows at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 1) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The aggregate's block at point t is rows 4000 t … 4000 t + 3999 of the array. -/
theorem iblk1_0_apply (c : Dev nD) (t : Fin cfg1.N) (x : S4000x128.Idx) (k : S100000x128.Idx)
    (hk0 : (k 0).val = t.val * 4000 + (x 0).val) (hk1 : (k 1).val = (x 1).val) :
    (iblk1 V c 0 t : S4000x128.Idx → EReal) x = aggr1 V c k := by
  obtain ⟨e0, e1, -⟩ := idx_facts1 t
  unfold iblk1
  rw [View.read_apply]
  show V c main_v28 _ = V c main_v28 _
  congr 1
  funext a
  apply Fin.ext
  match a with
  | ⟨0, _⟩ => show win1_0.index t 0 * 4000 + 1 * (x 0).val = (k 0).val; rw [e0, hk0]; omega
  | ⟨1, _⟩ => show win1_0.index t 1 * 128 + 1 * (x 1).val = (k 1).val; rw [e1, hk1]; omega

/-- The factors' block at point t is the same rows of the one-column array. -/
theorem iblk1_1_apply (c : Dev nD) (t : Fin cfg1.N) (x : S4000x1.Idx) (k : S100000x1.Idx)
    (hk0 : (k 0).val = t.val * 4000 + (x 0).val) (hk1 : (k 1).val = (x 1).val) :
    (iblk1 V c 1 t : S4000x1.Idx → EReal) x = nodeFac1 V c k := by
  obtain ⟨-, -, e0, e1, -⟩ := idx_facts1 t
  unfold iblk1
  rw [View.read_apply]
  show V c main_v29 _ = V c main_v29 _
  congr 1
  funext a
  apply Fin.ext
  match a with
  | ⟨0, _⟩ => show win1_1.index t 0 * 4000 + 1 * (x 0).val = (k 0).val; rw [e0, hk0]; omega
  | ⟨1, _⟩ => show win1_1.index t 1 * 1 + 1 * (x 1).val = (k 1).val; rw [e1, hk1]; omega

/-- The bias's block at every point is the whole bias. -/
theorem iblk1_2_apply (c : Dev nD) (t : Fin cfg1.N) (x : S128.Idx) :
    (iblk1 V c 2 t : S128.Idx → EReal) x = bias1 V c x := by
  obtain ⟨-, -, -, -, e0, -⟩ := idx_facts1 t
  unfold iblk1
  rw [View.read_apply]
  show V c main_arg4 _ = V c main_arg4 _
  congr 1
  funext a
  apply Fin.ext
  match a with
  | ⟨0, _⟩ => show win1_2.index t 0 * 128 + 1 * (x 0).val = (x 0).val; rw [e0]; omega

/-- The weight's block at every point is the whole weight. -/
theorem iblk1_3_apply (c : Dev nD) (t : Fin cfg1.N) (x : S128x128.Idx) :
    (iblk1 V c 3 t : S128x128.Idx → EReal) x = weight1 V c x := by
  obtain ⟨-, -, -, -, -, e0, e1, -⟩ := idx_facts1 t
  unfold iblk1
  rw [View.read_apply]
  show V c main_arg5 _ = V c main_arg5 _
  congr 1
  funext a
  apply Fin.ext
  match a with
  | ⟨0, _⟩ => show win1_3.index t 0 * 128 + 1 * (x 0).val = (x 0).val; rw [e0]; omega
  | ⟨1, _⟩ => show win1_3.index t 1 * 128 + 1 * (x 1).val = (x 1).val; rw [e1]; omega

/-- What point t writes back is block t of the layer's function of the arrays as the region finds them: the one
    store's payload at (p, q), each input block read at the array's rows 4000 t + p. -/
theorem flushed1_eq (c : Dev nD) (t : Fin cfg1.N) :
    (dat1 (F := Ideal) V c).flushed 4 t
      = ((cfg1.win 4).blk t).view.read (Elt Ideal) (layer1 (aggr1 V c) (nodeFac1 V c) (bias1 V c) (weight1 V c)) := by
  show (cfg1.win 4).cut (grid1.coords t) ((dat1 (F := Ideal) V c).after 4 t) = _
  rw [after1_4]
  unfold out1_4
  rw [View.canon_unit_zero zero_offsets2]
  simp only [View.ld_unit_zero (S := S4000x128) zero_offsets2, View.ld_unit_zero (S := S4000x1) zero_offsets2,
    View.ld_unit_zero (S := S128) zero_offsets1, View.ld_unit_zero (S := S128x128) zero_offsets2]
  obtain ⟨-, -, -, -, -, -, -, e0, e1⟩ := idx_facts1 t
  funext y
  obtain ⟨p, q, rfl⟩ : ∃ (p : Fin 4000) (q : Fin 128), y = ix2 p q := ⟨y 0, y 1, eq_ix2 y⟩
  have ht : t.val < 25 := t.isLt
  have hrow : t.val * 4000 + p.val < 100000 := by have := p.isLt; omega
  -- the element (p, q) of block t sits in the array at row 4000 t + p, column q
  have hemb : (((cfg1.win 4).blk t).view.emb (ix2 p q) : S100000x128.Idx) = ix2 ⟨t.val * 4000 + p.val, hrow⟩ q :=
    funext fun a => Fin.ext (by
      match a with
      | ⟨0, _⟩ => show win1_4.index t 0 * 4000 + 1 * p.val = t.val * 4000 + p.val; rw [e0]; omega
      | ⟨1, _⟩ => show win1_4.index t 1 * 128 + 1 * q.val = q.val; rw [e1]; omega)
  have hx : (cfg1.win 4).xinj (grid1.coords t) (ix2 p q) = ix2 p q := funext fun a => Fin.ext rfl
  show (k1_pay1 (iblk1 V c 0 t) (iblk1 V c 1 t) (iblk1 V c 2 t) (iblk1 V c 3 t) : S4000x128.Idx → EReal)
      ((cfg1.win 4).xinj (grid1.coords t) (ix2 p q))
    = layer1 (aggr1 V c) (nodeFac1 V c) (bias1 V c) (weight1 V c) (((cfg1.win 4).blk t).view.emb (ix2 p q))
  rw [hx, pay1_apply, hemb]
  show _ = (∑ k : Fin 128, Ideal.tanh (aggr1 V c (ix2 ⟨t.val * 4000 + p.val, hrow⟩ k) * nodeFac1 V c (ix2 ⟨t.val * 4000 + p.val, hrow⟩ (0 : Fin 1)) + bias1 V c (ix1 k))
        * weight1 V c (ix2 k q)) * nodeFac1 V c (ix2 ⟨t.val * 4000 + p.val, hrow⟩ (0 : Fin 1))
  rw [iblk1_1_apply V c t (ix2 p (0 : Fin 1)) (ix2 ⟨t.val * 4000 + p.val, hrow⟩ (0 : Fin 1)) rfl rfl]
  refine congrArg (· * _) (Finset.sum_congr rfl fun k _ => ?_)
  rw [iblk1_0_apply V c t (ix2 p k) (ix2 ⟨t.val * 4000 + p.val, hrow⟩ k) rfl rfl, iblk1_2_apply, iblk1_3_apply]

/-- An index of the array is in point t's block iff each coordinate is in the block's range on its axis. -/
theorem mem_blk1 (t : Fin cfg1.N) (i : S100000x128.Idx) :
    i ∈ ((cfg1.win 4).blk t).view.set
      ↔ ∀ a : Fin 2, win1_4.index t a * S4000x128.size a ≤ (i a).val ∧ (i a).val < win1_4.index t a * S4000x128.size a + S4000x128.size a := by
  show i ∈ ((View.whole main_v30).slice (win1_4.rect t)).set ↔ _
  rw [View.set_slice_whole, Rect.mem_set_unit]
  exact Iff.rfl

/-- Every index of the array is in some point's block: row r is in the block of point r / 4000. -/
theorem cover1 (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have ht : (i 0).val / 4000 < cfg1.N := by show (i 0).val / 4000 < 25; omega
  obtain ⟨-, -, -, -, -, -, -, e0, e1⟩ := idx_facts1 ⟨(i 0).val / 4000, ht⟩
  refine ⟨⟨(i 0).val / 4000, ht⟩, flush1_4 _, ?_⟩
  rw [mem_blk1]
  intro a
  match a with
  | ⟨0, _⟩ =>
    show win1_4.index ⟨(i 0).val / 4000, ht⟩ 0 * 4000 ≤ (i 0).val ∧ (i 0).val < win1_4.index ⟨(i 0).val / 4000, ht⟩ 0 * 4000 + 4000
    rw [e0]; show (i 0).val / 4000 * 4000 ≤ (i 0).val ∧ (i 0).val < (i 0).val / 4000 * 4000 + 4000; omega
  | ⟨1, _⟩ =>
    show win1_4.index ⟨(i 0).val / 4000, ht⟩ 1 * 128 ≤ (i 1).val ∧ (i 1).val < win1_4.index ⟨(i 0).val / 4000, ht⟩ 1 * 128 + 128
    rw [e1]; omega

/-- The output array after the region is the layer's function of the arrays the region found. -/
theorem final1 (c : Dev nD) :
    (dat1 (F := Ideal) V c).arrAt 4 cfg1.N = layer1 (aggr1 V c) (nodeFac1 V c) (bias1 V c) (weight1 V c) :=
  (dat1 (F := Ideal) V c).arrAt_eq_of_cover 4 _ (fun t _ => flushed1_eq V c t) cover1

/-- The output array after the region, at row n and column j: tanh of the aggregate scaled by the node's factor plus
    the bias, times the weight, scaled again by the node's factor. -/
theorem arr1_apply (c : Dev nD) (n : Fin 100000) (j : Fin 128) :
    ((dat1 (F := Ideal) V c).arrAt 4 cfg1.N : S100000x128.Idx → EReal) (ix2 n j)
      = (∑ q : Fin 128, Ideal.tanh (aggr1 V c (ix2 n q) * nodeFac1 V c (ix2 n (0 : Fin 1)) + bias1 V c (ix1 q))
            * weight1 V c (ix2 q j))
          * nodeFac1 V c (ix2 n (0 : Fin 1)) := by
  rw [final1 V c]

end Cert.KernelIdeal.Hand

end
-- ==== Proof.Spec.lean ====
/-
  A two-layer graph convolution with symmetric degree normalisation, mean pooling over the nodes of graph 0 and a
  final affine map, written index by index over the extended reals in the two arrangements the two programs use.

  The reference arrangement weighs each edge's message by dinv[src] * dinv[dst] before summing the messages that land
  at a node. The kernel arrangement scales the features by dinv before the edge sum and the sum by dinv after it.
  The two agree because dinv is nonnegative and never +∞, and a factor of that kind distributes over a sum of
  extended reals.
-/
import Idealize.ShloMosaic.PureOps.Ideal
import Idealize.ShloMosaic.Lib.ValueIdx

noncomputable section

open scoped BigOperators

namespace Cert.Gcn

open Idealize.ShloMosaic Idealize.ShloMosaic.ValueIdx

/-- A matrix, a vector and a vector of 32-bit index words, as functions of literal-shape indices. -/
abbrev Mat (a b : Nat) : Type := (⟨2, ![a, b]⟩ : Shape).Idx → EReal
abbrev Vc (a : Nat) : Type := (⟨1, ![a]⟩ : Shape).Idx → EReal
abbrev IVc (a : Nat) : Type := (⟨1, ![a]⟩ : Shape).Idx → BitVec 32

/-- The float literal one, kept as its binary word. -/
abbrev one : EReal := Ideal.ofBits .f32 0x3F800000#32

/-- The row a gather reads for an index word: the word read signed, clamped into [0, 99999]. -/
def row (s : BitVec 32) : Fin 100000 := ⟨min s.toInt.toNat 99999, by omega⟩

/-- An index word normalised the Python way: 100000 is added to a negative one. -/
def norm (s : BitVec 32) : BitVec 32 := if s.toInt < 0 then s + 100000#32 else s

/-- The edges that land at node `d`: those whose destination word, read signed, is `d` (a scatter drops the others). -/
def seg (dst : IVc 1700000) (d : Fin 100000) : Finset (Fin 1700000) :=
  Finset.univ.filter fun e => (dst (ix1 e)).toInt = (d.val : ℤ)

/-- The in-degree with self loops, and its inverse square root where it is positive (zero elsewhere). -/
def deg (dst : IVc 1700000) (d : Fin 100000) : EReal := 0 + ∑ _e ∈ seg dst d, one
def dinv (dst : IVc 1700000) : Vc 100000 := fun i =>
  if 0 < deg dst (i 0) then Ideal.rsqrt (deg dst (i 0)) else 0

/-- A plain matrix product at an element. -/
def lin {a k b : Nat} (x : Mat a k) (W : Mat k b) : Mat a b := fun i => ∑ q : Fin k, x (ix2 (i 0) q) * W (ix2 q (i 1))

/-- One aggregation in the reference's arrangement: each message weighed by both endpoints' factors, then summed. -/
def aggR (src dst : IVc 1700000) (dv : Vc 100000) (h : Mat 100000 128) : Mat 100000 128 := fun i =>
  0 + ∑ e ∈ seg dst (i 0), h (ix2 (row (norm (src (ix1 e)))) (i 1))
        * (dv (ix1 (row (norm (src (ix1 e))))) * dv (ix1 (row (norm (dst (ix1 e))))))

/-- One aggregation in the kernel's arrangement: the features arrive already scaled by the source's factor. -/
def aggK (src dst : IVc 1700000) (hs : Mat 100000 128) : Mat 100000 128 := fun i =>
  0 + ∑ e ∈ seg dst (i 0), hs (ix2 (row (norm (src (ix1 e)))) (i 1))

/-- The nodes of graph 0, and the indicator the kernel multiplies by. -/
def inG0 (batch : IVc 100000) : Finset (Fin 100000) := Finset.univ.filter fun n => (batch (ix1 n)).toInt = 0
def mask (batch : IVc 100000) (n : Fin 100000) : EReal := if batch (ix1 n) = 0#32 then 1 else 0

section Programs

variable (x : Mat 100000 4) (src dst : IVc 1700000) (batch : IVc 100000) (dv : Vc 100000)
  (W1 : Mat 4 128) (b1 : Vc 128) (W2 : Mat 128 128) (b2 : Vc 128) (Wfc : Mat 128 40) (bfc : Vc 40)

/-! ### The reference's arrangement -/
def act1R : Mat 100000 128 := fun i => Ideal.tanh (aggR src dst dv (lin x W1) i + b1 (ix1 (i 1)))
def act2R : Mat 100000 128 := fun i =>
  Ideal.tanh (aggR src dst dv (lin (act1R x src dst dv W1 b1) W2) i + b2 (ix1 (i 1)))
def sumR (j : Fin 128) : EReal := 0 + ∑ n ∈ inG0 batch, act2R x src dst dv W1 b1 W2 b2 (ix2 n j)
def cntR : EReal := 0 + ∑ _n ∈ inG0 batch, one
def pooledR (j : Fin 128) : EReal := Ideal.div (sumR x src dst batch dv W1 b1 W2 b2 j) (max (cntR batch) one)
def velR : Mat 1 40 := fun i =>
  (∑ j : Fin 128, pooledR x src dst batch dv W1 b1 W2 b2 j * Wfc (ix2 j (i 1))) + bfc (ix1 (i 1))

/-! ### The kernel's arrangement -/
def h1K : Mat 100000 128 := fun i => lin x W1 i * dv (ix1 (i 0))
def act1K : Mat 100000 128 := fun i =>
  Ideal.tanh (aggK src dst (h1K x dv W1) i * dv (ix1 (i 0)) + b1 (ix1 (i 1)))
def h2K : Mat 100000 128 := fun i => lin (act1K x src dst dv W1 b1) W2 i * dv (ix1 (i 0))
def act2K : Mat 100000 128 := fun i =>
  Ideal.tanh (aggK src dst (h2K x src dst dv W1 b1 W2) i * dv (ix1 (i 0)) + b2 (ix1 (i 1)))
def sumK (j : Fin 128) : EReal := ∑ n : Fin 100000, act2K x src dst dv W1 b1 W2 b2 (ix2 n j) * mask batch n
def cntK : EReal := ∑ n : Fin 100000, mask batch n
def pooledK (j : Fin 128) : EReal := Ideal.div (sumK x src dst batch dv W1 b1 W2 b2 j) (max (cntK batch) one)
def velK : Mat 1 40 := fun i =>
  (∑ j : Fin 128, pooledK x src dst batch dv W1 b1 W2 b2 j * Wfc (ix2 j (i 1))) + bfc (ix1 (i 1))

end Programs

end Cert.Gcn

end
-- ==== Proof.Laws.lean ====
/-
  The laws that carry the kernel's arrangement of the two-layer graph convolution into the reference's arrangement
  over the extended reals: a nonnegative finite factor distributes over a finite sum, an edge that lands at a node
  reads that node's own factor, the 0/1 mask turns a sum over all rows into the sum over the rows of graph 0, and
  the rows may be summed in 25 blocks of 4000 by an accumulator.
-/
import proofs.«427309_j66967130079866_2_alg».proof.Proof.Spec
import Mathlib.Data.EReal.Operations
import Mathlib.Algebra.BigOperators.Fin
import Mathlib.Data.Fintype.BigOperators
import Mathlib.Logic.Equiv.Fin.Basic

noncomputable section

open scoped BigOperators

namespace Cert.Gcn

open Idealize.ShloMosaic Idealize.ShloMosaic.ValueIdx

/-- A nonnegative factor that is not +∞ distributes over a finite sum of extended reals. -/
theorem sum_mul_of_nonneg_ne_top {ι : Type*} (s : Finset ι) (f : ι → EReal) (c : EReal) (h0 : 0 ≤ c) (ht : c ≠ ⊤) :
    ∑ i ∈ s, f i * c = (∑ i ∈ s, f i) * c := by
  classical
  induction s using Finset.induction_on with
  | empty => simp
  | insert a s ha ih =>
    rw [Finset.sum_insert ha, Finset.sum_insert ha, ih, EReal.right_distrib_of_nonneg_of_ne_top h0 ht]

/-- A destination word that reads `d` as a signed integer is nonnegative, so it is not normalised and the clamp is
    the identity. -/
theorem row_norm_of_seg (dst : IVc 1700000) (d : Fin 100000) (e : Fin 1700000) (he : e ∈ seg dst d) :
    row (norm (dst (ix1 e))) = d := by
  have hd : (dst (ix1 e)).toInt = (d.val : ℤ) := (Finset.mem_filter.mp he).2
  have hnn : ¬ (dst (ix1 e)).toInt < 0 := by rw [hd]; omega
  unfold norm
  rw [if_neg hnn]
  apply Fin.ext
  show min (dst (ix1 e)).toInt.toNat 99999 = d.val
  rw [hd, Int.toNat_natCast]
  have := d.isLt
  omega

/-- The reference's aggregation is the kernel's aggregation of the pre-scaled features, scaled by the node's factor. -/
theorem aggR_eq (src dst : IVc 1700000) (dv : Vc 100000) (h : Mat 100000 128)
    (hdv : ∀ d : Fin 100000, 0 ≤ dv (ix1 d) ∧ dv (ix1 d) ≠ ⊤) (i) :
    aggR src dst dv h i = aggK src dst (fun i' => h i' * dv (ix1 (i' 0))) i * dv (ix1 (i 0)) := by
  have hc := hdv (i 0)
  unfold aggR aggK
  rw [zero_add, zero_add, ← sum_mul_of_nonneg_ne_top _ _ _ hc.1 hc.2]
  refine Finset.sum_congr rfl (fun e he => ?_)
  rw [row_norm_of_seg dst (i 0) e he]
  exact (mul_assoc _ _ _).symm

/-- The inverse square root of the degree is nonnegative and never +∞. -/
theorem dinv_nonneg_ne_top (dst : IVc 1700000) (d : Fin 100000) :
    0 ≤ dinv dst (ix1 d) ∧ dinv dst (ix1 d) ≠ ⊤ := by
  show 0 ≤ (if 0 < deg dst d then Ideal.rsqrt (deg dst d) else 0)
    ∧ (if 0 < deg dst d then Ideal.rsqrt (deg dst d) else 0) ≠ ⊤
  by_cases hpos : 0 < deg dst d
  · rw [if_pos hpos]
    generalize deg dst d = y at hpos
    induction y using EReal.rec with
    | bot => exact absurd hpos (not_lt_bot)
    | top => rw [Ideal.rsqrt_top]; exact ⟨le_refl 0, EReal.zero_ne_top⟩
    | coe r =>
      have hr : 0 < r := by exact_mod_cast hpos
      rw [Ideal.rsqrt_coe, if_neg (not_lt.mpr hr.le), if_neg hr.ne']
      exact ⟨by exact_mod_cast inv_nonneg.mpr (Real.sqrt_nonneg r), EReal.coe_ne_top _⟩
  · rw [if_neg hpos]
    exact ⟨le_refl 0, EReal.zero_ne_top⟩

/-- The binary word 0x3F800000 denotes the number one. -/
theorem one_eq : (one : EReal) = 1 := by
  show Ideal.ofBits .f32 0x3F800000#32 = 1
  simp [Ideal.ofBits, Ideal.ieee, -EReal.coe_mul]
  norm_num

/-- A 32-bit word reads zero as a signed integer exactly when it is the zero word. -/
theorem toInt_eq_zero_iff (b : BitVec 32) : b.toInt = 0 ↔ b = 0#32 := by
  constructor
  · intro h
    apply BitVec.toInt_inj.mp
    rw [h, BitVec.toInt_zero]
  · intro h
    rw [h, BitVec.toInt_zero]

section Programs

variable (x : Mat 100000 4) (src dst : IVc 1700000) (batch : IVc 100000) (dv : Vc 100000)
  (W1 : Mat 4 128) (b1 : Vc 128) (W2 : Mat 128 128) (b2 : Vc 128) (Wfc : Mat 128 40) (bfc : Vc 40)

/-- The first layer's activations agree. -/
theorem act1K_eq_act1R (hdv : ∀ d : Fin 100000, 0 ≤ dv (ix1 d) ∧ dv (ix1 d) ≠ ⊤) :
    act1K x src dst dv W1 b1 = act1R x src dst dv W1 b1 := by
  funext i
  unfold act1K act1R
  rw [aggR_eq src dst dv (lin x W1) hdv i]
  rfl

/-- The second layer's activations agree. -/
theorem act2K_eq_act2R (hdv : ∀ d : Fin 100000, 0 ≤ dv (ix1 d) ∧ dv (ix1 d) ≠ ⊤) :
    act2K x src dst dv W1 b1 W2 b2 = act2R x src dst dv W1 b1 W2 b2 := by
  funext i
  unfold act2K act2R
  rw [aggR_eq src dst dv (lin (act1R x src dst dv W1 b1) W2) hdv i]
  unfold h2K
  rw [act1K_eq_act1R x src dst dv W1 b1 hdv]

/-- The masked sum over all rows is the sum over the rows of graph 0. -/
theorem sumK_eq_sumR (hdv : ∀ d : Fin 100000, 0 ≤ dv (ix1 d) ∧ dv (ix1 d) ≠ ⊤) (j : Fin 128) :
    sumK x src dst batch dv W1 b1 W2 b2 j = sumR x src dst batch dv W1 b1 W2 b2 j := by
  unfold sumK sumR inG0
  rw [zero_add, act2K_eq_act2R x src dst dv W1 b1 W2 b2 hdv, Finset.sum_filter]
  refine Finset.sum_congr rfl (fun n _ => ?_)
  unfold mask
  by_cases hb : batch (ix1 n) = 0#32
  · rw [if_pos hb, if_pos ((toInt_eq_zero_iff _).mpr hb), mul_one]
  · rw [if_neg hb, if_neg (fun h => hb ((toInt_eq_zero_iff _).mp h)), mul_zero]

/-- The sum of the mask is the number of rows of graph 0. -/
theorem cntK_eq_cntR : cntK batch = cntR batch := by
  unfold cntK cntR inG0
  rw [zero_add, Finset.sum_filter, one_eq]
  refine Finset.sum_congr rfl (fun n _ => ?_)
  unfold mask
  by_cases hb : batch (ix1 n) = 0#32
  · rw [if_pos hb, if_pos ((toInt_eq_zero_iff _).mpr hb)]
  · rw [if_neg hb, if_neg (fun h => hb ((toInt_eq_zero_iff _).mp h))]

/-- The two arrangements compute the same result. -/
theorem velK_eq_velR (hdv : ∀ d : Fin 100000, 0 ≤ dv (ix1 d) ∧ dv (ix1 d) ≠ ⊤) :
    velK x src dst batch dv W1 b1 W2 b2 Wfc bfc = velR x src dst batch dv W1 b1 W2 b2 Wfc bfc := by
  funext i
  unfold velK velR pooledK pooledR
  rw [cntK_eq_cntR batch]
  refine congrArg (· + bfc (ix1 (i 1))) (Finset.sum_congr rfl (fun j _ => ?_))
  rw [sumK_eq_sumR x src dst batch dv W1 b1 W2 b2 hdv j]

end Programs

/-- The rows summed in 25 blocks of 4000. -/
theorem sum_blocks {A : Type*} [AddCommMonoid A] (f : Fin 100000 → A) :
    ∑ t : Fin 25, ∑ r : Fin 4000, f ⟨t.val * 4000 + r.val, by omega⟩ = ∑ n : Fin 100000, f n := by
  rw [← Fintype.sum_prod_type' (fun (t : Fin 25) (r : Fin 4000) => f ⟨t.val * 4000 + r.val, by omega⟩)]
  refine Fintype.sum_equiv (finProdFinEquiv.trans (finCongr (by norm_num))) _ _ (fun p => ?_)
  congr 1
  apply Fin.ext
  simp only [Equiv.trans_apply, finCongr_apply, Fin.val_cast, finProdFinEquiv_apply_val]
  omega

/-- An accumulator set to zero plus the first block and then added to at each later block holds the sum of the blocks. -/
theorem fold_blocks {A : Type*} [AddCommMonoid A] (g : Fin 25 → A) (acc : ℕ → A) (h0 : acc 0 = 0 + g 0)
    (hs : ∀ n (hn : n + 1 < 25), acc (n + 1) = acc n + g ⟨n + 1, hn⟩) : acc 24 = ∑ t : Fin 25, g t := by
  have key : ∀ n, n < 25 → acc n = ∑ k ∈ Finset.range (n + 1), (if h : k < 25 then g ⟨k, h⟩ else 0) := by
    intro n
    induction n with
    | zero =>
      intro _
      rw [h0, zero_add, Finset.sum_range_one, dif_pos (by norm_num)]
      rfl
    | succ n ih =>
      intro hn
      rw [hs n hn, ih (by omega), Finset.sum_range_succ _ (n + 1), dif_pos hn]
  rw [key 24 (by norm_num), ← Fin.sum_univ_eq_sum_range (fun k => if h : k < 25 then g ⟨k, h⟩ else 0) 25]
  refine Finset.sum_congr rfl (fun t _ => ?_)
  rw [dif_pos t.isLt]

end Cert.Gcn

end
-- ==== Proof.KI.Value2.lean ====
import proofs.«427309_j66967130079866_2_alg».proof.Proof.KI.Region2
import proofs.«427309_j66967130079866_2_alg».proof.Proof.Laws
import proofs.«427309_j66967130079866_2_alg».proof.Proof.LibPlainDot
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat)

-- the TensorCore's buffer contents when the region is entered, at the extended reals
variable (V : (c : Dev nD) → (b : Ref sig .tc) → Buf (Elt Ideal) ((c : Thread nD τ).loc b))

/-! # The third pallas call's result array, entry by entry

Entry q of the one result row is the pooled row times the final weight's column q plus the final bias, where the
pooled row's column j is the sum over ALL 100000 rows of tanh(aggregate * factor + bias) * mask divided by
max(sum of the mask, 1). First the body's arithmetic at an entry; then the blocks laid over the arrays (point t reads
rows 4000 t … 4000 t + 3999); then the two carried buffers after the last point as sums over all rows; then the one
write-back. -/

/-- The aggregated features (one row per node), as the region finds them. -/
abbrev aggr2 (c : Dev nD) : S100000x128.Idx → EReal := V c main_v41
/-- Each node's scaling factor (one column). -/
abbrev nodeFac2 (c : Dev nD) : S100000x1.Idx → EReal := V c main_v43
/-- The layer's bias. -/
abbrev bias2 (c : Dev nD) : S128.Idx → EReal := V c main_arg6
/-- Each node's graph number (one column of 32-bit words). -/
abbrev batch2 (c : Dev nD) : S100000x1.Idx → BitVec 32 := V c main_v42
/-- The final layer's weight. -/
abbrev wfc2 (c : Dev nD) : S128x40.Idx → EReal := V c main_arg7
/-- The final layer's bias. -/
abbrev bfc2 (c : Dev nD) : S40.Idx → EReal := V c main_arg8

/-! ## The body's arithmetic at an entry -/

/-- A column broadcast along the 128 lanes reads, at (p, q), the column at row p. -/
theorem col_lanes2_apply {α : Type} (v : S4000x1.Idx → α) (p : Fin 4000) (q : Fin 128) :
    broadcastTo S4000x128 v broadcasts_S4000x1_S4000x128 (ix2 p q) = v (ix2 p (0 : Fin 1)) :=
  broadcastTo_apply _ _ _ (ix2 p (0 : Fin 1)) (fun a => by
    match a with
    | ⟨0, _⟩ => rfl
    | ⟨1, _⟩ => rfl)

/-- The one counter entry broadcast along the 128 lanes reads that entry. -/
theorem unit_lanes2_apply {α : Type} (v : S1x1.Idx → α) (j : Fin 128) :
    broadcastTo S1x128 v broadcasts_S1x1_S1x128 (ix2 (0 : Fin 1) j) = v (ix2 (0 : Fin 1) (0 : Fin 1)) :=
  broadcastTo_apply _ _ _ (ix2 (0 : Fin 1) (0 : Fin 1)) (fun a => by
    match a with
    | ⟨0, _⟩ => rfl
    | ⟨1, _⟩ => rfl)

/-- The source index of a sum over the rows of a [4000,128] array, at column j and row k. -/
theorem lift2_rows128 (j : Fin 128) (k : Fin 4000) : reduces_S4000x128_S128.lift (ix1 j) k = ix2 k j := by
  funext a
  apply Fin.ext
  match a with
  | ⟨0, _⟩ => rfl
  | ⟨1, _⟩ => rfl

/-- The source index of a sum over the rows of a [4000,1] column, at row k. -/
theorem lift2_rows1 (k : Fin 4000) : reduces_S4000x1_S1.lift (ix1 (0 : Fin 1)) k = ix2 k (0 : Fin 1) := by
  funext a
  apply Fin.ext
  match a with
  | ⟨0, _⟩ => rfl
  | ⟨1, _⟩ => rfl

/-- A sum over the rows of a [4000,128] array, at column j. -/
theorem colsum2_128 (src : FVec Ideal S4000x128 .f32) (j : Fin 128) :
    multiReduction .add [0] S128 src 0x00000000#32 reduces_S4000x128_S128 (.inl rfl) rfl (ix1 j)
      = ∑ r : Fin 4000, src (ix2 r j) :=
  (Ideal.multiReduction_add_single src 0x00000000#32 reduces_S4000x128_S128 (.inl rfl) rfl (ix1 j)).trans
    (Finset.sum_congr rfl fun r _ => congrArg src (lift2_rows128 j r))

/-- A sum over the rows of a [4000,1] column. -/
theorem colsum2_1 (src : FVec Ideal S4000x1 .f32) :
    multiReduction .add [0] S1 src 0x00000000#32 reduces_S4000x1_S1 (.inl rfl) rfl (ix1 (0 : Fin 1))
      = ∑ r : Fin 4000, src (ix2 r (0 : Fin 1)) :=
  (Ideal.multiReduction_add_single src 0x00000000#32 reduces_S4000x1_S1 (.inl rfl) rfl (ix1 (0 : Fin 1))).trans
    (Finset.sum_congr rfl fun r _ => congrArg src (lift2_rows1 r))

/-- The mask at a row: the widened comparison of the batch word with zero, converted, is one where the word is
    zero and zero elsewhere. -/
theorem mask2_apply (x3 : Vec Ideal S4000x1 .i32) (r : Fin 4000) :
    (k2_pay4 (F := Ideal) x3) (ix2 r (0 : Fin 1)) = if x3 (ix2 r (0 : Fin 1)) = 0#32 then 1 else 0 := by
  unfold k2_pay4
  rw [sitofp_apply, extui_apply, shapeCast_self]
  show ((((IntOp.cmpi .eq (x3 (ix2 r (0 : Fin 1))) 0#32).setWidth 32).toInt : ℝ) : EReal) = _
  by_cases h : x3 (ix2 r (0 : Fin 1)) = 0#32
  · rw [if_pos h, h]
    have e : (IntOp.cmpi .eq (0#32) 0#32).setWidth 32 = 1#32 := by decide
    rw [e]
    have e1 : (1#32 : BitVec 32).toInt = 1 := by decide
    rw [e1]
    norm_num
  · rw [if_neg h]
    have e : IntOp.cmpi .eq (x3 (ix2 r (0 : Fin 1))) 0#32 = 0#1 := by
      show BitVec.ofBool (x3 (ix2 r (0 : Fin 1)) == 0#32) = 0#1
      rw [beq_eq_false_iff_ne.mpr h]
      rfl
    rw [e]
    have e1 : ((0#1 : BitVec 1).setWidth 32).toInt = 0 := by decide
    rw [e1]
    norm_num

/-- The accumulator's payload at column j: what it held plus the sum over the block's rows of
    tanh(aggregate * factor + bias) * mask. -/
theorem pay2_5_apply (x0 : Vec Ideal S4000x128 .f32) (x1 : Vec Ideal S4000x1 .f32) (x2 : Vec Ideal S128 .f32)
    (x3 : Vec Ideal S4000x1 .i32) (a : Vec Ideal S1x128 .f32) (j : Fin 128) :
    k2_pay5 x0 x1 x2 x3 a (ix2 (0 : Fin 1) j)
      = a (ix2 (0 : Fin 1) j) + ∑ r : Fin 4000, Ideal.tanh (x0 (ix2 r j) * x1 (ix2 r (0 : Fin 1)) + x2 (ix1 j))
          * (if x3 (ix2 r (0 : Fin 1)) = 0#32 then 1 else 0) := by
  unfold k2_pay5
  rw [shapeCast_self, addf_apply, shapeCast_a_1a_apply]
  refine congrArg (a (ix2 (0 : Fin 1) j) + ·) ?_
  refine (colsum2_128 _ j).trans ?_
  refine Finset.sum_congr rfl fun r _ => ?_
  rw [mulf_apply, col_lanes2_apply, mask2_apply]
  refine congrArg (· * _) ?_
  show Ideal.tanh (_ * _ + _) = _
  rw [shapeCast_self, shapeCast_self, col_lanes2_apply, broadcastTo_1b_ab_apply, shapeCast_a_1a_apply]

/-- The counter's payload: what it held plus the sum of the mask over the block's rows. -/
theorem pay2_6_apply (x3 : Vec Ideal S4000x1 .i32) (n : Vec Ideal S1x1 .f32) :
    k2_pay6 x3 n (ix2 (0 : Fin 1) (0 : Fin 1))
      = n (ix2 (0 : Fin 1) (0 : Fin 1)) + ∑ r : Fin 4000, (if x3 (ix2 r (0 : Fin 1)) = 0#32 then (1 : EReal) else 0) := by
  unfold k2_pay6
  rw [shapeCast_self, addf_apply, shapeCast_a_1a_apply]
  refine congrArg (n (ix2 (0 : Fin 1) (0 : Fin 1)) + ·) ?_
  refine (colsum2_1 _).trans ?_
  refine Finset.sum_congr rfl fun r _ => ?_
  rw [mask2_apply]

/-- The result's payload at column q: the accumulator over max(counter, 1), times the weight's column, plus the bias. -/
theorem pay2_1_apply (n : Vec Ideal S1x1 .f32) (a : Vec Ideal S1x128 .f32) (x4 : Vec Ideal S128x40 .f32)
    (x5 : Vec Ideal S40 .f32) (q : Fin 40) :
    k2_pay1 n a x4 x5 (ix2 (0 : Fin 1) q)
      = (∑ j : Fin 128, Ideal.div (a (ix2 (0 : Fin 1) j)) (max (n (ix2 (0 : Fin 1) (0 : Fin 1))) Cert.Gcn.one) * x4 (ix2 j q))
          + x5 (ix1 q) := by
  unfold k2_pay1
  rw [addf_apply, shapeCast_a_1a_apply]
  refine congrArg (· + x5 (ix1 q)) ?_
  unfold matmul
  rw [PlainDot.matmul_zero_apply dot_S1x128_S128x40_S1x40_1_0_0_1_n_n rfl rfl rfl rfl rfl rfl]
  refine Finset.sum_congr rfl fun j _ => ?_
  rw [truncf_apply, truncf_apply, divf_apply, unit_lanes2_apply, maximumf_apply, broadcast_apply]
  rfl

/-- The zero fill of the accumulator reads zero. -/
theorem pay2_2_apply (j : Fin 128) : (k2_pay2 (F := Ideal)) (ix2 (0 : Fin 1) j) = 0 := by
  unfold k2_pay2
  rw [shapeCast_self, broadcast_apply]
  exact Ideal.ofBits_zero_f32

/-- The zero fill of the counter reads zero. -/
theorem pay2_3_apply : (k2_pay3 (F := Ideal)) (ix2 (0 : Fin 1) (0 : Fin 1)) = 0 := by
  unfold k2_pay3
  rw [shapeCast_self, broadcast_apply]
  exact Ideal.ofBits_zero_f32

/-! ## The blocks over the arrays -/

theorem zeros2_r2 : (![0, 0] : Fin 2 → Nat) = fun _ => 0 := funext fun a => by fin_cases a <;> rfl
theorem zeros2_r1 : (![0] : Fin 1 → Nat) = fun _ => 0 := funext fun a => by fin_cases a; rfl

/-- The index maps, decided over the grid: the row blocks of the aggregate, the factor and the batch column move with
    the point; every other block stays at zero. -/
theorem idx_facts2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 1) = 0
    ∧ win2_3.index t (0 : Fin 2) = t.val
    ∧ win2_3.index t (1 : Fin 2) = 0
    ∧ win2_4.index t (0 : Fin 2) = 0
    ∧ win2_4.index t (1 : Fin 2) = 0
    ∧ win2_5.index t (0 : Fin 1) = 0
    ∧ win2_6.index t (0 : Fin 2) = 0
    ∧ win2_6.index t (1 : Fin 2) = 0 :=
  (by decide +kernel : ∀ t : Fin grid2.N, _)

/-- The aggregate's block at point t reads rows 4000 t … of the array. -/
theorem iblk2_0_apply (c : Dev nD) (t : Fin cfg2.N) (r : Fin 4000) (j : Fin 128) (hr : t.val * 4000 + r.val < 100000) :
    (iblk2 V c 0 t : Vec Ideal S4000x128 .f32) (ix2 r j) = aggr2 V c (ix2 ⟨t.val * 4000 + r.val, hr⟩ j) := by
  obtain ⟨e0, e1, -⟩ := idx_facts2 t
  show V c main_v41 (((cfg2.win 0).blk t).view.emb (ix2 r j)) = V c main_v41 (ix2 ⟨t.val * 4000 + r.val, hr⟩ j)
  refine congrArg (V c main_v41) (funext fun a => Fin.ext ?_)
  match a with
  | ⟨0, _⟩ => show win2_0.index t (0 : Fin 2) * 4000 + 1 * r.val = t.val * 4000 + r.val; omega
  | ⟨1, _⟩ => show win2_0.index t (1 : Fin 2) * 128 + 1 * j.val = j.val; omega

/-- The factor's block at point t reads the same rows of its column. -/
theorem iblk2_1_apply (c : Dev nD) (t : Fin cfg2.N) (r : Fin 4000) (hr : t.val * 4000 + r.val < 100000) :
    (iblk2 V c 1 t : Vec Ideal S4000x1 .f32) (ix2 r (0 : Fin 1)) = nodeFac2 V c (ix2 ⟨t.val * 4000 + r.val, hr⟩ (0 : Fin 1)) := by
  obtain ⟨-, -, e2, e3, -⟩ := idx_facts2 t
  show V c main_v43 (((cfg2.win 1).blk t).view.emb (ix2 r (0 : Fin 1))) = V c main_v43 (ix2 ⟨t.val * 4000 + r.val, hr⟩ (0 : Fin 1))
  refine congrArg (V c main_v43) (funext fun a => Fin.ext ?_)
  match a with
  | ⟨0, _⟩ => show win2_1.index t (0 : Fin 2) * 4000 + 1 * r.val = t.val * 4000 + r.val; omega
  | ⟨1, _⟩ => show win2_1.index t (1 : Fin 2) * 1 + 1 * 0 = 0; omega

/-- The bias's block is the whole bias at every point. -/
theorem iblk2_2_apply (c : Dev nD) (t : Fin cfg2.N) (j : Fin 128) :
    (iblk2 V c 2 t : Vec Ideal S128 .f32) (ix1 j) = bias2 V c (ix1 j) := by
  obtain ⟨-, -, -, -, e4, -⟩ := idx_facts2 t
  show V c main_arg6 (((cfg2.win 2).blk t).view.emb (ix1 j)) = V c main_arg6 (ix1 j)
  refine congrArg (V c main_arg6) (funext fun a => Fin.ext ?_)
  match a with
  | ⟨0, _⟩ => show win2_2.index t (0 : Fin 1) * 128 + 1 * j.val = j.val; omega

/-- The batch column's block at point t reads the same rows of its column. -/
theorem iblk2_3_apply (c : Dev nD) (t : Fin cfg2.N) (r : Fin 4000) (hr : t.val * 4000 + r.val < 100000) :
    (iblk2 V c 3 t : Vec Ideal S4000x1 .i32) (ix2 r (0 : Fin 1)) = batch2 V c (ix2 ⟨t.val * 4000 + r.val, hr⟩ (0 : Fin 1)) := by
  obtain ⟨-, -, -, -, -, e5, e6, -⟩ := idx_facts2 t
  show V c main_v42 (((cfg2.win 3).blk t).view.emb (ix2 r (0 : Fin 1))) = V c main_v42 (ix2 ⟨t.val * 4000 + r.val, hr⟩ (0 : Fin 1))
  refine congrArg (V c main_v42) (funext fun a => Fin.ext ?_)
  match a with
  | ⟨0, _⟩ => show win2_3.index t (0 : Fin 2) * 4000 + 1 * r.val = t.val * 4000 + r.val; omega
  | ⟨1, _⟩ => show win2_3.index t (1 : Fin 2) * 1 + 1 * 0 = 0; omega

/-- The final weight's block is the whole weight at every point. -/
theorem iblk2_4_apply (c : Dev nD) (t : Fin cfg2.N) (j : Fin 128) (q : Fin 40) :
    (iblk2 V c 4 t : Vec Ideal S128x40 .f32) (ix2 j q) = wfc2 V c (ix2 j q) := by
  obtain ⟨-, -, -, -, -, -, -, e7, e8, -⟩ := idx_facts2 t
  show V c main_arg7 (((cfg2.win 4).blk t).view.emb (ix2 j q)) = V c main_arg7 (ix2 j q)
  refine congrArg (V c main_arg7) (funext fun a => Fin.ext ?_)
  match a with
  | ⟨0, _⟩ => show win2_4.index t (0 : Fin 2) * 128 + 1 * j.val = j.val; omega
  | ⟨1, _⟩ => show win2_4.index t (1 : Fin 2) * 40 + 1 * q.val = q.val; omega

/-- The final bias's block is the whole bias at every point. -/
theorem iblk2_5_apply (c : Dev nD) (t : Fin cfg2.N) (q : Fin 40) :
    (iblk2 V c 5 t : Vec Ideal S40 .f32) (ix1 q) = bfc2 V c (ix1 q) := by
  obtain ⟨-, -, -, -, -, -, -, -, -, e9, -⟩ := idx_facts2 t
  show V c main_arg8 (((cfg2.win 5).blk t).view.emb (ix1 q)) = V c main_arg8 (ix1 q)
  refine congrArg (V c main_arg8) (funext fun a => Fin.ext ?_)
  match a with
  | ⟨0, _⟩ => show win2_5.index t (0 : Fin 1) * 40 + 1 * q.val = q.val; omega

/-! ## One point's update, over the arrays -/

/-- Row n's term of the pooled sum at column j. -/
def term2 (c : Dev nD) (n : Fin 100000) (j : Fin 128) : EReal :=
  Ideal.tanh (aggr2 V c (ix2 n j) * nodeFac2 V c (ix2 n (0 : Fin 1)) + bias2 V c (ix1 j))
    * (if batch2 V c (ix2 n (0 : Fin 1)) = 0#32 then 1 else 0)

/-- Row n's indicator of graph 0. -/
def ind2 (c : Dev nD) (n : Fin 100000) : EReal := if batch2 V c (ix2 n (0 : Fin 1)) = 0#32 then 1 else 0

theorem row_lt2 (t : Fin cfg2.N) (r : Fin 4000) : t.val * 4000 + r.val < 100000 := by
  have h : t.val < 25 := t.isLt
  omega

/-- The accumulator after point t, at column j: what it held plus the block's rows' terms. -/
theorem accStep2_apply (c : Dev nD) (t : Fin cfg2.N) (a : Vec Ideal S1x128 .f32) (j : Fin 128) :
    accStep (iblk2 V c 0 t) (iblk2 V c 1 t) (iblk2 V c 2 t) (iblk2 V c 3 t) a (ix2 (0 : Fin 1) j)
      = a (ix2 (0 : Fin 1) j) + ∑ r : Fin 4000, term2 V c ⟨t.val * 4000 + r.val, row_lt2 t r⟩ j := by
  unfold accStep
  rw [View.canon_unit_zero zeros2_r2]
  simp only [View.ld_unit_zero (S := S4000x128) zeros2_r2, View.ld_unit_zero (S := S4000x1) zeros2_r2,
    View.ld_unit_zero (S := S128) zeros2_r1, View.ld_unit_zero (S := S1x128) zeros2_r2]
  rw [pay2_5_apply]
  refine congrArg (a (ix2 (0 : Fin 1) j) + ·) (Finset.sum_congr rfl fun r _ => ?_)
  rw [iblk2_0_apply V c t r j (row_lt2 t r), iblk2_1_apply V c t r (row_lt2 t r), iblk2_2_apply V c t j,
    iblk2_3_apply V c t r (row_lt2 t r)]
  rfl

/-- The counter after point t: what it held plus the block's rows' indicators. -/
theorem cntStep2_apply (c : Dev nD) (t : Fin cfg2.N) (n : Vec Ideal S1x1 .f32) :
    cntStep (iblk2 V c 3 t) n (ix2 (0 : Fin 1) (0 : Fin 1))
      = n (ix2 (0 : Fin 1) (0 : Fin 1)) + ∑ r : Fin 4000, ind2 V c ⟨t.val * 4000 + r.val, row_lt2 t r⟩ := by
  unfold cntStep
  rw [View.canon_unit_zero zeros2_r2]
  simp only [View.ld_unit_zero (S := S4000x1) zeros2_r2, View.ld_unit_zero (S := S1x1) zeros2_r2]
  rw [pay2_6_apply]
  refine congrArg (n (ix2 (0 : Fin 1) (0 : Fin 1)) + ·) (Finset.sum_congr rfl fun r _ => ?_)
  rw [iblk2_3_apply V c t r (row_lt2 t r)]
  rfl

/-! ## The two carried buffers after the last point: sums over all rows -/

/-- The accumulator's column j after point n (zero past the grid). -/
def accAt2 (c : Dev nD) (j : Fin 128) (n : ℕ) : EReal :=
  if h : n < cfg2.N then (sc2 V c n h).1 (ix2 (0 : Fin 1) j) else 0

/-- The counter after point n (zero past the grid). -/
def cntAt2 (c : Dev nD) (n : ℕ) : EReal :=
  if h : n < cfg2.N then (sc2 V c n h).2 (ix2 (0 : Fin 1) (0 : Fin 1)) else 0

/-- After the last point the accumulator's column j holds the sum over all rows of the rows' terms. -/
theorem acc2_last (c : Dev nD) (j : Fin 128) :
    (sc2 V c 24 lt24).1 (ix2 (0 : Fin 1) j) = ∑ n : Fin 100000, term2 V c n j := by
  have e24 : accAt2 V c j 24 = (sc2 V c 24 lt24).1 (ix2 (0 : Fin 1) j) := dif_pos lt24
  rw [← e24, ← Cert.Gcn.sum_blocks (fun n => term2 V c n j)]
  refine Cert.Gcn.fold_blocks (fun t : Fin 25 => ∑ r : Fin 4000, term2 V c ⟨t.val * 4000 + r.val, by omega⟩ j)
    (accAt2 V c j) ?_ ?_
  · have h0 : (0 : ℕ) < cfg2.N := by decide
    have e0 : accAt2 V c j 0 = (sc2 V c 0 h0).1 (ix2 (0 : Fin 1) j) := dif_pos h0
    rw [e0, sc2_zero]
    show accStep (iblk2 V c 0 ⟨0, h0⟩) (iblk2 V c 1 ⟨0, h0⟩) (iblk2 V c 2 ⟨0, h0⟩) (iblk2 V c 3 ⟨0, h0⟩) (k2_pay2 (F := Ideal))
      (ix2 (0 : Fin 1) j) = _
    rw [accStep2_apply V c ⟨0, h0⟩, pay2_2_apply]
    rfl
  · intro n hn
    have hn' : n + 1 < cfg2.N := hn
    have e1 : accAt2 V c j (n + 1) = (sc2 V c (n + 1) hn').1 (ix2 (0 : Fin 1) j) := dif_pos hn'
    have e2 : accAt2 V c j n = (sc2 V c n (Nat.lt_of_succ_lt hn')).1 (ix2 (0 : Fin 1) j) := dif_pos (Nat.lt_of_succ_lt hn')
    rw [e1, e2, sc2_succ]
    exact accStep2_apply V c ⟨n + 1, hn'⟩ (sc2 V c n (Nat.lt_of_succ_lt hn')).1 j

/-- After the last point the counter holds the sum over all rows of the rows' indicators. -/
theorem cnt2_last (c : Dev nD) :
    (sc2 V c 24 lt24).2 (ix2 (0 : Fin 1) (0 : Fin 1)) = ∑ n : Fin 100000, ind2 V c n := by
  have e24 : cntAt2 V c 24 = (sc2 V c 24 lt24).2 (ix2 (0 : Fin 1) (0 : Fin 1)) := dif_pos lt24
  rw [← e24, ← Cert.Gcn.sum_blocks (fun n => ind2 V c n)]
  refine Cert.Gcn.fold_blocks (fun t : Fin 25 => ∑ r : Fin 4000, ind2 V c ⟨t.val * 4000 + r.val, by omega⟩)
    (cntAt2 V c) ?_ ?_
  · have h0 : (0 : ℕ) < cfg2.N := by decide
    have e0 : cntAt2 V c 0 = (sc2 V c 0 h0).2 (ix2 (0 : Fin 1) (0 : Fin 1)) := dif_pos h0
    rw [e0, sc2_zero]
    show cntStep (iblk2 V c 3 ⟨0, h0⟩) (k2_pay3 (F := Ideal)) (ix2 (0 : Fin 1) (0 : Fin 1)) = _
    rw [cntStep2_apply V c ⟨0, h0⟩, pay2_3_apply]
    rfl
  · intro n hn
    have hn' : n + 1 < cfg2.N := hn
    have e1 : cntAt2 V c (n + 1) = (sc2 V c (n + 1) hn').2 (ix2 (0 : Fin 1) (0 : Fin 1)) := dif_pos hn'
    have e2 : cntAt2 V c n = (sc2 V c n (Nat.lt_of_succ_lt hn')).2 (ix2 (0 : Fin 1) (0 : Fin 1)) := dif_pos (Nat.lt_of_succ_lt hn')
    rw [e1, e2, sc2_succ]
    exact cntStep2_apply V c ⟨n + 1, hn'⟩ (sc2 V c n (Nat.lt_of_succ_lt hn')).2

/-! ## The one write-back -/

/-- What the result array ends holding: at column q, the pooled row through the final layer. -/
def G2 (c : Dev nD) : S1x40.Idx → EReal := fun i =>
  (∑ j : Fin 128, Ideal.div (∑ n : Fin 100000, term2 V c n j) (max (∑ n : Fin 100000, ind2 V c n) Cert.Gcn.one)
      * wfc2 V c (ix2 j (i 1))) + bfc2 V c (ix1 (i 1))

/-- The last point writes back the whole of `G2`. -/
theorem flushed2_eq (c : Dev nD) (t : Fin cfg2.N) (hf : (cfg2.win 6).flush t = true) :
    (dat2 (F := Ideal) V c).flushed 6 t = ((cfg2.win 6).blk t).view.read (Elt Ideal) (G2 V c) := by
  have h25 : t.val < 25 := t.isLt
  have hm : t.val % 25 = 24 := (flush2_6 t).mp hf
  obtain rfl : t = ⟨24, lt24⟩ := Fin.ext (by show t.val = 24; omega)
  show (cfg2.win 6).cut (grid2.coords ⟨24, lt24⟩) ((dat2 (F := Ideal) V c).after 6 ⟨24, lt24⟩) = _
  rw [after2_6_last, fin2_eq, View.canon_unit_zero zeros2_r2]
  simp only [View.ld_unit_zero (S := S1x1) zeros2_r2, View.ld_unit_zero (S := S1x128) zeros2_r2,
    View.ld_unit_zero (S := S128x40) zeros2_r2, View.ld_unit_zero (S := S40) zeros2_r1]
  obtain ⟨-, -, -, -, -, -, -, -, -, -, e10, e11⟩ := idx_facts2 ⟨24, lt24⟩
  funext y
  obtain ⟨p, q, rfl⟩ : ∃ (p : Fin 1) (q : Fin 40), y = ix2 p q := ⟨y 0, y 1, eq_ix2 y⟩
  obtain rfl : p = 0 := Subsingleton.elim _ _
  show k2_pay1 (sc2 V c 24 lt24).2 (sc2 V c 24 lt24).1 (iblk2 V c 4 ⟨24, lt24⟩) (iblk2 V c 5 ⟨24, lt24⟩) (ix2 (0 : Fin 1) q)
    = G2 V c (((cfg2.win 6).blk ⟨24, lt24⟩).view.emb (ix2 (0 : Fin 1) q))
  have hemb : ((cfg2.win 6).blk ⟨24, lt24⟩).view.emb (ix2 (0 : Fin 1) q) = ix2 (0 : Fin 1) q :=
    funext fun a => Fin.ext (by
      match a with
      | ⟨0, _⟩ => show win2_6.index ⟨24, lt24⟩ (0 : Fin 2) * 1 + 1 * 0 = 0; omega
      | ⟨1, _⟩ => show win2_6.index ⟨24, lt24⟩ (1 : Fin 2) * 40 + 1 * q.val = q.val; omega)
  rw [hemb, pay2_1_apply, cnt2_last, iblk2_5_apply]
  unfold G2
  refine congrArg (· + bfc2 V c (ix1 q)) (Finset.sum_congr rfl fun j _ => ?_)
  rw [acc2_last, iblk2_4_apply]

/-- An index of the result array is in a point's block iff each coordinate is in the block's range on its axis. -/
theorem mem_blk2 (t : Fin cfg2.N) (i : S1x40.Idx) :
    i ∈ ((cfg2.win 6).blk t).view.set ↔ ∀ a : Fin 2, win2_6.index t a * S1x40.size a ≤ (i a).val ∧ (i a).val < win2_6.index t a * S1x40.size a + S1x40.size a := by
  show i ∈ ((View.whole main_v44).slice (win2_6.rect t)).set ↔ _
  rw [View.set_slice_whole, Rect.mem_set_unit]
  exact Iff.rfl

/-- The last point's block is the whole result array. -/
theorem cover2 (i : S1x40.Idx) : ∃ t : Fin cfg2.N, (cfg2.win 6).flush t = true ∧ i ∈ ((cfg2.win 6).blk t).view.set := by
  have hi0 : (i 0).val < 1 := (i 0).isLt
  have hi1 : (i 1).val < 40 := (i 1).isLt
  obtain ⟨-, -, -, -, -, -, -, -, -, -, e10, e11⟩ := idx_facts2 ⟨24, lt24⟩
  refine ⟨⟨24, lt24⟩, (flush2_6 ⟨24, lt24⟩).mpr rfl, ?_⟩
  rw [mem_blk2]
  intro a
  match a with
  | ⟨0, _⟩ => show win2_6.index ⟨24, lt24⟩ (0 : Fin 2) * 1 ≤ (i 0).val ∧ (i 0).val < win2_6.index ⟨24, lt24⟩ (0 : Fin 2) * 1 + 1; omega
  | ⟨1, _⟩ => show win2_6.index ⟨24, lt24⟩ (1 : Fin 2) * 40 ≤ (i 1).val ∧ (i 1).val < win2_6.index ⟨24, lt24⟩ (1 : Fin 2) * 40 + 40; omega

/-- The result array after the region is `G2` of the arrays as the region finds them. -/
theorem final2 (c : Dev nD) : (dat2 (F := Ideal) V c).arrAt 6 cfg2.N = G2 V c :=
  (dat2 (F := Ideal) V c).arrAt_eq_of_cover 6 (G2 V c) (fun t hf => flushed2_eq V c t hf) cover2

/-- The result array after the region, at column q: the masked sums over all rows, pooled, through the final layer. -/
theorem arr2_apply (c : Dev nD) (q : Fin 40) :
    ((dat2 (F := Ideal) V c).arrAt 6 cfg2.N : S1x40.Idx → EReal) (ix2 (0 : Fin 1) q)
      = (∑ j : Fin 128, Ideal.div (∑ n : Fin 100000, Ideal.tanh (aggr2 V c (ix2 n j) * nodeFac2 V c (ix2 n (0 : Fin 1)) + bias2 V c (ix1 j)) * (if batch2 V c (ix2 n (0 : Fin 1)) = 0#32 then 1 else 0))
              (max (∑ n : Fin 100000, (if batch2 V c (ix2 n (0 : Fin 1)) = 0#32 then (1 : EReal) else 0)) Cert.Gcn.one) * wfc2 V c (ix2 j q)) + bfc2 V c (ix1 q) := by
  rw [final2]
  rfl

end Cert.KernelIdeal.Hand

end
-- ==== Proof.LibScatterRead.lean ====
/-
  Host scatters and gathers read at an index, at the extended reals: what `x.at[idx].add(u)` and `x[idx]` over
  rows hold at one element, as a sum over the updates that land there / as the operand's row at the clamped index.
  General lemmas over any sizes; they import no program.
-/
import Idealize.ShloMosaic.Lib.ValueIdx
import Idealize.ShloMosaic.PureOps.Ideal.Laws

noncomputable section

open scoped BigOperators

namespace Idealize.ShloMosaic.ScatterRead

open Idealize.ShloMosaic Idealize.ShloMosaic.ValueIdx

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl
/-- … so a sum over it is the sum over the coordinate. -/
theorem sum_idx1 {A : Type*} [AddCommMonoid A] {n : Nat} (f : (⟨1, ![n]⟩ : Shape).Idx → A) :
    ∑ i, f i = ∑ a : Fin n, f (ix1 a) :=
  (Equiv.sum_comp (idxEquiv1 (n := n)).symm f).symm

/-- An update lands at operand index `i` exactly when, on every operand axis, its window's start plus its window
    coordinate is `i`'s coordinate there (the start read signed: a sum that is negative or past the axis's end is no
    coordinate of any `i`, and the update is dropped). -/
theorem resultIdx?_eq_some_iff {s si u : Shape} (d : ScatterDims s si u) {w : Nat} (j : u.Idx) (idx : IVec si w)
    (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show d.start j idx a + (d.window j a : ℤ) = ((d.start j idx a + (d.window j a : ℤ)).toNat : ℤ)
      omega
    · intro hi
      funext a
      apply Fin.ext
      show (d.start j idx a + (d.window j a : ℤ)).toNat = (i a).val
      have := hi a
      omega
  · next h =>
    constructor
    · intro h'
      cases h'
    · intro hi
      exfalso
      apply h
      intro a
      have := hi a
      have := (i a).isLt
      omega

/-- The dimension numbers of a row scatter: the updates' axis 1 is the window, going to the operand's axis 1; the
    operand's axis 0 is inserted and is the one the scatter index names; the index vector is the column's axis 1. -/
abbrev rowsDims (N M D : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

/-- Where update `(v, k')` of a row scatter lands: at `(g, k)` exactly when `v`'s index, read signed, is `g` and
    `k' = k` (the window starts at row = the index, column 0, and the window coordinate is `k'` on the column axis). -/
theorem rows_resultIdx?_iff {N M D w : Nat} (wf : ScatterDims.WF ⟨2, ![N, D]⟩ ⟨2, ![M, 1]⟩ ⟨2, ![M, D]⟩ [1] [0] [0] 1)
    (idx : IVec ⟨2, ![M, 1]⟩ w) (v : Fin M) (k' : Fin D) (g : Fin N) (k : Fin D) :
    (rowsDims N M D wf).resultIdx? (ix2 v k') idx = some (ix2 g k)
      ↔ (idx (ix2 v (0 : Fin 1))).toInt = (g.val : ℤ) ∧ k' = k := by
  rw [resultIdx?_eq_some_iff]
  -- the scatter index of update `(v, k')` is read at `(v, 0)`
  have hsi : (rowsDims N M D wf).siIdx (ix2 v k') ⟨0, Nat.one_pos⟩ = ix2 v (0 : Fin 1) := by
    funext b
    match b with
    | ⟨0, _⟩ => rfl
    | ⟨1, _⟩ => rfl
  -- starts and window coordinates on the two operand axes
  have e0 : (rowsDims N M D wf).start (ix2 v k') idx 0 = (idx (ix2 v (0 : Fin 1))).toInt := by rw [← hsi]; rfl
  have e1 : (rowsDims N M D wf).start (ix2 v k') idx 1 = 0 := rfl
  have w0 : (rowsDims N M D wf).window (ix2 v k') 0 = 0 := rfl
  have w1 : (rowsDims N M D wf).window (ix2 v k') 1 = k'.val := rfl
  constructor
  · intro h
    have h0 : (rowsDims N M D wf).start (ix2 v k') idx 0 + ((rowsDims N M D wf).window (ix2 v k') 0 : ℤ) = (g.val : ℤ) := h 0
    have h1 : (rowsDims N M D wf).start (ix2 v k') idx 1 + ((rowsDims N M D wf).window (ix2 v k') 1 : ℤ) = (k.val : ℤ) := h 1
    rw [e0, w0] at h0
    rw [e1, w1] at h1
    refine ⟨by simpa using h0, Fin.ext ?_⟩
    omega
  · rintro ⟨hg, rfl⟩
    have t0 : (rowsDims N M D wf).start (ix2 v k') idx 0 + ((rowsDims N M D wf).window (ix2 v k') 0 : ℤ) = (g.val : ℤ) := by
      rw [e0, w0, hg]; simp
    have t1 : (rowsDims N M D wf).start (ix2 v k') idx 1 + ((rowsDims N M D wf).window (ix2 v k') 1 : ℤ) = (k'.val : ℤ) := by
      rw [e1, w1]; simp
    intro a
    match a with
    | ⟨0, _⟩ => exact t0
    | ⟨1, _⟩ => exact t1

/-- A row scatter-add (`x.at[idx].add(u)` over the first axis of a matrix, the indices an [M × 1] column): element
    `(g, k)` of the result is the operand's plus the sum of the updates' column-`k` entries of the rows `v` whose
    index, read signed, is `g`; a row whose index is outside `[0, N)` lands nowhere. -/
theorem scatterAdd_rows_apply {N M D w : Nat} (d : ScatterDims ⟨2, ![N, D]⟩ ⟨2, ![M, 1]⟩ ⟨2, ![M, D]⟩)
    (huw : d.updateWindowDims = [1]) (hiw : d.insertedWindowDims = [0]) (hsd : d.scatterDimsToOperandDims = [0])
    (hiv : d.indexVectorDim = 1)
    (x : (⟨2, ![N, D]⟩ : Shape).Idx → EReal) (idx : IVec ⟨2, ![M, 1]⟩ w) (upd : (⟨2, ![M, D]⟩ : Shape).Idx → EReal)
    (g : Fin N) (k : Fin D) :
    Ideal.hostScatterAdd d x idx upd (ix2 g k)
      = x (ix2 g k) + ∑ v ∈ Finset.univ.filter (fun v : Fin M => (idx (ix2 v (0 : Fin 1))).toInt = (g.val : ℤ)), upd (ix2 v k) := by
  obtain ⟨uw, iw, sd, iv, wf⟩ := d
  dsimp only at huw hiw hsd hiv
  subst huw hiw hsd hiv
  show x (ix2 g k) + ∑ j ∈ Finset.univ.filter (fun j => (rowsDims N M D wf).resultIdx? j idx = some (ix2 g k)), upd j = _
  congr 1
  -- the sum over the updates `(v, k')` that land at `(g, k)`, as a double sum over rows and columns
  rw [Finset.sum_filter, Finset.sum_filter, sum_idx2]
  refine Finset.sum_congr rfl fun v _ => ?_
  simp only [rows_resultIdx?_iff]
  by_cases hv : (idx (ix2 v (0 : Fin 1))).toInt = (g.val : ℤ)
  · simp [hv]
  · simp [hv]

/-- The dimension numbers of a flat scatter: the updates have no window axis; the operand's one axis is inserted and
    is the one the scatter index names; the index vector is the column's axis 1. -/
abbrev flatDims (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Where update `v` of a flat scatter lands: at `g` exactly when `v`'s index, read signed, is `g` (the window is
    the one element at the index). -/
theorem flat_resultIdx?_iff {N M w : Nat} (wf : ScatterDims.WF ⟨1, ![N]⟩ ⟨2, ![M, 1]⟩ ⟨1, ![M]⟩ [] [0] [0] 1)
    (idx : IVec ⟨2, ![M, 1]⟩ w) (v : Fin M) (g : Fin N) :
    (flatDims N M wf).resultIdx? (ix1 v) idx = some (ix1 g) ↔ (idx (ix2 v (0 : Fin 1))).toInt = (g.val : ℤ) := by
  rw [resultIdx?_eq_some_iff]
  -- the scatter index of update `v` is read at `(v, 0)`
  have hsi : (flatDims N M wf).siIdx (ix1 v) ⟨0, Nat.one_pos⟩ = ix2 v (0 : Fin 1) := by
    funext b
    match b with
    | ⟨0, _⟩ => rfl
    | ⟨1, _⟩ => rfl
  have e0 : (flatDims N M wf).start (ix1 v) idx 0 = (idx (ix2 v (0 : Fin 1))).toInt := by rw [← hsi]; rfl
  have w0 : (flatDims N M wf).window (ix1 v) 0 = 0 := rfl
  constructor
  · intro h
    have h0 : (flatDims N M wf).start (ix1 v) idx 0 + ((flatDims N M wf).window (ix1 v) 0 : ℤ) = (g.val : ℤ) := h 0
    rw [e0, w0] at h0
    simpa using h0
  · intro hg
    have t0 : (flatDims N M wf).start (ix1 v) idx 0 + ((flatDims N M wf).window (ix1 v) 0 : ℤ) = (g.val : ℤ) := by
      rw [e0, w0, hg]; simp
    intro a
    match a with
    | ⟨0, _⟩ => exact t0

/-- A flat scatter-add (`x.at[idx].add(u)` over a vector): element `g` is the operand's plus the sum of the updates
    whose index, read signed, is `g`. -/
theorem scatterAdd_flat_apply {N M w : Nat} (d : ScatterDims ⟨1, ![N]⟩ ⟨2, ![M, 1]⟩ ⟨1, ![M]⟩)
    (huw : d.updateWindowDims = []) (hiw : d.insertedWindowDims = [0]) (hsd : d.scatterDimsToOperandDims = [0])
    (hiv : d.indexVectorDim = 1)
    (x : (⟨1, ![N]⟩ : Shape).Idx → EReal) (idx : IVec ⟨2, ![M, 1]⟩ w) (upd : (⟨1, ![M]⟩ : Shape).Idx → EReal)
    (g : Fin N) :
    Ideal.hostScatterAdd d x idx upd (ix1 g)
      = x (ix1 g) + ∑ v ∈ Finset.univ.filter (fun v : Fin M => (idx (ix2 v (0 : Fin 1))).toInt = (g.val : ℤ)), upd (ix1 v) := by
  obtain ⟨uw, iw, sd, iv, wf⟩ := d
  dsimp only at huw hiw hsd hiv
  subst huw hiw hsd hiv
  show x (ix1 g) + ∑ j ∈ Finset.univ.filter (fun j => (flatDims N M wf).resultIdx? j idx = some (ix1 g)), upd j = _
  congr 1
  -- the updates' index set is its one coordinate's range
  rw [Finset.sum_filter, Finset.sum_filter, sum_idx1]
  refine Finset.sum_congr rfl fun v _ => ?_
  simp only [flat_resultIdx?_iff]

/-- A row gather (`x[idx]` over the first axis of a matrix, the indices an [M × 1] column): row `e` of the result
    is the operand's row at `e`'s index read signed and clamped into `[0, N − 1]`. -/
theorem gather_rows_apply {α : Type} {N M D w : Nat} (hN : 0 < N) (d : GatherDims ⟨2, ![N, D]⟩ ⟨2, ![M, 1]⟩ ⟨2, ![M, D]⟩)
    (hoff : d.offsetDims = [1]) (hcoll : d.collapsedSliceDims = [0]) (hob : d.operandBatchingDims = [])
    (hsb : d.startIndicesBatchingDims = []) (hsim : d.startIndexMap = [0]) (hivd : d.indexVectorDim = 1)
    (hss : d.sliceSizes = ![1, D])
    (x : (⟨2, ![N, D]⟩ : Shape).Idx → α) (idx : IVec ⟨2, ![M, 1]⟩ w) (e : Fin M) (k : Fin D) :
    Host.gather d x idx (ix2 e k) = x (ix2 (⟨min (idx (ix2 e (0 : Fin 1))).toInt.toNat (N - 1), by omega⟩ : Fin N) k) := by
  obtain ⟨od, cd, ob, sb, sm, iv, ss, wf⟩ := d
  dsimp only at hoff hcoll hob hsb hsim hivd hss
  subst hoff hcoll hob hsb hsim hivd hss
  unfold Host.gather
  congr 1
  funext a
  apply Fin.ext
  match a with
  | ⟨0, _⟩ =>
    -- the row axis: collapsed, start-indexed; the start index of result `(e, k)` is read at `(e, 0)`
    have hsi : (GatherDims.mk (s := ⟨2, ![N, D]⟩) (si := ⟨2, ![M, 1]⟩) (t := ⟨2, ![M, D]⟩) [1] [0] [] [] [0] 1 ![1, D] wf).siIdx
        (ix2 e k) ⟨0, Nat.one_pos⟩ = ix2 e (0 : Fin 1) := by
      funext b
      match b with
      | ⟨0, _⟩ => rfl
      | ⟨1, _⟩ => rfl
    show min (idx _).toInt.toNat (N - 1) + 0 + 0 = min (idx (ix2 e (0 : Fin 1))).toInt.toNat (N - 1)
    rw [← hsi]; rfl
  | ⟨1, _⟩ =>
    -- the column axis: kept, not start-indexed: start 0, offset coordinate `k`
    show 0 + 0 + k.val = k.val
    omega

end Idealize.ShloMosaic.ScatterRead

end
-- ==== Proof.KI.KHost.lean ====
import proofs.«427309_j66967130079866_2_alg».proof.Proof.Gen.KernelIdeal.Regions
import proofs.«427309_j66967130079866_2_alg».proof.Proof.Spec
import proofs.«427309_j66967130079866_2_alg».proof.Proof.LibScatterRead
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

/-! # The host operations between the three kernel regions, read at an index

Before the first region the host builds the inverse square root of the in-degree (a scatter-add of ones at the
destination words, a comparison with zero, a reciprocal square root, a select) and appends it to the features as a
fifth column. Between the regions it normalises the source words, gathers the rows they name, and scatter-adds them
at the destination words. After the last region it reshapes the result and masks it. -/

variable (m : (ℓ : Loc nD τ sig) → Buf (Elt Ideal) ℓ) (outs : Outs (F := Ideal)) (c : Dev nD)

/-- The source words and the destination words of the edges (self loops appended), as region 0 finds them. -/
abbrev srcK : Cert.Gcn.IVc 1700000 := (V3 m c main_v3)
abbrev dstK : Cert.Gcn.IVc 1700000 := (V3 m c main_v6)

/-- Product, sum and equality of buffer reads, with the type they are taken at named: the extended reals, or the 32-bit
    words (a buffer's element type is one of the two only after unfolding). -/
local notation:70 a:70 " *ₑ " b:71 => (HMul.hMul : EReal → EReal → EReal) a b
local notation:65 a:65 " +ₑ " b:66 => (HAdd.hAdd : EReal → EReal → EReal) a b
local notation:50 a:51 " =ᵥ " b:51 => @Eq (BitVec 32) a b

/-! ## Reads shared by the stretches -/

namespace KH

/-- A vector laid as a one-column matrix reads, at row e, the vector at e. -/
theorem bcast_col_apply {α : Type} {N : Nat} (h : (⟨1, ![N]⟩ : Shape).BroadcastsInDim ⟨2, ![N, 1]⟩ ![0])
    (v : (⟨1, ![N]⟩ : Shape).Idx → α) (e : Fin N) :
    broadcastInDim ⟨2, ![N, 1]⟩ ![0] h v (ix2 e (0 : Fin 1)) = v (ix1 e) :=
  broadcastInDim_apply _ h v _ (ix1 e) (fun a => by
    have ha : a = 0 := Subsingleton.elim _ _
    subst ha
    have he := e.isLt
    show e.val = if N = 1 then 0 else e.val
    split <;> omega)

/-- The select that adds 100000 to a negative index word is the normalisation. -/
theorem norm_select (s : BitVec 32) :
    Scalar.select (IntOp.cmpi .slt s 0#32) (IntOp.addi s 100000#32) s = Cert.Gcn.norm s := by
  unfold Cert.Gcn.norm Scalar.select IntOp.cmpi IntOp.addi
  have hc : (BitVec.ofBool (s.slt 0#32) = 1) ↔ s.toInt < 0 := by
    rw [show (1 : BitVec 1) = 1#1 from rfl, StableHlo.Predicate.ofBool_eq_one_iff, BitVec.slt, decide_eq_true_eq]
    rfl
  exact if_congr hc rfl rfl

/-! ### Operations at an element (definitional, over any shape) -/

theorem scatterAdd_ideal {s si u : Shape} {w : Nat} {φ : FTy} (d : ScatterDims s si u) (x : FVec Ideal s φ) (idx : IVec si w)
    (upd : FVec Ideal u φ) : Host.scatterAdd (F := Ideal) d x idx upd = Ideal.hostScatterAdd d x idx upd := rfl
theorem cmpi_apply' {s : Shape} {w : Nat} (p : CmpIPredicate) (x y : IVec s w) (i : s.Idx) :
    cmpi p x y i = IntOp.cmpi p (x i) (y i) := rfl
theorem addi_apply' {s : Shape} {w : Nat} (x y : IVec s w) (i : s.Idx) : addi x y i = IntOp.addi (x i) (y i) := rfl
theorem andi_apply' {s : Shape} {w : Nat} (x y : IVec s w) (i : s.Idx) : andi x y i = IntOp.andi (x i) (y i) := rfl
theorem rsqrt_apply' {s : Shape} {φ : FTy} (x : FVec Ideal s φ) (i : s.Idx) : Host.rsqrt x i = Ideal.rsqrt (x i) := rfl
/-- A scalar constant broadcast to any shape reads the constant everywhere. -/
theorem bcast_const_apply {t : Shape} {φ : FTy} (h : S_.BroadcastsInDim t ![]) (b : BitVec φ.bits) (j : t.Idx) :
    broadcastInDim t ![] h (constant (F := Ideal) S_ φ b) j = Ideal.ofBits φ b := rfl
theorem bcast_constI_apply {t : Shape} {w : Nat} (h : S_.BroadcastsInDim t ![]) (b : BitVec w) (j : t.Idx) :
    broadcastInDim t ![] h (constantI S_ w b) j = b := rfl
/-- The clamped row of a gather is the specification's row. -/
theorem row_mk (s : BitVec 32) (h : min s.toInt.toNat (100000 - 1) < 100000) :
    (⟨min s.toInt.toNat (100000 - 1), h⟩ : Fin 100000) = Cert.Gcn.row s := rfl
/-- The kernel's aggregation at an element. -/
theorem aggK_ix2 (src dst : Cert.Gcn.IVc 1700000) (hs : Cert.Gcn.Mat 100000 128) (n : Fin 100000) (j : Fin 128) :
    Cert.Gcn.aggK src dst hs (ix2 n j)
      = 0 + ∑ e ∈ Finset.univ.filter (fun e : Fin 1700000 => (dst (ix1 e)).toInt = (n.val : ℤ)),
          hs (ix2 (Cert.Gcn.row (Cert.Gcn.norm (src (ix1 e)))) j) := rfl

/-- The normalise-gather-scatter of one aggregation, at an element: the sum, over the edges whose destination word
    is the node, of the rows the normalised source words name. -/
theorem agg_read (x : S100000x128.Idx → EReal) (src dst : S1700000.Idx → BitVec 32) (n : Fin 100000) (j : Fin 128) :
    Host.scatterAdd (F := Ideal) (φ := .f32) scatter_S100000x128_S1700000x1_S1700000x128_1_0_0_1
      (broadcastInDim S100000x128 ![] bcast_S_S100000x128 (constant (F := Ideal) S_ .f32 0x00000000#32))
      (broadcastInDim S1700000x1 ![0] bcast_S1700000_S1700000x1_0 dst)
      (extf (F := Ideal) .f32 (Host.gather gather_S100000x128_S1700000x1_S1700000x128_1_0_n_n_0_1_1128 (x : FVec Ideal S100000x128 .bf16)
          (broadcastInDim S1700000x1 ![0] bcast_S1700000_S1700000x1_0
            (select (cmpi .slt src (broadcastInDim S1700000 ![] bcast_S_S1700000 (constantI S_ 32 0#32)))
              (addi src (broadcastInDim S1700000 ![] bcast_S_S1700000 (constantI S_ 32 100000#32))) src))) bitsLt_bf16_f32)
      (ix2 n j)
    = Cert.Gcn.aggK src dst x (ix2 n j) := by
  have hb : ∀ (f : S1700000.Idx → BitVec 32) (v : Fin 1700000),
      broadcastInDim S1700000x1 ![0] bcast_S1700000_S1700000x1_0 f (ix2 v (0 : Fin 1)) = f (ix1 v) :=
    fun f v => bcast_col_apply _ f v
  have hc : ∀ (b : BitVec 32) (v : S1700000.Idx), broadcastInDim S1700000 ![] bcast_S_S1700000 (constantI S_ 32 b) v = b :=
    fun b v => rfl
  rw [scatterAdd_ideal, ScatterRead.scatterAdd_rows_apply scatter_S100000x128_S1700000x1_S1700000x128_1_0_0_1 rfl rfl rfl rfl,
    aggK_ix2, bcast_const_apply, Ideal.ofBits_zero_f32]
  simp only [hb, hc, extf_apply,
    ScatterRead.gather_rows_apply (N := 100000) (by decide) gather_S100000x128_S1700000x1_S1700000x128_1_0_n_n_0_1_1128 rfl rfl rfl rfl rfl rfl rfl,
    select_apply, cmpi_apply', addi_apply', norm_select, row_mk]

/-- A line of operations run in two parts. -/
theorem after_split (k : Nat) (l : List (HloOp τ sig (Elt Ideal))) (V : Valuation τ sig (Elt Ideal)) :
    StableHlo.after l V = StableHlo.after (l.drop k) (StableHlo.after (l.take k) V) := by
  induction k generalizing l V with
  | zero => rfl
  | succ k ih =>
    cases l with
    | nil => rfl
    | cons op ops =>
      simp only [List.drop_succ_cons, List.take_succ_cons, StableHlo.after_cons]
      exact ih ops _

end KH
open KH

namespace KH

/-- A comparison with zero selecting between two values is the conditional on the order. -/
theorem select_cmp_ogt (a b e : EReal) : Scalar.select (Ideal.cmp .ogt a 0) b e = if 0 < a then b else e := by
  unfold Scalar.select Ideal.cmp
  have hc : (BitVec.ofBool (decide (0 < a)) = 1) ↔ 0 < a := by
    rw [show (1 : BitVec 1) = 1#1 from rfl, StableHlo.Predicate.ofBool_eq_one_iff, decide_eq_true_eq]
  exact if_congr hc rfl rfl

theorem deg_def (dst : Cert.Gcn.IVc 1700000) (d : Fin 100000) :
    Cert.Gcn.deg dst d
      = 0 + ∑ _e ∈ Finset.univ.filter (fun e : Fin 1700000 => (dst (ix1 e)).toInt = (d.val : ℤ)), Ideal.ofBits .f32 0x3F800000#32 := rfl
theorem dinv_ix1 (dst : Cert.Gcn.IVc 1700000) (d : Fin 100000) :
    Cert.Gcn.dinv dst (ix1 d) = if 0 < Cert.Gcn.deg dst d then Ideal.rsqrt (Cert.Gcn.deg dst d) else 0 := rfl

/-- The scatter-add of ones at the destination words, at a node: its in-degree. -/
theorem deg_read (dst : S1700000.Idx → BitVec 32) (d : Fin 100000) :
    Host.scatterAdd (F := Ideal) (φ := .f32) scatter_S100000_S1700000x1_S1700000_n_0_0_1
      (broadcastInDim S100000 ![] bcast_S_S100000 (constant (F := Ideal) S_ .f32 0x00000000#32))
      (broadcastInDim S1700000x1 ![0] bcast_S1700000_S1700000x1_0 dst)
      (broadcastInDim S1700000 ![] bcast_S_S1700000 (constant (F := Ideal) S_ .f32 0x3F800000#32))
      (ix1 d)
    = Cert.Gcn.deg dst d := by
  have hb : ∀ (f : S1700000.Idx → BitVec 32) (v : Fin 1700000),
      broadcastInDim S1700000x1 ![0] bcast_S1700000_S1700000x1_0 f (ix2 v (0 : Fin 1)) = f (ix1 v) :=
    fun f v => bcast_col_apply _ f v
  have hc : ∀ (b : BitVec 32) (v : S1700000.Idx),
      broadcastInDim S1700000 ![] bcast_S_S1700000 (constant (F := Ideal) S_ .f32 b) v = Ideal.ofBits .f32 b :=
    fun b v => rfl
  rw [scatterAdd_ideal, ScatterRead.scatterAdd_flat_apply scatter_S100000_S1700000x1_S1700000_n_0_0_1 rfl rfl rfl rfl,
    deg_def, bcast_const_apply, Ideal.ofBits_zero_f32]
  simp only [hb, hc]

/-- The select of the outlined where, over any entry valuation. -/
theorem ops0_1_v14 (W : Valuation τ sig (Elt Ideal)) (d : Fin 100000) :
    (StableHlo.after hostOps0_1 W (Proc.devRef .tc main_v14) : S100000.Idx → EReal) (ix1 d)
      = Scalar.select ((W (Proc.devRef .tc main_v12) : S100000.Idx → BitVec 1) (ix1 d))
          ((W (Proc.devRef .tc main_v13) : S100000.Idx → EReal) (ix1 d))
          ((W (Proc.devRef .tc main_cst_2) : S_.Idx → EReal) (Shape.Idx.first h_S_)) := by
  after_results
  simp only [StableHlo.TRef.ofBuf, StableHlo.TRef.toBuf, cast_eq, id]
  rw [select_apply, StableHlo.Predicate.bcast_scalar bcast_S_S100000 h_S_]

/-- The operations of the first stretch after the destination words are built, over any valuation before them. -/
theorem ops0b_v6 (W : Valuation τ sig (Elt Ideal)) :
    StableHlo.after ((hostOps0 : List (HloOp τ sig (Elt Ideal))).drop 7) W (Proc.devRef .tc main_v6) = W (Proc.devRef .tc main_v6) := by
  simp only [hostOps0, List.drop_succ_cons, List.drop_zero]
  after_results

theorem ops0b_v12 (W : Valuation τ sig (Elt Ideal)) (d : Fin 100000) :
    (StableHlo.after ((hostOps0 : List (HloOp τ sig (Elt Ideal))).drop 7) W (Proc.devRef .tc main_v12) : S100000.Idx → BitVec 1) (ix1 d)
      = Ideal.cmp .ogt (Cert.Gcn.deg (W (Proc.devRef .tc main_v6)) d) 0 := by
  simp only [hostOps0, List.drop_succ_cons, List.drop_zero]
  after_results
  rw [cmpf_apply, deg_read, bcast_const_apply, Ideal.ofBits_zero_f32, Ideal.cmpf_def]

theorem ops0b_v13 (W : Valuation τ sig (Elt Ideal)) (d : Fin 100000) :
    (StableHlo.after ((hostOps0 : List (HloOp τ sig (Elt Ideal))).drop 7) W (Proc.devRef .tc main_v13) : S100000.Idx → EReal) (ix1 d)
      = Ideal.rsqrt (Cert.Gcn.deg (W (Proc.devRef .tc main_v6)) d) := by
  simp only [hostOps0, List.drop_succ_cons, List.drop_zero]
  after_results
  rw [rsqrt_apply', deg_read]

theorem ops0b_cst2 (W : Valuation τ sig (Elt Ideal)) (j : S_.Idx) :
    @Eq EReal ((StableHlo.after ((hostOps0 : List (HloOp τ sig (Elt Ideal))).drop 7) W (Proc.devRef .tc main_cst_2) : S_.Idx → EReal) j) 0 := by
  simp only [hostOps0, List.drop_succ_cons, List.drop_zero]
  after_results
  rw [constant_apply, Ideal.ofBits_zero_f32]

end KH

/-! ## The inverse square root of the in-degree -/

theorem kdinv_apply (d : Fin 100000) :
    (V3 m c main_v14 : S100000.Idx → EReal) (ix1 d) = Cert.Gcn.dinv (dstK m c) (ix1 d) := by
  have hV1 : V1 m c = StableHlo.after ((hostOps0 : List (HloOp τ sig (Elt Ideal))).drop 7)
      (StableHlo.after ((hostOps0 : List (HloOp τ sig (Elt Ideal))).take 7) (V0 m c)) := after_split 7 hostOps0 (V0 m c)
  have h6 : dstK m c = (StableHlo.after ((hostOps0 : List (HloOp τ sig (Elt Ideal))).take 7) (V0 m c)) (Proc.devRef .tc main_v6) := by
    show V3 m c main_v6 = _
    rw [V3_of m c main_v6 (by decide), V2_of m c main_v6 (by decide), hV1, ops0b_v6]
  rw [V3_of m c main_v14 (by decide)]
  show StableHlo.after hostOps0_1 (V1 m c) (Proc.devRef .tc main_v14) (ix1 d) = _
  rw [ops0_1_v14, hV1, ops0b_v12, ops0b_v13, ops0b_cst2, ← h6, dinv_ix1, select_cmp_ogt]

/-! ## The argument arrays are the launch memory's at every region's entry: no host operation writes them -/

namespace KH
theorem karg0_V2 : V2 m c main_arg0 = m ((c : Thread nD τ).loc main_arg0) :=
  (V2_of m c main_arg0 (by decide)).trans <| (V1_of m c main_arg0 (by decide)).trans rfl
end KH

theorem karg3_V3 : V3 m c main_arg3 = m ((c : Thread nD τ).loc main_arg3) :=
  (V3_of m c main_arg3 (by decide)).trans <| (V2_of m c main_arg3 (by decide)).trans <| (V1_of m c main_arg3 (by decide)).trans rfl
theorem karg4_V5 : V5 m outs c main_arg4 = m ((c : Thread nD τ).loc main_arg4) :=
  (V5_of m outs c main_arg4 (by decide)).trans <| (V4_of m outs c main_arg4 (by decide)).trans <| (V3_of m c main_arg4 (by decide)).trans <| (V2_of m c main_arg4 (by decide)).trans <| (V1_of m c main_arg4 (by decide)).trans rfl
theorem karg5_V5 : V5 m outs c main_arg5 = m ((c : Thread nD τ).loc main_arg5) :=
  (V5_of m outs c main_arg5 (by decide)).trans <| (V4_of m outs c main_arg5 (by decide)).trans <| (V3_of m c main_arg5 (by decide)).trans <| (V2_of m c main_arg5 (by decide)).trans <| (V1_of m c main_arg5 (by decide)).trans rfl
theorem karg6_V7 : V7 m outs c main_arg6 = m ((c : Thread nD τ).loc main_arg6) :=
  (V7_of m outs c main_arg6 (by decide)).trans <| (V6_of m outs c main_arg6 (by decide)).trans <| (V5_of m outs c main_arg6 (by decide)).trans <| (V4_of m outs c main_arg6 (by decide)).trans <| (V3_of m c main_arg6 (by decide)).trans <| (V2_of m c main_arg6 (by decide)).trans <| (V1_of m c main_arg6 (by decide)).trans rfl
theorem karg7_V7 : V7 m outs c main_arg7 = m ((c : Thread nD τ).loc main_arg7) :=
  (V7_of m outs c main_arg7 (by decide)).trans <| (V6_of m outs c main_arg7 (by decide)).trans <| (V5_of m outs c main_arg7 (by decide)).trans <| (V4_of m outs c main_arg7 (by decide)).trans <| (V3_of m c main_arg7 (by decide)).trans <| (V2_of m c main_arg7 (by decide)).trans <| (V1_of m c main_arg7 (by decide)).trans rfl
theorem karg8_V7 : V7 m outs c main_arg8 = m ((c : Thread nD τ).loc main_arg8) :=
  (V7_of m outs c main_arg8 (by decide)).trans <| (V6_of m outs c main_arg8 (by decide)).trans <| (V5_of m outs c main_arg8 (by decide)).trans <| (V4_of m outs c main_arg8 (by decide)).trans <| (V3_of m c main_arg8 (by decide)).trans <| (V2_of m c main_arg8 (by decide)).trans <| (V1_of m c main_arg8 (by decide)).trans rfl

/-! ## The features with the factor appended as a fifth column -/

namespace KH
/-- The appended array is the features beside the factor as a column. -/
theorem kxd_eq : (V3 m c main_v16 : S100000x5.Idx → EReal)
    = concatenate S100000x5 1 [⟨S100000x4, (V2 m c main_arg0 : S100000x4.Idx → EReal)⟩,
        ⟨S100000x1, broadcastInDim S100000x1 ![0] bcast_S100000_S100000x1_0 (V2 m c main_v14 : S100000.Idx → EReal)⟩]
        concatenates_S100000x4_S100000x1_S100000x5_d1 := by
  show StableHlo.after hostOps0_2 _ (Proc.devRef .tc main_v16) = _
  after_results
end KH

theorem kxd_left (n : Fin 100000) (q : Fin 4) :
    (V3 m c main_v16 : S100000x5.Idx → EReal) (ix2 n (Fin.castLE (by decide) q))
      = (m ((c : Thread nD τ).loc main_arg0) : S100000x4.Idx → EReal) (ix2 n q) := by
  rw [kxd_eq]
  exact (concatenate_pair_apply_left (t := S100000x5) (s₁ := S100000x4) (s₂ := S100000x1) (1 : Fin 2) _ _
    concatenates_S100000x4_S100000x1_S100000x5_d1 (ix2 n (Fin.castLE (by decide) q)) rfl (ix2 n q)
    (fun b => by fin_cases b <;> rfl)).trans (congrFun (karg0_V2 m c) _)

theorem kxd_last (n : Fin 100000) :
    (V3 m c main_v16 : S100000x5.Idx → EReal) (ix2 n (4 : Fin 5)) = (V3 m c main_v14 : S100000.Idx → EReal) (ix1 n) := by
  rw [kxd_eq]
  refine (concatenate_pair_apply_right (t := S100000x5) (s₁ := S100000x4) (s₂ := S100000x1) (1 : Fin 2) _ _
    concatenates_S100000x4_S100000x1_S100000x5_d1 (ix2 n (4 : Fin 5)) rfl rfl (ix2 n (0 : Fin 1))
    (fun b hb => ?_) rfl).trans ?_
  · fin_cases b
    · rfl
    · exact absurd rfl hb
  · rw [bcast_col_apply]
    exact (congrFun (V3_of m c main_v14 (by decide)) _).symm

/-! ## Between the first and the second region

Each stretch is read over an arbitrary entry valuation `W` first, so that only the stretch's own operations are
opened; the buffers it reads are then followed back to where they were written. -/

namespace KH

theorem ops1_v28 (W : Valuation τ sig (Elt Ideal)) (n : Fin 100000) (j : Fin 128) :
    (StableHlo.after hostOps1 W (Proc.devRef .tc main_v28) : S100000x128.Idx → EReal) (ix2 n j)
      = Cert.Gcn.aggK (W (Proc.devRef .tc main_v3)) (W (Proc.devRef .tc main_v6)) (W (Proc.devRef .tc main_v17)) (ix2 n j) := by
  after_results
  rw [agg_read]

theorem ops1_v29 (W : Valuation τ sig (Elt Ideal)) (n : Fin 100000) :
    (StableHlo.after hostOps1 W (Proc.devRef .tc main_v29) : S100000x1.Idx → EReal) (ix2 n (0 : Fin 1))
      = (W (Proc.devRef .tc main_v14) : S100000.Idx → EReal) (ix1 n) := by
  after_results
  rw [bcast_col_apply]

end KH

theorem kagg1_apply (n : Fin 100000) (j : Fin 128) :
    (V5 m outs c main_v28 : S100000x128.Idx → EReal) (ix2 n j)
      = Cert.Gcn.aggK (srcK m c) (dstK m c) (V4 m outs c main_v17 : S100000x128.Idx → EReal) (ix2 n j) :=
  (ops1_v28 (V4 m outs c) n j).trans (by rw [V4_of m outs c main_v3 (by decide), V4_of m outs c main_v6 (by decide)])

theorem kcol1_apply (n : Fin 100000) :
    (V5 m outs c main_v29 : S100000x1.Idx → EReal) (ix2 n (0 : Fin 1)) = (V3 m c main_v14 : S100000.Idx → EReal) (ix1 n) :=
  (ops1_v29 (V4 m outs c) n).trans (by rw [V4_of m outs c main_v14 (by decide)])

/-! ## Between the second and the third region -/

namespace KH

theorem ops2_v41 (W : Valuation τ sig (Elt Ideal)) (n : Fin 100000) (j : Fin 128) :
    (StableHlo.after hostOps2 W (Proc.devRef .tc main_v41) : S100000x128.Idx → EReal) (ix2 n j)
      = Cert.Gcn.aggK (W (Proc.devRef .tc main_v3)) (W (Proc.devRef .tc main_v6)) (W (Proc.devRef .tc main_v30)) (ix2 n j) := by
  after_results
  rw [agg_read]

theorem ops2_v43 (W : Valuation τ sig (Elt Ideal)) (n : Fin 100000) :
    (StableHlo.after hostOps2 W (Proc.devRef .tc main_v43) : S100000x1.Idx → EReal) (ix2 n (0 : Fin 1))
      = (W (Proc.devRef .tc main_v14) : S100000.Idx → EReal) (ix1 n) := by
  after_results
  rw [bcast_col_apply]

theorem ops2_v42 (W : Valuation τ sig (Elt Ideal)) (n : Fin 100000) :
    (StableHlo.after hostOps2 W (Proc.devRef .tc main_v42) : S100000x1.Idx → BitVec 32) (ix2 n (0 : Fin 1))
      = (W (Proc.devRef .tc main_arg2) : S100000.Idx → BitVec 32) (ix1 n) := by
  after_results
  rw [bcast_col_apply]

end KH

theorem kagg2_apply (n : Fin 100000) (j : Fin 128) :
    (V7 m outs c main_v41 : S100000x128.Idx → EReal) (ix2 n j)
      = Cert.Gcn.aggK (srcK m c) (dstK m c) (V6 m outs c main_v30 : S100000x128.Idx → EReal) (ix2 n j) :=
  (ops2_v41 (V6 m outs c) n j).trans (by
    rw [V6_of m outs c main_v3 (by decide), V5_of m outs c main_v3 (by decide), V4_of m outs c main_v3 (by decide),
      V6_of m outs c main_v6 (by decide), V5_of m outs c main_v6 (by decide), V4_of m outs c main_v6 (by decide)])

theorem kcol2_apply (n : Fin 100000) :
    (V7 m outs c main_v43 : S100000x1.Idx → EReal) (ix2 n (0 : Fin 1)) = (V3 m c main_v14 : S100000.Idx → EReal) (ix1 n) :=
  (ops2_v43 (V6 m outs c) n).trans (by
    rw [V6_of m outs c main_v14 (by decide), V5_of m outs c main_v14 (by decide), V4_of m outs c main_v14 (by decide)])

theorem kbatch_apply (n : Fin 100000) :
    (V7 m outs c main_v42 : S100000x1.Idx → BitVec 32) (ix2 n (0 : Fin 1))
      = (m ((c : Thread nD τ).loc main_arg2) : S100000.Idx → BitVec 32) (ix1 n) :=
  (ops2_v42 (V6 m outs c) n).trans (by
    rw [V6_of m outs c main_arg2 (by decide), V5_of m outs c main_arg2 (by decide), V4_of m outs c main_arg2 (by decide),
      V3_of m c main_arg2 (by decide), V2_of m c main_arg2 (by decide), V1_of m c main_arg2 (by decide)])

/-! ## The kernel's arrangement at an element (definitional) -/

namespace KH
section SpecAt
open Cert.Gcn
variable (x : Mat 100000 4) (src dst : IVc 1700000) (batch : IVc 100000) (dv : Vc 100000)
  (W1 : Mat 4 128) (b1 : Vc 128) (W2 : Mat 128 128) (b2 : Vc 128) (Wfc : Mat 128 40) (bfc : Vc 40)

theorem h1K_ix2 (n : Fin 100000) (j : Fin 128) :
    h1K x dv W1 (ix2 n j) = (∑ q : Fin 4, x (ix2 n q) * W1 (ix2 q j)) * dv (ix1 n) := rfl
theorem act1K_ix2 (n : Fin 100000) (j : Fin 128) :
    act1K x src dst dv W1 b1 (ix2 n j) = Ideal.tanh (aggK src dst (h1K x dv W1) (ix2 n j) * dv (ix1 n) + b1 (ix1 j)) := rfl
theorem h2K_ix2 (n : Fin 100000) (j : Fin 128) :
    h2K x src dst dv W1 b1 W2 (ix2 n j)
      = (∑ q : Fin 128, act1K x src dst dv W1 b1 (ix2 n q) * W2 (ix2 q j)) * dv (ix1 n) := rfl
theorem act2K_ix2 (n : Fin 100000) (j : Fin 128) :
    act2K x src dst dv W1 b1 W2 b2 (ix2 n j)
      = Ideal.tanh (aggK src dst (h2K x src dst dv W1 b1 W2) (ix2 n j) * dv (ix1 n) + b2 (ix1 j)) := rfl
theorem velK_ix2 (q : Fin 40) :
    velK x src dst batch dv W1 b1 W2 b2 Wfc bfc (ix2 (0 : Fin 1) q)
      = (∑ j : Fin 128, Ideal.div
            (∑ n : Fin 100000, act2K x src dst dv W1 b1 W2 b2 (ix2 n j) * (if batch (ix1 n) = 0#32 then 1 else 0))
            (max (∑ n : Fin 100000, (if batch (ix1 n) = 0#32 then (1 : EReal) else 0)) one)
          * Wfc (ix2 j q))
        + bfc (ix1 q) := rfl

end SpecAt
end KH

/-! ## The three regions' results composed: the kernel's arrangement -/

theorem kvel_apply
    (h17 : ∀ (n : Fin 100000) (j : Fin 128), (V4 m outs c main_v17 : S100000x128.Idx → EReal) (ix2 n j)
        = (∑ q : Fin 4, (V3 m c main_v16 : S100000x5.Idx → EReal) (ix2 n (Fin.castLE (by decide) q)) *ₑ (V3 m c main_arg3 : S4x128.Idx → EReal) (ix2 q j))
            *ₑ (V3 m c main_v16 : S100000x5.Idx → EReal) (ix2 n (4 : Fin 5)))
    (h30 : ∀ (n : Fin 100000) (j : Fin 128), (V6 m outs c main_v30 : S100000x128.Idx → EReal) (ix2 n j)
        = (∑ q : Fin 128, Ideal.tanh ((V5 m outs c main_v28 : S100000x128.Idx → EReal) (ix2 n q) *ₑ (V5 m outs c main_v29 : S100000x1.Idx → EReal) (ix2 n (0 : Fin 1)) +ₑ (V5 m outs c main_arg4 : S128.Idx → EReal) (ix1 q))
              *ₑ (V5 m outs c main_arg5 : S128x128.Idx → EReal) (ix2 q j))
            *ₑ (V5 m outs c main_v29 : S100000x1.Idx → EReal) (ix2 n (0 : Fin 1)))
    (h44 : ∀ q : Fin 40, (V8 m outs c main_v44 : S1x40.Idx → EReal) (ix2 (0 : Fin 1) q)
        = (∑ j : Fin 128, Ideal.div
              (∑ n : Fin 100000, Ideal.tanh ((V7 m outs c main_v41 : S100000x128.Idx → EReal) (ix2 n j) *ₑ (V7 m outs c main_v43 : S100000x1.Idx → EReal) (ix2 n (0 : Fin 1)) +ₑ (V7 m outs c main_arg6 : S128.Idx → EReal) (ix1 j))
                  *ₑ (if (V7 m outs c main_v42 : S100000x1.Idx → BitVec 32) (ix2 n (0 : Fin 1)) =ᵥ 0#32 then (1 : EReal) else 0))
              (max (∑ n : Fin 100000, (if (V7 m outs c main_v42 : S100000x1.Idx → BitVec 32) (ix2 n (0 : Fin 1)) =ᵥ 0#32 then (1 : EReal) else 0)) Cert.Gcn.one)
            *ₑ (V7 m outs c main_arg7 : S128x40.Idx → EReal) (ix2 j q))
          +ₑ (V7 m outs c main_arg8 : S40.Idx → EReal) (ix1 q))
    (q : Fin 40) :
    (V8 m outs c main_v44 : S1x40.Idx → EReal) (ix2 (0 : Fin 1) q)
      = Cert.Gcn.velK (m ((c : Thread nD τ).loc main_arg0)) (srcK m c) (dstK m c) (m ((c : Thread nD τ).loc main_arg2))
          (Cert.Gcn.dinv (dstK m c)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (ix2 (0 : Fin 1) q) := by
  have E17 : (V4 m outs c main_v17 : Cert.Gcn.Mat 100000 128)
      = Cert.Gcn.h1K (m ((c : Thread nD τ).loc main_arg0)) (Cert.Gcn.dinv (dstK m c)) (m ((c : Thread nD τ).loc main_arg3)) := by
    funext i
    obtain ⟨n, j, rfl⟩ : ∃ n j, i = ix2 n j := ⟨i 0, i 1, eq_ix2 i⟩
    rw [h17, h1K_ix2]
    simp only [kxd_left m c, kxd_last m c, kdinv_apply m c, karg3_V3 m c]
  have E28 : (V5 m outs c main_v28 : Cert.Gcn.Mat 100000 128)
      = Cert.Gcn.aggK (srcK m c) (dstK m c)
          (Cert.Gcn.h1K (m ((c : Thread nD τ).loc main_arg0)) (Cert.Gcn.dinv (dstK m c)) (m ((c : Thread nD τ).loc main_arg3))) := by
    funext i
    obtain ⟨n, j, rfl⟩ : ∃ n j, i = ix2 n j := ⟨i 0, i 1, eq_ix2 i⟩
    rw [kagg1_apply, E17]
  have E30 : (V6 m outs c main_v30 : Cert.Gcn.Mat 100000 128)
      = Cert.Gcn.h2K (m ((c : Thread nD τ).loc main_arg0)) (srcK m c) (dstK m c) (Cert.Gcn.dinv (dstK m c))
          (m ((c : Thread nD τ).loc main_arg3)) (m ((c : Thread nD τ).loc main_arg4)) (m ((c : Thread nD τ).loc main_arg5)) := by
    funext i
    obtain ⟨n, j, rfl⟩ : ∃ n j, i = ix2 n j := ⟨i 0, i 1, eq_ix2 i⟩
    rw [h30, h2K_ix2]
    simp only [act1K_ix2, E28, kcol1_apply m outs c, kdinv_apply m c, karg4_V5 m outs c, karg5_V5 m outs c]
  have E41 : (V7 m outs c main_v41 : Cert.Gcn.Mat 100000 128)
      = Cert.Gcn.aggK (srcK m c) (dstK m c)
          (Cert.Gcn.h2K (m ((c : Thread nD τ).loc main_arg0)) (srcK m c) (dstK m c) (Cert.Gcn.dinv (dstK m c))
            (m ((c : Thread nD τ).loc main_arg3)) (m ((c : Thread nD τ).loc main_arg4)) (m ((c : Thread nD τ).loc main_arg5))) := by
    funext i
    obtain ⟨n, j, rfl⟩ : ∃ n j, i = ix2 n j := ⟨i 0, i 1, eq_ix2 i⟩
    rw [kagg2_apply, E30]
  rw [h44, velK_ix2]
  simp only [act2K_ix2, E41, kcol2_apply m outs c, kdinv_apply m c, kbatch_apply m outs c, karg6_V7 m outs c, karg7_V7 m outs c,
    karg8_V7 m outs c]

end Cert.KernelIdeal.Hand

end
-- ==== Proof.KI.KHostB.lean ====
import proofs.«427309_j66967130079866_2_alg».proof.Proof.Gen.KernelIdeal.Regions
import proofs.«427309_j66967130079866_2_alg».proof.Proof.Spec
import proofs.«427309_j66967130079866_2_alg».proof.Proof.LibScatterRead
import Idealize.ShloMosaic.Lib.StableHlo.Run
import Idealize.ShloMosaic.Lib.StableHlo.Predicate
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Hand

open Cert.KernelIdeal Cert.KernelIdeal.Gen
open Idealize.ShloMosaic Idealize.ShloMosaic.TcCoe Idealize.ShloMosaic.ValueIdx

/-! # The host operations after the last region: the result reshaped and masked -/

/-! ## After the last region -/

namespace KHB

variable (m : (ℓ : Loc nD τ sig) → Buf (Elt Ideal) ℓ) (outs : Outs (F := Ideal)) (c : Dev nD)

theorem karg0_V8 : V8 m outs c main_arg0 = m ((c : Thread nD τ).loc main_arg0) :=
  (V8_of m outs c main_arg0 (by decide)).trans <| (V7_of m outs c main_arg0 (by decide)).trans <| (V6_of m outs c main_arg0 (by decide)).trans <| (V5_of m outs c main_arg0 (by decide)).trans <| (V4_of m outs c main_arg0 (by decide)).trans <| (V3_of m c main_arg0 (by decide)).trans <| (V2_of m c main_arg0 (by decide)).trans <| (V1_of m c main_arg0 (by decide)).trans rfl

/-- A buffer's contents read at the buffer's own literal type are the contents. -/
theorem to_main_v61 (p1 : main_v61.ty = (⟨S1x20x2, .f32⟩ : BufTy)) (p2 : main_v61.space ≠ .host) (p3 : main_v61.isScoped = false) (v : (⟨S1x20x2, .f32⟩ : BufTy).Contents (Elt Ideal)) :
    (StableHlo.TRef.of main_v61 p1 p2 p3).toBuf v = v := rfl
theorem of_main_v61 (p1 : main_v61.ty = (⟨S1x20x2, .f32⟩ : BufTy)) (p2 : main_v61.space ≠ .host) (p3 : main_v61.isScoped = false) (v : (⟨S1x20x2, .f32⟩ : BufTy).Contents (Elt Ideal)) :
    (StableHlo.TRef.of main_v61 p1 p2 p3).ofBuf v = v := rfl
theorem to_main_call1_v1 (p1 : main_call1_v1.ty = (⟨S1x20x2, .i1⟩ : BufTy)) (p2 : main_call1_v1.space ≠ .host) (p3 : main_call1_v1.isScoped = false) (v : (⟨S1x20x2, .i1⟩ : BufTy).Contents (Elt Ideal)) :
    (StableHlo.TRef.of main_call1_v1 p1 p2 p3).toBuf v = v := rfl
theorem of_main_call1_v1 (p1 : main_call1_v1.ty = (⟨S1x20x2, .i1⟩ : BufTy)) (p2 : main_call1_v1.space ≠ .host) (p3 : main_call1_v1.isScoped = false) (v : (⟨S1x20x2, .i1⟩ : BufTy).Contents (Elt Ideal)) :
    (StableHlo.TRef.of main_call1_v1 p1 p2 p3).ofBuf v = v := rfl
theorem to_main_v60 (p1 : main_v60.ty = (⟨S1x20x1, .i1⟩ : BufTy)) (p2 : main_v60.space ≠ .host) (p3 : main_v60.isScoped = false) (v : (⟨S1x20x1, .i1⟩ : BufTy).Contents (Elt Ideal)) :
    (StableHlo.TRef.of main_v60 p1 p2 p3).toBuf v = v := rfl
theorem of_main_v60 (p1 : main_v60.ty = (⟨S1x20x1, .i1⟩ : BufTy)) (p2 : main_v60.space ≠ .host) (p3 : main_v60.isScoped = false) (v : (⟨S1x20x1, .i1⟩ : BufTy).Contents (Elt Ideal)) :
    (StableHlo.TRef.of main_v60 p1 p2 p3).ofBuf v = v := rfl
theorem to_main_v45 (p1 : main_v45.ty = (⟨S1x20x2, .f32⟩ : BufTy)) (p2 : main_v45.space ≠ .host) (p3 : main_v45.isScoped = false) (v : (⟨S1x20x2, .f32⟩ : BufTy).Contents (Elt Ideal)) :
    (StableHlo.TRef.of main_v45 p1 p2 p3).toBuf v = v := rfl
theorem of_main_v45 (p1 : main_v45.ty = (⟨S1x20x2, .f32⟩ : BufTy)) (p2 : main_v45.space ≠ .host) (p3 : main_v45.isScoped = false) (v : (⟨S1x20x2, .f32⟩ : BufTy).Contents (Elt Ideal)) :
    (StableHlo.TRef.of main_v45 p1 p2 p3).ofBuf v = v := rfl
theorem to_main_call1_v2 (p1 : main_call1_v2.ty = (⟨S1x20x2, .f32⟩ : BufTy)) (p2 : main_call1_v2.space ≠ .host) (p3 : main_call1_v2.isScoped = false) (v : (⟨S1x20x2, .f32⟩ : BufTy).Contents (Elt Ideal)) :
    (StableHlo.TRef.of main_call1_v2 p1 p2 p3).toBuf v = v := rfl
theorem of_main_call1_v2 (p1 : main_call1_v2.ty = (⟨S1x20x2, .f32⟩ : BufTy)) (p2 : main_call1_v2.space ≠ .host) (p3 : main_call1_v2.isScoped = false) (v : (⟨S1x20x2, .f32⟩ : BufTy).Contents (Elt Ideal)) :
    (StableHlo.TRef.of main_call1_v2 p1 p2 p3).ofBuf v = v := rfl
theorem to_main_call1_v0 (p1 : main_call1_v0.ty = (⟨S_, .f32⟩ : BufTy)) (p2 : main_call1_v0.space ≠ .host) (p3 : main_call1_v0.isScoped = false) (v : (⟨S_, .f32⟩ : BufTy).Contents (Elt Ideal)) :
    (StableHlo.TRef.of main_call1_v0 p1 p2 p3).toBuf v = v := rfl
theorem of_main_call1_v0 (p1 : main_call1_v0.ty = (⟨S_, .f32⟩ : BufTy)) (p2 : main_call1_v0.space ≠ .host) (p3 : main_call1_v0.isScoped = false) (v : (⟨S_, .f32⟩ : BufTy).Contents (Elt Ideal)) :
    (StableHlo.TRef.of main_call1_v0 p1 p2 p3).ofBuf v = v := rfl
theorem to_main_cst_11 (p1 : main_cst_11.ty = (⟨S_, .f32⟩ : BufTy)) (p2 : main_cst_11.space ≠ .host) (p3 : main_cst_11.isScoped = false) (v : (⟨S_, .f32⟩ : BufTy).Contents (Elt Ideal)) :
    (StableHlo.TRef.of main_cst_11 p1 p2 p3).toBuf v = v := rfl
theorem of_main_cst_11 (p1 : main_cst_11.ty = (⟨S_, .f32⟩ : BufTy)) (p2 : main_cst_11.space ≠ .host) (p3 : main_cst_11.isScoped = false) (v : (⟨S_, .f32⟩ : BufTy).Contents (Elt Ideal)) :
    (StableHlo.TRef.of main_cst_11 p1 p2 p3).ofBuf v = v := rfl

/-- A reshape's result, the element type's transport (an identity) removed. -/
theorem resh_main_v45 (he : main_v44.ty.elt = main_v45.ty.elt) (hn : main_v44.ty.shape.ShapeCasts main_v45.ty.shape) (hx hy) (F : Valuation τ sig (Elt Ideal)) :
    (StableHlo.reshape main_v44 main_v45 he hn hx hy : HloOp τ sig (Elt Ideal)).result F (no_index (Proc.devRef .tc main_v45))
      = (shapeCast S1x20x2 (F (Proc.devRef .tc main_v44) : S1x40.Idx → EReal) hn : S1x20x2.Idx → EReal) :=
  (StableHlo.reshape_result main_v44 main_v45 he hn hx hy F).trans rfl
theorem resh_main_v47 (he : main_v46.ty.elt = main_v47.ty.elt) (hn : main_v46.ty.shape.ShapeCasts main_v47.ty.shape) (hx hy) (F : Valuation τ sig (Elt Ideal)) :
    (StableHlo.reshape main_v46 main_v47 he hn hx hy : HloOp τ sig (Elt Ideal)).result F (no_index (Proc.devRef .tc main_v47))
      = (shapeCast S100000 (F (Proc.devRef .tc main_v46) : S100000x1.Idx → EReal) hn : S100000.Idx → EReal) :=
  (StableHlo.reshape_result main_v46 main_v47 he hn hx hy F).trans rfl
theorem resh_main_v51 (he : main_v50.ty.elt = main_v51.ty.elt) (hn : main_v50.ty.shape.ShapeCasts main_v51.ty.shape) (hx hy) (F : Valuation τ sig (Elt Ideal)) :
    (StableHlo.reshape main_v50 main_v51 he hn hx hy : HloOp τ sig (Elt Ideal)).result F (no_index (Proc.devRef .tc main_v51))
      = (shapeCast S100000 (F (Proc.devRef .tc main_v50) : S100000x1.Idx → EReal) hn : S100000.Idx → EReal) :=
  (StableHlo.reshape_result main_v50 main_v51 he hn hx hy F).trans rfl

end KHB

variable (m : (ℓ : Loc nD τ sig) → Buf (Elt Ideal) ℓ) (outs : Outs (F := Ideal)) (c : Dev nD)

/-- The tail: the [1,40] result reshaped to [1,20,2] and masked to its first rows, their number the count of the
    nodes whose first two features are both nonzero; as one function of the last region's result and the features. -/
def tailK (vel : (⟨S1x40, .f32⟩ : BufTy).Contents (Elt Ideal)) (x0 : (⟨S100000x4, .f32⟩ : BufTy).Contents (Elt Ideal)) :
    (⟨S1x20x2, .f32⟩ : BufTy).Contents (Elt Ideal) :=
  select
    (broadcastInDim S1x20x2 ![0, 1, 2] bcast_S1x20x1_S1x20x2_0_1_2
      (broadcastInDim S1x20x1 ![1] bcast_S20_S1x20x1_1
        (cmpi .slt (iotaInDim S20 32 0)
          (broadcastInDim S20 ![] bcast_S_S20
            (Host.reduce IntOp.addi
              (extui 32
                (andi
                  (cmpf (F := Ideal) .une
                    (shapeCast S100000 (extractStridedSlice S100000x1 ![0, 0] x0 slices_S100000x4_S100000x1_0_0) shapeCasts_S100000x1_S100000)
                    (broadcastInDim S100000 ![] bcast_S_S100000 (constant (F := Ideal) S_ .f32 0x00000000#32)))
                  (cmpf (F := Ideal) .une
                    (shapeCast S100000 (extractStridedSlice S100000x1 ![0, 1] x0 slices_S100000x4_S100000x1_0_1) shapeCasts_S100000x1_S100000)
                    (broadcastInDim S100000 ![] bcast_S_S100000 (constant (F := Ideal) S_ .f32 0x00000000#32))))
                natLt_1_32)
              (constantI S_ 32 0#32) reducesTo_S100000_S_d0 h_S_)))))
    (shapeCast S1x20x2 vel shapeCasts_S1x40_S1x20x2)
    (broadcastInDim S1x20x2 ![] bcast_S_S1x20x2 (constant (F := Ideal) S_ .f32 0x00000000#32))

open StableHlo in
set_option maxHeartbeats 8000000 in
/-- The program's result is the tail of the last region's result and the features: the host operations after the last
    region, composed. -/
theorem kres_eq_tail :
    V10 m outs c main_v61 = tailK (V8 m outs c main_v44) (m ((c : Thread nD τ).loc main_arg0)) := by
  rw [← KHB.karg0_V8 m outs c]
  show StableHlo.after hostOps3_1 (StableHlo.after hostOps3 (V8 m outs c)) (Proc.devRef .tc main_v61) = _
  simp (disch := decide) only [after_cons, after_nil, KHB.resh_main_v45, KHB.resh_main_v47, KHB.resh_main_v51,
      nullary_result', unary_result', binary_result', ternary_result', quaternary_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']
  rw [KHB.to_main_v61, KHB.of_main_call1_v1, KHB.to_main_call1_v1, KHB.of_main_v60, KHB.of_main_v45, KHB.of_main_call1_v2, KHB.to_main_call1_v2, KHB.of_main_call1_v0, KHB.to_main_call1_v0, KHB.of_main_cst_11]
  rfl

end Cert.KernelIdeal.Hand

end
-- ==== Proof.RefAgg.lean ====
/-
  The reference program's two aggregations read at an element: the normalisation of the index words, the row
  gather of the features, the two flat gathers of the degree factor, their product, and the scatter-add at the raw
  destination words are, at a node and a column, the specification's reference aggregation.
-/
import proofs.«427309_j66967130079866_2_alg».proof.Proof.RefRead
import proofs.«427309_j66967130079866_2_alg».proof.Proof.Spec
import proofs.«427309_j66967130079866_2_alg».proof.Proof.LibScatterRead
import Idealize.ShloMosaic.Lib.StableHlo.Predicate
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.ReferenceIdeal.RefAgg

open Cert.ReferenceIdeal Cert.ReferenceIdeal.Gen
open Idealize.ShloMosaic Idealize.ShloMosaic.TcCoe Idealize.ShloMosaic.ValueIdx

/-! ## Operations at an element -/

theorem scatterAdd_ideal {s si u : Shape} {w : Nat} {φ : FTy} (d : ScatterDims s si u) (x : FVec Ideal s φ) (idx : IVec si w)
    (upd : FVec Ideal u φ) : Host.scatterAdd (F := Ideal) d x idx upd = Ideal.hostScatterAdd d x idx upd := rfl
theorem cmpi_apply' {s : Shape} {w : Nat} (p : CmpIPredicate) (x y : IVec s w) (i : s.Idx) :
    cmpi p x y i = IntOp.cmpi p (x i) (y i) := rfl
theorem addi_apply' {s : Shape} {w : Nat} (x y : IVec s w) (i : s.Idx) : addi x y i = IntOp.addi (x i) (y i) := rfl
/-- A scalar constant broadcast to any shape reads the constant everywhere. -/
theorem bcast_const_apply {t : Shape} {φ : FTy} (h : S_.BroadcastsInDim t ![]) (b : BitVec φ.bits) (j : t.Idx) :
    broadcastInDim t ![] h (constant (F := Ideal) S_ φ b) j = Ideal.ofBits φ b := rfl

/-- A vector laid as a one-column matrix reads, at row e, the vector at e. -/
theorem bcast_col_apply {α : Type} {N : Nat} (h : (⟨1, ![N]⟩ : Shape).BroadcastsInDim ⟨2, ![N, 1]⟩ ![0])
    (v : (⟨1, ![N]⟩ : Shape).Idx → α) (e : Fin N) :
    broadcastInDim ⟨2, ![N, 1]⟩ ![0] h v (ix2 e (0 : Fin 1)) = v (ix1 e) :=
  broadcastInDim_apply _ h v _ (ix1 e) (fun a => by
    have ha : a = 0 := Subsingleton.elim _ _
    subst ha
    have he := e.isLt
    show e.val = if N = 1 then 0 else e.val
    split <;> omega)

/-- A one-column matrix repeated along its second axis reads, at (v, k), the column at v. -/
theorem bcast_cols_apply {α : Type} {N D : Nat} (h : (⟨2, ![N, 1]⟩ : Shape).BroadcastsInDim ⟨2, ![N, D]⟩ ![0, 1])
    (f : (⟨2, ![N, 1]⟩ : Shape).Idx → α) (v : Fin N) (k : Fin D) :
    broadcastInDim ⟨2, ![N, D]⟩ ![0, 1] h f (ix2 v k) = f (ix2 v (0 : Fin 1)) :=
  broadcastInDim_apply _ h f _ (ix2 v (0 : Fin 1)) (fun a => match a with
    | ⟨0, _⟩ => by
      have hv := v.isLt
      show v.val = if N = 1 then 0 else v.val
      split <;> omega
    | ⟨1, _⟩ => by
      show 0 = if (1 : Nat) = 1 then 0 else k.val
      rw [if_pos rfl])

/-- The select that adds 100000 to a negative index word is the normalisation. -/
theorem norm_select (s : BitVec 32) :
    Scalar.select (IntOp.cmpi .slt s 0#32) (IntOp.addi s 100000#32) s = Cert.Gcn.norm s := by
  unfold Cert.Gcn.norm Scalar.select IntOp.cmpi IntOp.addi
  have hc : (BitVec.ofBool (s.slt 0#32) = 1) ↔ s.toInt < 0 := by
    rw [show (1 : BitVec 1) = 1#1 from rfl, StableHlo.Predicate.ofBool_eq_one_iff, BitVec.slt, decide_eq_true_eq]
    rfl
  exact if_congr hc rfl rfl

/-- The clamped row of a gather is the specification's row. -/
theorem row_mk (s : BitVec 32) (h : min s.toInt.toNat (100000 - 1) < 100000) :
    (⟨min s.toInt.toNat (100000 - 1), h⟩ : Fin 100000) = Cert.Gcn.row s := rfl

/-- A flat gather (the indices an [M × 1] column): element e of the result is the operand at e's index word read
    signed and clamped into [0, N − 1]. -/
theorem gather_flat_apply {α : Type} {N M w : Nat} (hN : 0 < N) (d : GatherDims ⟨1, ![N]⟩ ⟨2, ![M, 1]⟩ ⟨1, ![M]⟩)
    (hoff : d.offsetDims = []) (hcoll : d.collapsedSliceDims = [0]) (hob : d.operandBatchingDims = [])
    (hsb : d.startIndicesBatchingDims = []) (hsim : d.startIndexMap = [0]) (hivd : d.indexVectorDim = 1)
    (hss : d.sliceSizes = ![1])
    (x : (⟨1, ![N]⟩ : Shape).Idx → α) (idx : IVec ⟨2, ![M, 1]⟩ w) (e : Fin M) :
    Host.gather d x idx (ix1 e) = x (ix1 (⟨min (idx (ix2 e (0 : Fin 1))).toInt.toNat (N - 1), by omega⟩ : Fin N)) := by
  obtain ⟨od, cd, ob, sb, sm, iv, ss, wf⟩ := d
  dsimp only at hoff hcoll hob hsb hsim hivd hss
  subst hoff hcoll hob hsb hsim hivd hss
  unfold Host.gather
  congr 1
  funext a
  apply Fin.ext
  match a with
  | ⟨0, _⟩ =>
    -- the one operand axis: collapsed, start-indexed; the start index of result e is read at (e, 0)
    have hsi : (GatherDims.mk (s := ⟨1, ![N]⟩) (si := ⟨2, ![M, 1]⟩) (t := ⟨1, ![M]⟩) [] [0] [] [] [0] 1 ![1] wf).siIdx
        (ix1 e) ⟨0, Nat.one_pos⟩ = ix2 e (0 : Fin 1) := by
      funext b
      match b with
      | ⟨0, _⟩ => rfl
      | ⟨1, _⟩ => rfl
    show min (idx _).toInt.toNat (N - 1) + 0 + 0 = min (idx (ix2 e (0 : Fin 1))).toInt.toNat (N - 1)
    rw [← hsi]; rfl

/-- The reference's aggregation at an element. -/
theorem aggR_ix2 (src dst : Cert.Gcn.IVc 1700000) (dv : Cert.Gcn.Vc 100000) (h : Cert.Gcn.Mat 100000 128) (n : Fin 100000)
    (j : Fin 128) :
    Cert.Gcn.aggR src dst dv h (ix2 n j)
      = 0 + ∑ e ∈ Finset.univ.filter (fun e : Fin 1700000 => (dst (ix1 e)).toInt = (n.val : ℤ)),
          h (ix2 (Cert.Gcn.row (Cert.Gcn.norm (src (ix1 e)))) j)
            * (dv (ix1 (Cert.Gcn.row (Cert.Gcn.norm (src (ix1 e))))) * dv (ix1 (Cert.Gcn.row (Cert.Gcn.norm (dst (ix1 e)))))) := rfl

/-- The index words normalised: 100000 added where the word is negative. -/
abbrev normSel (s : IVec S1700000 32) : IVec S1700000 32 :=
  select (cmpi .slt s (broadcastInDim S1700000 ![] bcast_S_S1700000 (constantI S_ 32 0#32)))
    (addi s (broadcastInDim S1700000 ![] bcast_S_S1700000 (constantI S_ 32 100000#32))) s

/-- One aggregation of the reference, at an element: the sum, over the edges whose destination word is the node, of
    the row the normalised source word names, weighed by the factor at the source's row and at the destination's. -/
theorem aggR_read (h : S100000x128.Idx → EReal) (dv : S100000.Idx → EReal) (src dst : S1700000.Idx → BitVec 32)
    (n : Fin 100000) (j : Fin 128) :
    Host.scatterAdd (F := Ideal) (φ := .f32) scatter_S100000x128_S1700000x1_S1700000x128_1_0_0_1
      (broadcastInDim S100000x128 ![] bcast_S_S100000x128 (constant (F := Ideal) S_ .f32 0x00000000#32))
      (broadcastInDim S1700000x1 ![0] bcast_S1700000_S1700000x1_0 dst)
      (mulf (F := Ideal)
        (Host.gather gather_S100000x128_S1700000x1_S1700000x128_1_0_n_n_0_1_1128 (h : FVec Ideal S100000x128 .f32)
          (broadcastInDim S1700000x1 ![0] bcast_S1700000_S1700000x1_0 (normSel src)))
        (broadcastInDim S1700000x128 ![0, 1] bcast_S1700000x1_S1700000x128_0_1
          (broadcastInDim S1700000x1 ![0] bcast_S1700000_S1700000x1_0
            (mulf (F := Ideal)
              (Host.gather gather_S100000_S1700000x1_S1700000_n_0_n_n_0_1_1 (dv : FVec Ideal S100000 .f32)
                (broadcastInDim S1700000x1 ![0] bcast_S1700000_S1700000x1_0 (normSel src)))
              (Host.gather gather_S100000_S1700000x1_S1700000_n_0_n_n_0_1_1 (dv : FVec Ideal S100000 .f32)
                (broadcastInDim S1700000x1 ![0] bcast_S1700000_S1700000x1_0 (normSel dst)))))))
      (ix2 n j)
    = Cert.Gcn.aggR src dst dv h (ix2 n j) := by
  have hb : ∀ (f : S1700000.Idx → BitVec 32) (v : Fin 1700000),
      broadcastInDim S1700000x1 ![0] bcast_S1700000_S1700000x1_0 f (ix2 v (0 : Fin 1)) = f (ix1 v) :=
    fun f v => bcast_col_apply _ f v
  have hbf : ∀ (f : S1700000.Idx → EReal) (v : Fin 1700000),
      broadcastInDim S1700000x1 ![0] bcast_S1700000_S1700000x1_0 f (ix2 v (0 : Fin 1)) = f (ix1 v) :=
    fun f v => bcast_col_apply _ f v
  have hbb : ∀ (f : S1700000x1.Idx → EReal) (v : Fin 1700000) (k : Fin 128),
      broadcastInDim S1700000x128 ![0, 1] bcast_S1700000x1_S1700000x128_0_1 f (ix2 v k) = f (ix2 v (0 : Fin 1)) :=
    fun f v k => bcast_cols_apply _ f v k
  have hc : ∀ (b : BitVec 32) (v : S1700000.Idx), broadcastInDim S1700000 ![] bcast_S_S1700000 (constantI S_ 32 b) v = b :=
    fun b v => rfl
  rw [scatterAdd_ideal, ScatterRead.scatterAdd_rows_apply scatter_S100000x128_S1700000x1_S1700000x128_1_0_0_1 rfl rfl rfl rfl,
    aggR_ix2, bcast_const_apply, Ideal.ofBits_zero_f32]
  simp only [hb, hbf, hbb, hc, mulf_apply, normSel,
    ScatterRead.gather_rows_apply (N := 100000) (by decide) gather_S100000x128_S1700000x1_S1700000x128_1_0_n_n_0_1_1128 rfl rfl rfl rfl rfl rfl rfl,
    gather_flat_apply (N := 100000) (by decide) gather_S100000_S1700000x1_S1700000_n_0_n_n_0_1_1 rfl rfl rfl rfl rfl rfl rfl,
    select_apply, cmpi_apply', addi_apply', norm_select, row_mk]

/-! ## The two aggregations of the reference program -/

section Layers

variable (x0 : (⟨S100000x4, .f32⟩ : BufTy).Contents (Elt Ideal)) (x1 : (⟨S2x1600000, .i32⟩ : BufTy).Contents (Elt Ideal))
  (x3 : (⟨S4x128, .f32⟩ : BufTy).Contents (Elt Ideal)) (x4 : (⟨S128, .f32⟩ : BufTy).Contents (Elt Ideal))
  (x5 : (⟨S128x128, .f32⟩ : BufTy).Contents (Elt Ideal))

/-- The source words and the destination words of the edges, the self loops appended. -/
abbrev srcR : Cert.Gcn.IVc 1700000 := Read.val_main_v3 (F := Ideal) x1
abbrev dstR : Cert.Gcn.IVc 1700000 := Read.val_main_v6 (F := Ideal) x1

theorem ragg1_apply (n : Fin 100000) (j : Fin 128) :
    Read.val_main_v43 (F := Ideal) x0 x1 x3 (ix2 n j)
      = Cert.Gcn.aggR (srcR x1) (dstR x1) (Read.val_main_v15 (F := Ideal) x1) (Read.val_main_v7 (F := Ideal) x0 x3) (ix2 n j) := by
  unfold Read.val_main_v43 Read.val_main_v41 Read.val_main_cst_8 Read.val_main_v42 Read.val_main_v40 Read.val_main_v37 Read.val_main_v36 Read.val_main_v35 Read.val_main_v32 Read.val_main_v31 Read.val_main_c_6 Read.val_main_v34 Read.val_main_v33 Read.val_main_c_7 Read.val_main_v39 Read.val_main_v38 Read.val_main_v30 Read.val_main_v22 Read.val_main_v21 Read.val_main_v20 Read.val_main_v17 Read.val_main_v16 Read.val_main_c Read.val_main_v19 Read.val_main_v18 Read.val_main_c_3 Read.val_main_v29 Read.val_main_v28 Read.val_main_v27 Read.val_main_v24 Read.val_main_v23 Read.val_main_c_4 Read.val_main_v26 Read.val_main_v25 Read.val_main_c_5
  rw [aggR_read]

theorem ragg2_apply (n : Fin 100000) (j : Fin 128) :
    Read.val_main_v84 (F := Ideal) x0 x1 x3 x4 x5 (ix2 n j)
      = Cert.Gcn.aggR (srcR x1) (dstR x1) (Read.val_main_v56 (F := Ideal) x1) (Read.val_main_v48 (F := Ideal) x0 x1 x3 x4 x5) (ix2 n j) := by
  unfold Read.val_main_v84 Read.val_main_v82 Read.val_main_cst_19 Read.val_main_v83 Read.val_main_v81 Read.val_main_v78 Read.val_main_v77 Read.val_main_v76 Read.val_main_v73 Read.val_main_v72 Read.val_main_c_17 Read.val_main_v75 Read.val_main_v74 Read.val_main_c_18 Read.val_main_v80 Read.val_main_v79 Read.val_main_v71 Read.val_main_v63 Read.val_main_v62 Read.val_main_v61 Read.val_main_v58 Read.val_main_v57 Read.val_main_c_13 Read.val_main_v60 Read.val_main_v59 Read.val_main_c_14 Read.val_main_v70 Read.val_main_v69 Read.val_main_v68 Read.val_main_v65 Read.val_main_v64 Read.val_main_c_15 Read.val_main_v67 Read.val_main_v66 Read.val_main_c_16
  rw [aggR_read]

end Layers

end Cert.ReferenceIdeal.RefAgg

end
-- ==== Proof.RefDinv.lean ====
/-
  The reference program's degree factor read at a node: the scatter-add of ones at the destination words is the
  in-degree, and the comparison with zero, the reciprocal square root and the select are the specification's inverse
  square root of the degree where it is positive, zero elsewhere.
-/
import proofs.«427309_j66967130079866_2_alg».proof.Proof.RefRead
import proofs.«427309_j66967130079866_2_alg».proof.Proof.Spec
import proofs.«427309_j66967130079866_2_alg».proof.Proof.LibScatterRead
import Idealize.ShloMosaic.Lib.StableHlo.Predicate
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.ReferenceIdeal.RefDinv

open Cert.ReferenceIdeal Cert.ReferenceIdeal.Gen
open Idealize.ShloMosaic Idealize.ShloMosaic.TcCoe Idealize.ShloMosaic.ValueIdx

/-! ## Operations at an element -/

theorem scatterAdd_ideal {s si u : Shape} {w : Nat} {φ : FTy} (d : ScatterDims s si u) (x : FVec Ideal s φ) (idx : IVec si w)
    (upd : FVec Ideal u φ) : Host.scatterAdd (F := Ideal) d x idx upd = Ideal.hostScatterAdd d x idx upd := rfl
theorem rsqrt_apply' {s : Shape} {φ : FTy} (x : FVec Ideal s φ) (i : s.Idx) : Host.rsqrt x i = Ideal.rsqrt (x i) := rfl
/-- A scalar constant broadcast to any shape reads the constant everywhere. -/
theorem bcast_const_apply {t : Shape} {φ : FTy} (h : S_.BroadcastsInDim t ![]) (b : BitVec φ.bits) (j : t.Idx) :
    broadcastInDim t ![] h (constant (F := Ideal) S_ φ b) j = Ideal.ofBits φ b := rfl
theorem bcast_const_id_apply {t : Shape} {φ : FTy} (h : S_.BroadcastsInDim t ![]) (b : BitVec φ.bits) (j : t.Idx) :
    broadcastInDim t ![] h (id (constant (F := Ideal) S_ φ b)) j = Ideal.ofBits φ b := rfl

/-- A vector laid as a one-column matrix reads, at row e, the vector at e. -/
theorem bcast_col_apply {α : Type} {N : Nat} (h : (⟨1, ![N]⟩ : Shape).BroadcastsInDim ⟨2, ![N, 1]⟩ ![0])
    (v : (⟨1, ![N]⟩ : Shape).Idx → α) (e : Fin N) :
    broadcastInDim ⟨2, ![N, 1]⟩ ![0] h v (ix2 e (0 : Fin 1)) = v (ix1 e) :=
  broadcastInDim_apply _ h v _ (ix1 e) (fun a => by
    have ha : a = 0 := Subsingleton.elim _ _
    subst ha
    have he := e.isLt
    show e.val = if N = 1 then 0 else e.val
    split <;> omega)

/-- A comparison with zero selecting between two values is the conditional on the order. -/
theorem select_cmp_ogt (a b e : EReal) : Scalar.select (Ideal.cmp .ogt a 0) b e = if 0 < a then b else e := by
  unfold Scalar.select Ideal.cmp
  have hc : (BitVec.ofBool (decide (0 < a)) = 1) ↔ 0 < a := by
    rw [show (1 : BitVec 1) = 1#1 from rfl, StableHlo.Predicate.ofBool_eq_one_iff, decide_eq_true_eq]
  exact if_congr hc rfl rfl

theorem deg_def (dst : Cert.Gcn.IVc 1700000) (d : Fin 100000) :
    Cert.Gcn.deg dst d
      = 0 + ∑ _e ∈ Finset.univ.filter (fun e : Fin 1700000 => (dst (ix1 e)).toInt = (d.val : ℤ)), Ideal.ofBits .f32 0x3F800000#32 := rfl
theorem dinv_ix1 (dst : Cert.Gcn.IVc 1700000) (d : Fin 100000) :
    Cert.Gcn.dinv dst (ix1 d) = if 0 < Cert.Gcn.deg dst d then Ideal.rsqrt (Cert.Gcn.deg dst d) else 0 := rfl

/-- The scatter-add of ones at the destination words, at a node: its in-degree. -/
theorem deg_read (dst : S1700000.Idx → BitVec 32) (d : Fin 100000) :
    Host.scatterAdd (F := Ideal) (φ := .f32) scatter_S100000_S1700000x1_S1700000_n_0_0_1
      (broadcastInDim S100000 ![] bcast_S_S100000 (constant (F := Ideal) S_ .f32 0x00000000#32))
      (broadcastInDim S1700000x1 ![0] bcast_S1700000_S1700000x1_0 dst)
      (broadcastInDim S1700000 ![] bcast_S_S1700000 (constant (F := Ideal) S_ .f32 0x3F800000#32))
      (ix1 d)
    = Cert.Gcn.deg dst d := by
  have hb : ∀ (f : S1700000.Idx → BitVec 32) (v : Fin 1700000),
      broadcastInDim S1700000x1 ![0] bcast_S1700000_S1700000x1_0 f (ix2 v (0 : Fin 1)) = f (ix1 v) :=
    fun f v => bcast_col_apply _ f v
  have hc : ∀ (b : BitVec 32) (v : S1700000.Idx),
      broadcastInDim S1700000 ![] bcast_S_S1700000 (constant (F := Ideal) S_ .f32 b) v = Ideal.ofBits .f32 b :=
    fun b v => rfl
  rw [scatterAdd_ideal, ScatterRead.scatterAdd_flat_apply scatter_S100000_S1700000x1_S1700000_n_0_0_1 rfl rfl rfl rfl,
    deg_def, bcast_const_apply, Ideal.ofBits_zero_f32]
  simp only [hb, hc]

/-- The degree factor at a node: the select, on the degree being positive, between its reciprocal square root and
    zero. -/
theorem dinv_read (dst : S1700000.Idx → BitVec 32) (d : Fin 100000) :
    select
      (cmpf (F := Ideal) .ogt
        (Host.scatterAdd (F := Ideal) (φ := .f32) scatter_S100000_S1700000x1_S1700000_n_0_0_1
          (broadcastInDim S100000 ![] bcast_S_S100000 (constant (F := Ideal) S_ .f32 0x00000000#32))
          (broadcastInDim S1700000x1 ![0] bcast_S1700000_S1700000x1_0 dst)
          (broadcastInDim S1700000 ![] bcast_S_S1700000 (constant (F := Ideal) S_ .f32 0x3F800000#32)))
        (broadcastInDim S100000 ![] bcast_S_S100000 (constant (F := Ideal) S_ .f32 0x00000000#32)))
      (Host.rsqrt
        (Host.scatterAdd (F := Ideal) (φ := .f32) scatter_S100000_S1700000x1_S1700000_n_0_0_1
          (broadcastInDim S100000 ![] bcast_S_S100000 (constant (F := Ideal) S_ .f32 0x00000000#32))
          (broadcastInDim S1700000x1 ![0] bcast_S1700000_S1700000x1_0 dst)
          (broadcastInDim S1700000 ![] bcast_S_S1700000 (constant (F := Ideal) S_ .f32 0x3F800000#32))))
      (broadcastInDim S100000 ![] bcast_S_S100000 (id (constant (F := Ideal) S_ .f32 0x00000000#32)))
      (ix1 d)
    = Cert.Gcn.dinv dst (ix1 d) := by
  rw [select_apply, cmpf_apply, rsqrt_apply', deg_read, bcast_const_apply, bcast_const_id_apply, Ideal.ofBits_zero_f32,
    Ideal.cmpf_def, dinv_ix1, select_cmp_ogt]

/-! ## The two layers' factor (the second layer recomputes the first's chain) -/

section Layers

variable (x1 : (⟨S2x1600000, .i32⟩ : BufTy).Contents (Elt Ideal))

theorem dinv1_apply (d : Fin 100000) :
    Read.val_main_v15 (F := Ideal) x1 (ix1 d) = Cert.Gcn.dinv (Read.val_main_v6 (F := Ideal) x1) (ix1 d) := by
  unfold Read.val_main_v15 Read.val_main_v13 Read.val_main_v14 Read.val_main_call0_v1 Read.val_main_call0_v0 Read.val_main_cst_2 Read.val_main_v12 Read.val_main_cst_1 Read.val_main_v11 Read.val_main_v9 Read.val_main_cst_0 Read.val_main_v10 Read.val_main_v8 Read.val_main_cst
  rw [dinv_read]

theorem dinv2_apply (d : Fin 100000) :
    Read.val_main_v56 (F := Ideal) x1 (ix1 d) = Cert.Gcn.dinv (Read.val_main_v6 (F := Ideal) x1) (ix1 d) := by
  unfold Read.val_main_v56 Read.val_main_v54 Read.val_main_v55 Read.val_main_call1_v1 Read.val_main_call1_v0 Read.val_main_cst_12 Read.val_main_v53 Read.val_main_cst_11 Read.val_main_v52 Read.val_main_v50 Read.val_main_cst_10 Read.val_main_v51 Read.val_main_v49 Read.val_main_cst_9
  rw [dinv_read]

end Layers

end Cert.ReferenceIdeal.RefDinv

end
-- ==== Proof.RefPool.lean ====
import proofs.«427309_j66967130079866_2_alg».proof.Proof.RefRead
import proofs.«427309_j66967130079866_2_alg».proof.Proof.Spec
import proofs.«427309_j66967130079866_2_alg».proof.Proof.LibScatterRead
import proofs.«427309_j66967130079866_2_alg».proof.Proof.LibPlainDot
import Idealize.ShloMosaic.Lib.ValueIdx
import Idealize.ShloMosaic.PureOps.Ideal.Laws

set_option maxRecDepth 16384

noncomputable section

open scoped BigOperators

namespace Cert.ReferenceIdeal.RefPool

open Cert.ReferenceIdeal Cert.ReferenceIdeal.Gen Cert.ReferenceIdeal.Read
open Idealize.ShloMosaic Idealize.ShloMosaic.TcCoe Idealize.SL.Sem Idealize.ShloMosaic.StableHlo
open Idealize.ShloMosaic.ValueIdx

variable (x0 : (⟨S100000x4, .f32⟩ : BufTy).Contents (Elt Ideal)) (x1 : (⟨S2x1600000, .i32⟩ : BufTy).Contents (Elt Ideal))
  (x2 : (⟨S100000, .i32⟩ : BufTy).Contents (Elt Ideal)) (x3 : (⟨S4x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x40, .f32⟩ : BufTy).Contents (Elt Ideal))
  (x8 : (⟨S40, .f32⟩ : BufTy).Contents (Elt Ideal))

/-! ## The graph ids as a column, and the nodes of graph 0 -/

/-- The graph ids broadcast to a column (for the pooled sum), read at (v, 0): node v's id. -/
theorem col90_apply (v : Fin 100000) : val_main_v90 (F := Ideal) x2 (ix2 v (0 : Fin 1)) = x2 (ix1 v) := by
  rw [val_main_v90_apply]
  exact congrArg x2 (funext fun a => by match a with | ⟨0, _⟩ => rfl)

/-- The same column broadcast again (for the count). -/
theorem col94_apply (v : Fin 100000) : val_main_v94 (F := Ideal) x2 (ix2 v (0 : Fin 1)) = x2 (ix1 v) := by
  rw [val_main_v94_apply]
  exact congrArg x2 (funext fun a => by match a with | ⟨0, _⟩ => rfl)

/-- The updates that land in the one row of the pooled sum are those of the nodes of graph 0. -/
theorem filter90 :
    Finset.univ.filter (fun v : Fin 100000 => (val_main_v90 (F := Ideal) x2 (ix2 v (0 : Fin 1))).toInt = (((0 : Fin 1)).val : ℤ))
      = Cert.Gcn.inG0 x2 := by
  unfold Cert.Gcn.inG0
  refine Finset.filter_congr fun v _ => ?_
  rw [col90_apply]
  exact Iff.rfl

theorem filter94 :
    Finset.univ.filter (fun v : Fin 100000 => (val_main_v94 (F := Ideal) x2 (ix2 v (0 : Fin 1))).toInt = (((0 : Fin 1)).val : ℤ))
      = Cert.Gcn.inG0 x2 := by
  unfold Cert.Gcn.inG0
  refine Finset.filter_congr fun v _ => ?_
  rw [col94_apply]
  exact Iff.rfl

/-! ## The pooled sum and the count -/

/-- The scatter-add of the activations' rows into the one pooled row, at column k: zero plus the sum over the nodes of
    graph 0 of their column-k activations. -/
theorem sum91_apply (a2 : Cert.Gcn.Mat 100000 128)
    (h88 : ∀ (n : Fin 100000) (j : Fin 128), val_main_v88 (F := Ideal) x0 x1 x3 x4 x5 x6 (ix2 n j) = a2 (ix2 n j)) (k : Fin 128) :
    val_main_v91 (F := Ideal) x0 x1 x2 x3 x4 x5 x6 (ix2 (0 : Fin 1) k) = 0 + ∑ n ∈ Cert.Gcn.inG0 x2, a2 (ix2 n k) := by
  unfold val_main_v91 Host.scatterAdd
  rw [Ideal.hostScatterAdd_def, ScatterRead.scatterAdd_rows_apply _ rfl rfl rfl rfl, filter90]
  have hz : val_main_v89 (F := Ideal) (ix2 (0 : Fin 1) k) = 0 := by
    rw [val_main_v89_apply]; exact Ideal.ofBits_zero_f32
  rw [hz, Finset.sum_congr rfl fun n _ => h88 n k]

/-- The scatter-add of ones into the one count: zero plus a one per node of graph 0. -/
theorem cnt95_apply : val_main_v95 (F := Ideal) x2 (ix1 (0 : Fin 1)) = 0 + ∑ _n ∈ Cert.Gcn.inG0 x2, Cert.Gcn.one := by
  unfold val_main_v95 Host.scatterAdd
  rw [Ideal.hostScatterAdd_def, ScatterRead.scatterAdd_flat_apply _ rfl rfl rfl rfl, filter94]
  have hz : val_main_v93 (F := Ideal) (ix1 (0 : Fin 1)) = 0 := by
    rw [val_main_v93_apply]; exact Ideal.ofBits_zero_f32
  have ho : ∀ n : Fin 100000, val_main_v92 (F := Ideal) (ix1 n) = Cert.Gcn.one := fun n => by
    rw [val_main_v92_apply]; rfl
  rw [hz, Finset.sum_congr rfl fun n _ => ho n]

/-- The divisor, broadcast along the pooled row, at column k: the count, at least one. -/
theorem den99_apply (k : Fin 128) :
    val_main_v99 (F := Ideal) x2 (ix2 (0 : Fin 1) k) = max (0 + ∑ _n ∈ Cert.Gcn.inG0 x2, Cert.Gcn.one) Cert.Gcn.one := by
  rw [val_main_v99_apply, val_main_v98_apply, val_main_v97_apply]
  have hi : idx_main_v98 (idx_main_v99 (ix2 (0 : Fin 1) k)) = ix1 (0 : Fin 1) :=
    funext fun a => by match a with | ⟨0, _⟩ => rfl
  rw [hi, cnt95_apply, val_main_v96_apply]
  rfl

/-! ## The mean, the final affine map -/

/-- The reference's [1, 40] result at column q, given its layer-2 activations index by index: the mean over graph 0's
    nodes of each activation column, times the final weight, plus the final bias. -/
theorem pool_apply (a2 : Cert.Gcn.Mat 100000 128)
    (h88 : ∀ (n : Fin 100000) (j : Fin 128), val_main_v88 (F := Ideal) x0 x1 x3 x4 x5 x6 (ix2 n j) = a2 (ix2 n j)) (q : Fin 40) :
    val_main_v103 (F := Ideal) x0 x1 x2 x3 x4 x5 x6 x7 x8 (ix2 (0 : Fin 1) q)
      = (∑ j : Fin 128, Ideal.div (0 + ∑ n ∈ Cert.Gcn.inG0 x2, a2 (ix2 n j)) (max (0 + ∑ _n ∈ Cert.Gcn.inG0 x2, Cert.Gcn.one) Cert.Gcn.one)
            * x7 (ix2 j q)) + x8 (ix1 q) := by
  rw [val_main_v103_apply, val_main_v101_apply, val_main_v102_apply]
  have h8 : idx_main_v102 (ix2 (0 : Fin 1) q) = ix1 q := funext fun a => by match a with | ⟨0, _⟩ => rfl
  rw [h8]
  have hterm : ∀ k : Fin 128,
      val_main_v100 (F := Ideal) x0 x1 x2 x3 x4 x5 x6 (lidx_main_v101 (ix2 (0 : Fin 1) q) k) * x7 (ridx_main_v101 (ix2 (0 : Fin 1) q) k)
        = Ideal.div (0 + ∑ n ∈ Cert.Gcn.inG0 x2, a2 (ix2 n k)) (max (0 + ∑ _n ∈ Cert.Gcn.inG0 x2, Cert.Gcn.one) Cert.Gcn.one)
            * x7 (ix2 k q) := fun k => by
    have hl : lidx_main_v101 (ix2 (0 : Fin 1) q) k = ix2 (0 : Fin 1) k :=
      funext fun a => by match a with | ⟨0, _⟩ => rfl | ⟨1, _⟩ => rfl
    have hr : ridx_main_v101 (ix2 (0 : Fin 1) q) k = ix2 k q :=
      funext fun a => by match a with | ⟨0, _⟩ => rfl | ⟨1, _⟩ => rfl
    rw [hl, hr, val_main_v100_apply, sum91_apply x0 x1 x2 x3 x4 x5 x6 a2 h88, den99_apply]
    rfl
  rw [Finset.sum_congr rfl fun k _ => hterm k]
  rfl

end Cert.ReferenceIdeal.RefPool

end
-- ==== Proof.RefValue.lean ====
/-
  The reference program of the two-layer graph convolution, read at an index over the extended reals, is the
  specification's reference arrangement. The two linear maps are read as plain matrix products; with the degree
  factor and the two aggregations read at an element, each layer's activation is the specification's; the mean
  pooling and the final affine map then give the [1, 40] value before the final reshape as `Cert.Gcn.velR` of the
  arguments. The last stages (the reshape to [1, 20, 2] and the mask by the count of nonzero input rows) are kept as
  one function `tail` of that value and the input.
-/
import proofs.«427309_j66967130079866_2_alg».proof.Proof.RefRead
import proofs.«427309_j66967130079866_2_alg».proof.Proof.Spec
import proofs.«427309_j66967130079866_2_alg».proof.Proof.RefAgg
import proofs.«427309_j66967130079866_2_alg».proof.Proof.RefDinv
import proofs.«427309_j66967130079866_2_alg».proof.Proof.RefPool
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx Idealize.ShloMosaic.TcCoe Idealize.SL.Sem Idealize.ShloMosaic.StableHlo

/-! ## The specification's reference arrangement at an element (definitional) -/

section SpecAt
variable (x : Gcn.Mat 100000 4) (src dst : Gcn.IVc 1700000) (batch : Gcn.IVc 100000) (dv : Gcn.Vc 100000)
  (W1 : Gcn.Mat 4 128) (b1 : Gcn.Vc 128) (W2 : Gcn.Mat 128 128) (b2 : Gcn.Vc 128) (Wfc : Gcn.Mat 128 40) (bfc : Gcn.Vc 40)

theorem lin_ix2 {a k b : Nat} (y : Gcn.Mat a k) (W : Gcn.Mat k b) (r : Fin a) (j : Fin b) :
    Gcn.lin y W (ix2 r j) = ∑ q : Fin k, y (ix2 r q) * W (ix2 q j) := rfl
theorem act1R_ix2 (n : Fin 100000) (j : Fin 128) :
    Gcn.act1R x src dst dv W1 b1 (ix2 n j) = Ideal.tanh (Gcn.aggR src dst dv (Gcn.lin x W1) (ix2 n j) + b1 (ix1 j)) := rfl
theorem act2R_ix2 (n : Fin 100000) (j : Fin 128) :
    Gcn.act2R x src dst dv W1 b1 W2 b2 (ix2 n j)
      = Ideal.tanh (Gcn.aggR src dst dv (Gcn.lin (Gcn.act1R x src dst dv W1 b1) W2) (ix2 n j) + b2 (ix1 j)) := rfl
theorem velR_ix2 (q : Fin 40) :
    Gcn.velR x src dst batch dv W1 b1 W2 b2 Wfc bfc (ix2 (0 : Fin 1) q)
      = (∑ j : Fin 128, Ideal.div (0 + ∑ n ∈ Gcn.inG0 batch, Gcn.act2R x src dst dv W1 b1 W2 b2 (ix2 n j))
            (max (0 + ∑ _n ∈ Gcn.inG0 batch, Gcn.one) Gcn.one) * Wfc (ix2 j q)) + bfc (ix1 q) := rfl

end SpecAt

section Stages

/-! ## The arguments and the edge words -/

variable (x0 : (⟨S100000x4, .f32⟩ : BufTy).Contents (Elt Ideal)) (x1 : (⟨S2x1600000, .i32⟩ : BufTy).Contents (Elt Ideal))
  (x2 : (⟨S100000, .i32⟩ : BufTy).Contents (Elt Ideal)) (x3 : (⟨S4x128, .f32⟩ : BufTy).Contents (Elt Ideal))
  (x4 : (⟨S128, .f32⟩ : BufTy).Contents (Elt Ideal)) (x5 : (⟨S128x128, .f32⟩ : BufTy).Contents (Elt Ideal))
  (x6 : (⟨S128, .f32⟩ : BufTy).Contents (Elt Ideal)) (x7 : (⟨S128x40, .f32⟩ : BufTy).Contents (Elt Ideal))
  (x8 : (⟨S40, .f32⟩ : BufTy).Contents (Elt Ideal))

/-- The source words with the self loops appended (the concatenate is never opened). -/
abbrev srcR : Gcn.IVc 1700000 := Read.val_main_v3 (F := Ideal) x1
/-- The destination words with the self loops appended. -/
abbrev dstR : Gcn.IVc 1700000 := Read.val_main_v6 (F := Ideal) x1

/-! ## The inverse square root of the degree, both layers -/

/-- Layer 1's factor: ones scattered at the raw destinations, compared with zero, the inverse square root selected. -/
theorem dinv1_apply (d : Fin 100000) : Read.val_main_v15 (F := Ideal) x1 (ix1 d) = Gcn.dinv (dstR x1) (ix1 d) :=
  RefDinv.dinv1_apply x1 d
/-- Layer 2 recomputes the same. -/
theorem dinv2_apply (d : Fin 100000) : Read.val_main_v56 (F := Ideal) x1 (ix1 d) = Gcn.dinv (dstR x1) (ix1 d) :=
  RefDinv.dinv2_apply x1 d

theorem dinv1_eq : Read.val_main_v15 (F := Ideal) x1 = Gcn.dinv (dstR x1) := by
  funext i
  obtain ⟨d, rfl⟩ : ∃ d, i = ix1 d := ⟨i 0, eq_ix1 i⟩
  exact dinv1_apply x1 d
theorem dinv2_eq : Read.val_main_v56 (F := Ideal) x1 = Gcn.dinv (dstR x1) := by
  funext i
  obtain ⟨d, rfl⟩ : ∃ d, i = ix1 d := ⟨i 0, eq_ix1 i⟩
  exact dinv2_apply x1 d

/-! ## Layer 1 -/

/-- The first linear map at an element. -/
theorem lin7 (r : Fin 100000) (j : Fin 128) : Read.val_main_v7 (F := Ideal) x0 x3 (ix2 r j) = Gcn.lin x0 x3 (ix2 r j) := by
  rw [Read.val_main_v7_apply, lin_ix2]
  refine Finset.sum_congr rfl fun k _ => ?_
  have el : Read.lidx_main_v7 (ix2 r j) k = ix2 r k := funext fun a => Fin.ext (by match a with | ⟨0, _⟩ => rfl | ⟨1, _⟩ => rfl)
  have er : Read.ridx_main_v7 (ix2 r j) k = ix2 k j := funext fun a => Fin.ext (by match a with | ⟨0, _⟩ => rfl | ⟨1, _⟩ => rfl)
  rw [el, er]
theorem lin7_eq : Read.val_main_v7 (F := Ideal) x0 x3 = Gcn.lin x0 x3 := by
  funext i
  obtain ⟨r, j, rfl⟩ : ∃ r j, i = ix2 r j := ⟨i 0, i 1, eq_ix2 i⟩
  exact lin7 x0 x3 r j

/-- Layer 1's aggregation: the weighed messages summed over the edges that land at a node. -/
theorem agg43 (n : Fin 100000) (j : Fin 128) : Read.val_main_v43 (F := Ideal) x0 x1 x3 (ix2 n j)
    = Gcn.aggR (srcR x1) (dstR x1) (Gcn.dinv (dstR x1)) (Gcn.lin x0 x3) (ix2 n j) := by
  rw [RefAgg.ragg1_apply x0 x1 x3 n j, dinv1_eq, lin7_eq]

theorem bias45 (n : Fin 100000) (j : Fin 128) : Read.val_main_v45 (F := Ideal) x4 (ix2 n j) = x4 (ix1 j) := by
  have e : Read.idx_main_v44 (Read.idx_main_v45 (ix2 n j)) = ix1 j := funext fun a => Fin.ext (by match a with | ⟨0, _⟩ => rfl)
  rw [Read.val_main_v45_apply, Read.val_main_v44_apply, e]

/-- Layer 1's activation. -/
theorem act47 (n : Fin 100000) (j : Fin 128) : Read.val_main_v47 (F := Ideal) x0 x1 x3 x4 (ix2 n j)
    = Gcn.act1R x0 (srcR x1) (dstR x1) (Gcn.dinv (dstR x1)) x3 x4 (ix2 n j) := by
  rw [Read.val_main_v47_apply, Read.val_main_v46_apply, agg43, bias45, act1R_ix2, Ideal.hostUnary_tanh_def, Ideal.addf_def]

/-! ## Layer 2 -/

/-- The second linear map at an element, over layer 1's activation. -/
theorem lin48 (r : Fin 100000) (j : Fin 128) : Read.val_main_v48 (F := Ideal) x0 x1 x3 x4 x5 (ix2 r j)
    = Gcn.lin (Gcn.act1R x0 (srcR x1) (dstR x1) (Gcn.dinv (dstR x1)) x3 x4) x5 (ix2 r j) := by
  rw [Read.val_main_v48_apply, lin_ix2]
  refine Finset.sum_congr rfl fun k _ => ?_
  have el : Read.lidx_main_v48 (ix2 r j) k = ix2 r k := funext fun a => Fin.ext (by match a with | ⟨0, _⟩ => rfl | ⟨1, _⟩ => rfl)
  have er : Read.ridx_main_v48 (ix2 r j) k = ix2 k j := funext fun a => Fin.ext (by match a with | ⟨0, _⟩ => rfl | ⟨1, _⟩ => rfl)
  rw [el, er, act47]
theorem lin48_eq : Read.val_main_v48 (F := Ideal) x0 x1 x3 x4 x5 = Gcn.lin (Gcn.act1R x0 (srcR x1) (dstR x1) (Gcn.dinv (dstR x1)) x3 x4) x5 := by
  funext i
  obtain ⟨r, j, rfl⟩ : ∃ r j, i = ix2 r j := ⟨i 0, i 1, eq_ix2 i⟩
  exact lin48 x0 x1 x3 x4 x5 r j

/-- Layer 2's aggregation. -/
theorem agg84 (n : Fin 100000) (j : Fin 128) : Read.val_main_v84 (F := Ideal) x0 x1 x3 x4 x5 (ix2 n j)
    = Gcn.aggR (srcR x1) (dstR x1) (Gcn.dinv (dstR x1)) (Gcn.lin (Gcn.act1R x0 (srcR x1) (dstR x1) (Gcn.dinv (dstR x1)) x3 x4) x5) (ix2 n j) := by
  rw [RefAgg.ragg2_apply x0 x1 x3 x4 x5 n j, dinv2_eq, lin48_eq]

theorem bias86 (n : Fin 100000) (j : Fin 128) : Read.val_main_v86 (F := Ideal) x6 (ix2 n j) = x6 (ix1 j) := by
  have e : Read.idx_main_v85 (Read.idx_main_v86 (ix2 n j)) = ix1 j := funext fun a => Fin.ext (by match a with | ⟨0, _⟩ => rfl)
  rw [Read.val_main_v86_apply, Read.val_main_v85_apply, e]

/-- Layer 2's activation. -/
theorem act88 (n : Fin 100000) (j : Fin 128) : Read.val_main_v88 (F := Ideal) x0 x1 x3 x4 x5 x6 (ix2 n j)
    = Gcn.act2R x0 (srcR x1) (dstR x1) (Gcn.dinv (dstR x1)) x3 x4 x5 x6 (ix2 n j) := by
  rw [Read.val_main_v88_apply, Read.val_main_v87_apply, agg84, bias86, act2R_ix2, Ideal.hostUnary_tanh_def, Ideal.addf_def]

/-! ## Mean pooling over the nodes of graph 0, and the final affine map -/

/-- The [1, 40] value before the final reshape is the specification's reference arrangement. -/
theorem vel_apply (q : Fin 40) :
    Read.val_main_v103 (F := Ideal) x0 x1 x2 x3 x4 x5 x6 x7 x8 (ix2 (0 : Fin 1) q)
      = Gcn.velR x0 (srcR x1) (dstR x1) x2 (Gcn.dinv (dstR x1)) x3 x4 x5 x6 x7 x8 (ix2 (0 : Fin 1) q) := by
  rw [RefPool.pool_apply x0 x1 x2 x3 x4 x5 x6 x7 x8 (Gcn.act2R x0 (srcR x1) (dstR x1) (Gcn.dinv (dstR x1)) x3 x4 x5 x6)
    (act88 x0 x1 x3 x4 x5 x6) q, velR_ix2]

end Stages

/-! ## The last stages: the reshape and the mask by the count of nonzero input rows -/

/-- The shared tail: the reshape to [1, 20, 2] and the mask by the count of the input rows whose first two entries are
    both nonzero, as one function of the [1, 40] value and the input. -/
def tail (vel : (⟨S1x40, .f32⟩ : BufTy).Contents (Elt Ideal)) (x0 : (⟨S100000x4, .f32⟩ : BufTy).Contents (Elt Ideal)) :
    (⟨S1x20x2, .f32⟩ : BufTy).Contents (Elt Ideal) :=
  select
    (broadcastInDim S1x20x2 ![0, 1, 2] bcast_S1x20x1_S1x20x2_0_1_2
      (broadcastInDim S1x20x1 ![1] bcast_S20_S1x20x1_1
        (cmpi .slt (iotaInDim S20 32 0 : (⟨S20, .i32⟩ : BufTy).Contents (Elt Ideal))
          (broadcastInDim S20 ![] bcast_S_S20
            (Host.reduce IntOp.addi
              (extui 32
                (andi
                  (cmpf (F := Ideal) .une
                    (shapeCast _ (extractStridedSlice S100000x1 ![0, 0] x0 slices_S100000x4_S100000x1_0_0) shapeCasts_S100000x1_S100000 :
                      (⟨S100000, .f32⟩ : BufTy).Contents (Elt Ideal))
                    (broadcastInDim S100000 ![] bcast_S_S100000 (constant (F := Ideal) S_ .f32 0x00000000#32)))
                  (cmpf (F := Ideal) .une
                    (shapeCast _ (extractStridedSlice S100000x1 ![0, 1] x0 slices_S100000x4_S100000x1_0_1) shapeCasts_S100000x1_S100000 :
                      (⟨S100000, .f32⟩ : BufTy).Contents (Elt Ideal))
                    (broadcastInDim S100000 ![] bcast_S_S100000 (constant (F := Ideal) S_ .f32 0x00000000#32))))
                natLt_1_32 : (⟨S100000, .i32⟩ : BufTy).Contents (Elt Ideal))
              (constantI S_ 32 0#32) reducesTo_S100000_S_d0 h_S_)))))
    (shapeCast _ vel shapeCasts_S1x40_S1x20x2)
    (broadcastInDim S1x20x2 ![] bcast_S_S1x20x2 (id (constant (F := Ideal) S_ .f32 0x00000000#32)))

/-- The last stage is the tail of the [1, 40] stage and the input. -/
theorem stage120_eq_tail (x0 : (⟨S100000x4, .f32⟩ : BufTy).Contents (Elt Ideal)) (x1 : (⟨S2x1600000, .i32⟩ : BufTy).Contents (Elt Ideal))
    (x2 : (⟨S100000, .i32⟩ : BufTy).Contents (Elt Ideal)) (x3 : (⟨S4x128, .f32⟩ : BufTy).Contents (Elt Ideal))
    (x4 : (⟨S128, .f32⟩ : BufTy).Contents (Elt Ideal)) (x5 : (⟨S128x128, .f32⟩ : BufTy).Contents (Elt Ideal))
    (x6 : (⟨S128, .f32⟩ : BufTy).Contents (Elt Ideal)) (x7 : (⟨S128x40, .f32⟩ : BufTy).Contents (Elt Ideal))
    (x8 : (⟨S40, .f32⟩ : BufTy).Contents (Elt Ideal)) :
    Read.val_main_v120 (F := Ideal) x0 x1 x2 x3 x4 x5 x6 x7 x8
      = tail (Read.val_main_v103 (F := Ideal) x0 x1 x2 x3 x4 x5 x6 x7 x8) x0 := rfl

end Cert.ReferenceIdeal.RefValue

end
-- ==== Proof.RefTail.lean ====
/-
  The reference program's result, as the run states it, is the tail (the reshape to [1, 20, 2] and the mask by the
  count of nonzero input rows) of the [1, 40] stage read off the arguments, and of the input.
-/
import proofs.«427309_j66967130079866_2_alg».proof.Proof.RefReadEq
import proofs.«427309_j66967130079866_2_alg».proof.Proof.RefValue

noncomputable section

namespace Cert.ReferenceIdeal.RefValue

open Cert.ReferenceIdeal Cert.ReferenceIdeal.Gen Idealize.ShloMosaic Idealize.ShloMosaic.TcCoe Idealize.SL.Sem Idealize.ShloMosaic.StableHlo

/-- The program's result is the tail of the [1, 40] stage and the input. -/
theorem res_eq_tail (m : (ℓ : Loc nD τ sig) → Buf (Elt Ideal) ℓ) (c : Dev nD) :
    ValueP.res_main_v120 (F := Ideal) m c
      = tail (Read.val_main_v103 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))
          (m ((c.tc : Thread nD τ).loc main_arg0)) :=
  (Read.val_main_v120_eq (F := Ideal) m c).trans
    (stage120_eq_tail (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)))

end Cert.ReferenceIdeal.RefValue

end
-- ==== Proof.Bridge.lean ====
/-
  The two programs end with equal results at the extended reals.

  Both programs end with the same last operations (a reshape and a mask that depends on the features only) applied
  to a [1,40] array and the features. The kernel's [1,40] array is, entry by entry, the graph convolution written in
  the kernel's arrangement (the three regions' results composed through the host operations between them); the
  reference's is the same convolution in the reference's arrangement; the two arrangements agree because the
  normalising factor is nonnegative and never +∞. The edge words the two programs build from edge_index are the same
  four host operations, and the argument arrays agree by hypothesis.
-/
import proofs.«427309_j66967130079866_2_alg».proof.Defs
import proofs.«427309_j66967130079866_2_alg».proof.Proof.KI.Run
import proofs.«427309_j66967130079866_2_alg».proof.Proof.KI.Value0
import proofs.«427309_j66967130079866_2_alg».proof.Proof.KI.Value1
import proofs.«427309_j66967130079866_2_alg».proof.Proof.KI.Value2
import proofs.«427309_j66967130079866_2_alg».proof.Proof.KI.KHost
import proofs.«427309_j66967130079866_2_alg».proof.Proof.KI.KHostB
import proofs.«427309_j66967130079866_2_alg».proof.Proof.Laws
import proofs.«427309_j66967130079866_2_alg».proof.Proof.RefRun
import proofs.«427309_j66967130079866_2_alg».proof.Proof.RefRead
import proofs.«427309_j66967130079866_2_alg».proof.Proof.RefValue
import proofs.«427309_j66967130079866_2_alg».proof.Proof.RefTail
import proofs.«427309_j66967130079866_2_alg».proof.Proof.Gen.ReferenceIdeal
import proofs.«427309_j66967130079866_2_alg».proof.Proof.Gen.Pre_finite_inputs
import Idealize.ShloMosaic.Lib.StableHlo.Run
import Idealize.ShloMosaic.Lib.ValueIdx

set_option maxRecDepth 16384

noncomputable section

open scoped BigOperators

namespace Cert.Bridge

open Idealize.ShloMosaic Idealize.ShloMosaic.TcCoe Idealize.ShloMosaic.ValueIdx Idealize.SL.Sem
open Idealize.ShloMosaic.StableHlo
open Cert.KernelIdeal.Gen (V3 V4 V5 V6 V7 V8 V10)
open Cert.KernelIdeal.Hand
open Cert.ReferenceIdeal.RefValue

variable (m : (ℓ : Loc Cert.KernelIdeal.nD Cert.KernelIdeal.τ Cert.KernelIdeal.sig) → Buf (Elt Ideal) ℓ) (c : Dev Cert.KernelIdeal.nD)

/-! ## The kernel's side: the three regions' results composed -/

/-- The kernel's [1,40] array is the convolution in the kernel's arrangement: each region's result array, read
    entry by entry, is what the next stretch of host operations is stated over. -/
theorem kernel_vel (q : Fin 40) :
    (V8 m (outsK m) c Cert.KernelIdeal.main_v44 : Cert.KernelIdeal.S1x40.Idx → EReal) (ix2 (0 : Fin 1) q)
      = Cert.Gcn.velK (m ((c.tc : Thread Cert.KernelIdeal.nD Cert.KernelIdeal.τ).loc Cert.KernelIdeal.main_arg0)) (srcK m c) (dstK m c) (m ((c.tc : Thread Cert.KernelIdeal.nD Cert.KernelIdeal.τ).loc Cert.KernelIdeal.main_arg2))
          (Cert.Gcn.dinv (dstK m c)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))
          (m ((c.tc : Thread Cert.KernelIdeal.nD Cert.KernelIdeal.τ).loc Cert.KernelIdeal.main_arg8)) (ix2 (0 : Fin 1) q) := by
  refine kvel_apply m (outsK m) c ?h17 ?h30 ?h44 q
  case h17 =>
    intro n j
    rw [V4_eq, U4_self]
    exact arr0_apply (E0 m) c n j
  case h30 =>
    intro n j
    rw [V6_eq, U6_self, V5_eq]
    exact arr1_apply (E1 m) c n j
  case h44 =>
    intro q
    rw [V8_eq, U8_self, V7_eq]
    exact arr2_apply (E2 m) c q

/-! ## The edge words: the same four host operations in the two programs -/

theorem src_eq : srcK m c = srcR (m ((c.tc : Thread Cert.KernelIdeal.nD Cert.KernelIdeal.τ).loc Cert.KernelIdeal.main_arg1)) := by
  show V3 m c Cert.KernelIdeal.main_v3 = Cert.ReferenceIdeal.Read.val_main_v3 (F := Ideal) (m ((c.tc : Thread Cert.KernelIdeal.nD Cert.KernelIdeal.τ).loc Cert.KernelIdeal.main_arg1))
  unfold Cert.ReferenceIdeal.Read.val_main_v3 Cert.ReferenceIdeal.Read.val_main_v2 Cert.ReferenceIdeal.Read.val_main_v1 Cert.ReferenceIdeal.Read.val_main_v0
  after_results
  rfl

theorem dst_eq : dstK m c = dstR (m ((c.tc : Thread Cert.KernelIdeal.nD Cert.KernelIdeal.τ).loc Cert.KernelIdeal.main_arg1)) := by
  show V3 m c Cert.KernelIdeal.main_v6 = Cert.ReferenceIdeal.Read.val_main_v6 (F := Ideal) (m ((c.tc : Thread Cert.KernelIdeal.nD Cert.KernelIdeal.τ).loc Cert.KernelIdeal.main_arg1))
  unfold Cert.ReferenceIdeal.Read.val_main_v6 Cert.ReferenceIdeal.Read.val_main_v5 Cert.ReferenceIdeal.Read.val_main_v4 Cert.ReferenceIdeal.Read.val_main_v0
  after_results
  rfl

/-! ## The two [1,40] arrays agree -/

theorem vel_eq :
    Cert.ReferenceIdeal.Read.val_main_v103 (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = V8 m (outsK m) c Cert.KernelIdeal.main_v44 := by
  funext i
  obtain ⟨p, q, rfl⟩ : ∃ (p : Fin 1) (q : Fin 40), i = ix2 p q := ⟨i 0, i 1, eq_ix2 i⟩
  obtain rfl : p = 0 := Subsingleton.elim p 0
  rw [vel_apply]
  refine Eq.trans ?_ (kernel_vel m c q).symm
  rw [Cert.Gcn.velK_eq_velR _ _ _ _ _ _ _ _ _ _ _ (Cert.Gcn.dinv_nonneg_ne_top _), src_eq m c, dst_eq m c]

/-! ## The results agree -/

/-- The last operations are the same in the two programs. -/
theorem tail_eq (vel : (⟨Cert.KernelIdeal.S1x40, .f32⟩ : BufTy).Contents (Elt Ideal)) (x0 : (⟨Cert.KernelIdeal.S100000x4, .f32⟩ : BufTy).Contents (Elt Ideal)) :
    tail vel x0 = tailK vel x0 := rfl

variable (m' : (ℓ : Loc Cert.ReferenceIdeal.nD Cert.ReferenceIdeal.τ Cert.ReferenceIdeal.sig) → Buf (Elt Ideal) ℓ)

theorem value_eq
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))) :
    Cert.ReferenceIdeal.ValueP.res_main_v120 (F := Ideal) m' c = V10 m (outsK m) c Cert.KernelIdeal.main_v61 := by
  rw [res_eq_tail, h0, h1, h2, h3, h4, h5, h6, h7, h8, vel_eq m c, tail_eq]
  exact (kres_eq_tail m (outsK m) c).symm

/-- From memories agreeing on the nine arguments, both programs run to equal results and unchanged arguments. -/
theorem algebraic : Cert.algebraic_KernelIdeal_ReferenceIdeal := by
  intro m ρ m' ρ' _ hagree
  refine ⟨fun c => V10 m (outsK m) c Cert.KernelIdeal.main_v61, run_main m ρ, ?_⟩
  refine (θ_run Cert.ReferenceIdeal.defs _ _).mono (fun _ h c => ⟨(h c).1.trans ?_, (h c).2⟩) (Cert.ReferenceIdeal.ValueP.run m' ρ')
  obtain ⟨h0, h1, h2, h3, h4, h5, h6, h7, h8⟩ := hagree c
  exact value_eq m c m' h0 h1 h2 h3 h4 h5 h6 h7 h8

end Cert.Bridge

end
-- ==== Proof.lean ====
/-
  The kernel is a two-layer graph convolution with symmetric degree normalisation, mean pooling over graph 0 and a final
  affine map, in three TensorCore regions among host gathers and scatter-adds; the reference is the same network in
  plain host operations.

  The frames of the two kernel programs run @main as host stretches and regions in order: each region's body is run
  once per grid point by symbolic execution, the third region carrying its two accumulators from point to point.
  The reference's frame is its host run with the result dropped. The two idealised programs agree because the only
  difference in arrangement is where the factor dinv = deg^(-1/2) multiplies: inside the edge sum (reference) or
  around it (kernel); dinv is nonnegative and finite, and such a factor distributes over a sum of extended reals.
-/
import proofs.«427309_j66967130079866_2_alg».proof.Defs
import proofs.«427309_j66967130079866_2_alg».proof.Proof.Gen.Kernel
import proofs.«427309_j66967130079866_2_alg».proof.Proof.Gen.KernelIdeal
import proofs.«427309_j66967130079866_2_alg».proof.Proof.Gen.ReferenceIdeal
import proofs.«427309_j66967130079866_2_alg».proof.Proof.Gen.Pre_finite_inputs
import proofs.«427309_j66967130079866_2_alg».proof.Proof.KB.Run
import proofs.«427309_j66967130079866_2_alg».proof.Proof.KI.Run
import proofs.«427309_j66967130079866_2_alg».proof.Proof.RefRun
import proofs.«427309_j66967130079866_2_alg».proof.Proof.Bridge
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    fun m ρ _ => (θ_run Cert.ReferenceIdeal.defs _ _).mono (fun _ h c => (h c).2) (Cert.ReferenceIdeal.ValueP.run (F := Ideal) m ρ),
    trivial,
    Cert.Bridge.algebraic⟩

end Cert.Proof

end
